-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x64 : Shape := ⟨2, ![4096, 64]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg1 : IVec S4096x4096 32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_c_6 : IVec S_ 32 := constantI S_ 32 0#32
  let main_v19 : IVec S4096x4096 32 := broadcastInDim S4096x4096 ![] bcast_S_S4096x4096 main_c_6
  let main_v20 : IVec S4096x4096 1 := cmpi .sge main_arg1 main_v19
  let main_c_7 : IVec S_ 32 := constantI S_ 32 16#32
  let main_v21 : IVec S4096x4096 32 := broadcastInDim S4096x4096 ![] bcast_S_S4096x4096 main_c_7
  let main_v22 : IVec S4096x4096 1 := cmpi .slt main_arg1 main_v21
  let main_v23 : IVec S4096x4096 1 := andi main_v20 main_v22
  let main_c_8 : IVec S_ 1 := constantI S_ 1 1#1
  let main_v24 : IVec S_ 1 := (fun x v => Host.reduce IntOp.andi x v reducesTo_S4096x4096_S_d0_1 h_S_) main_v23 main_c_8
  let main_v25 : IVec S_ 1 := andi main_v18 main_v24
  main_v25

def fn {F : FTy → Type} [FloatOps F] (main_arg0 : FVec F S4x2048x4096 .f32) (main_arg1 : IVec S4096x4096 32) (main_arg2 : FVec F S4096x64 .f32) (main_arg3 : FVec F S16x4096 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x64 .f32 := Host.absf main_arg2
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg4
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg1 main_v13 main_v16
-- ==== Kernel.lean ====
abbrev S4x2048x4096 : Shape := ⟨3, ![4, 2048, 4096]⟩
abbrev S4096x4096 : Shape := ⟨2, ![4096, 4096]⟩
abbrev S4096x64 : Shape := ⟨2, ![4096, 64]⟩
abbrev S16x4096 : Shape := ⟨2, ![16, 4096]⟩
abbrev S4096x16 : Shape := ⟨2, ![4096, 16]⟩
abbrev S16 : Shape := ⟨1, ![16]⟩
abbrev S1x16 : Shape := ⟨2, ![1, 16]⟩
abbrev S64 : Shape := ⟨1, ![64]⟩
abbrev S64x1 : Shape := ⟨2, ![64, 1]⟩
abbrev S4096 : Shape := ⟨1, ![4096]⟩
abbrev S1x4096 : Shape := ⟨2, ![1, 4096]⟩
abbrev S_ : Shape := ⟨0, ![]⟩
abbrev S64x4096 : Shape := ⟨2, ![64, 4096]⟩
abbrev S64x64 : Shape := ⟨2, ![64, 64]⟩
abbrev S1x1 : Shape := ⟨2, ![1, 1]⟩
abbrev S8192x4096 : Shape := ⟨2, ![8192, 4096]⟩
abbrev S1024x512 : Shape := ⟨2, ![1024, 512]⟩
abbrev S2048x512 : Shape := ⟨2, ![2048, 512]⟩
abbrev S16x512 : Shape := ⟨2, ![16, 512]⟩
abbrev S2048x16 : Shape := ⟨2, ![2048, 16]⟩
abbrev S1024x2048 : Shape := ⟨2, ![1024, 2048]⟩
abbrev S1024x16 : Shape := ⟨2, ![1024, 16]⟩

abbrev nBuf : Space → Nat
  | .hbm => 37
  | .vmem => 19
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x64, .f32⟩
  | .hbm, ⟨3, _⟩ => ⟨S16x4096, .f32⟩
  | .hbm, ⟨4, _⟩ => ⟨S4096x16, .f32⟩
  | .hbm, ⟨5, _⟩ => ⟨S16, .f32⟩
  | .hbm, ⟨6, _⟩ => ⟨S1x16, .f32⟩
  | .hbm, ⟨7, _⟩ => ⟨S64, .i32⟩
  | .hbm, ⟨8, _⟩ => ⟨S64x1, .i32⟩
  | .hbm, ⟨9, _⟩ => ⟨S4096, .i32⟩
  | .hbm, ⟨10, _⟩ => ⟨S1x4096, .i32⟩
  | .hbm, ⟨11, _⟩ => ⟨S_, .i32⟩
  | .hbm, ⟨12, _⟩ => ⟨S_, .i32⟩
  | .hbm, ⟨13, _⟩ => ⟨S1x4096, .i32⟩
  | .hbm, ⟨14, _⟩ => ⟨S1x4096, .i32⟩
  | .hbm, ⟨15, _⟩ => ⟨S1x4096, .i32⟩
  | .hbm, ⟨16, _⟩ => ⟨S_, .i32⟩
  | .hbm, ⟨17, _⟩ => ⟨S1x4096, .i32⟩
  | .hbm, ⟨18, _⟩ => ⟨S1x4096, .i1⟩
  | .hbm, ⟨19, _⟩ => ⟨S1x4096, .i32⟩
  | .hbm, ⟨20, _⟩ => ⟨S1x4096, .i32⟩
  | .hbm, ⟨21, _⟩ => ⟨S_, .i32⟩
  | .hbm, ⟨22, _⟩ => ⟨S1x4096, .i32⟩
  | .hbm, ⟨23, _⟩ => ⟨S1x4096, .i1⟩
  | .hbm, ⟨24, _⟩ => ⟨S1x4096, .i1⟩
  | .hbm, ⟨25, _⟩ => ⟨S_, .i32⟩
  | .hbm, ⟨26, _⟩ => ⟨S1x4096, .i32⟩
  | .hbm, ⟨27, _⟩ => ⟨S1x4096, .i32⟩
  | .hbm, ⟨28, _⟩ => ⟨S1x4096, .i32⟩
  | .hbm, ⟨29, _⟩ => ⟨S64x4096, .i32⟩
  | .hbm, ⟨30, _⟩ => ⟨S64x4096, .i32⟩
  | .hbm, ⟨31, _⟩ => ⟨S64x4096, .i1⟩
  | .hbm, ⟨32, _⟩ => ⟨S64x4096, .f32⟩
  | .hbm, ⟨33, _⟩ => ⟨S4096x4096, .bf16⟩
  | .hbm, ⟨34, _⟩ => ⟨S8192x4096, .f32⟩
  | .hbm, ⟨35, _⟩ => ⟨S8192x4096, .f32⟩
  | .hbm, ⟨36, _⟩ => ⟨S4x2048x4096, .f32⟩
  | .local _ .vmem, ⟨0, _⟩ => ⟨S64x4096, .i32⟩
  | .local _ .vmem, ⟨1, _⟩ => ⟨S64x4096, .i32⟩
  | .local _ .vmem, ⟨2, _⟩ => ⟨S64x64, .f32⟩
  | .local _ .vmem, ⟨3, _⟩ => ⟨S64x64, .f32⟩
  | .local _ .vmem, ⟨4, _⟩ => ⟨S1x16, .f32⟩
  | .local _ .vmem, ⟨5, _⟩ => ⟨S64x4096, .f32⟩
  | .local _ .vmem, ⟨6, _⟩ => ⟨S64x4096, .bf16⟩
  | .local _ .vmem, ⟨7, _⟩ => ⟨S64x4096, .bf16⟩
  | .local _ .vmem, ⟨8, _⟩ => ⟨S1024x512, .f32⟩
  | .local _ .vmem, ⟨9, _⟩ => ⟨S1024x512, .f32⟩
  | .local _ .vmem, ⟨10, _⟩ => ⟨S2048x512, .bf16⟩
  | .local _ .vmem, ⟨11, _⟩ => ⟨S2048x512, .bf16⟩
  | .local _ .vmem, ⟨12, _⟩ => ⟨S16x512, .f32⟩
  | .local _ .vmem, ⟨13, _⟩ => ⟨S16x512, .f32⟩
  | .local _ .vmem, ⟨14, _⟩ => ⟨S2048x16, .f32⟩
  | .local _ .vmem, ⟨15, _⟩ => ⟨S2048x16, .f32⟩
  | .local _ .vmem, ⟨16, _⟩ => ⟨S1024x2048, .f32⟩
  | .local _ .vmem, ⟨17, _⟩ => ⟨S1024x2048, .f32⟩
  | .local _ .vmem, ⟨18, _⟩ => ⟨S1024x16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![8, 2, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S16x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, false, true]

abbrev stage1_3 : Fin 2 → Memref sig .tc .vmem S2048x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1024x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  shapeCasts_S16_S1x16 : S16.ShapeCasts S1x16
  bcast_S64_S64x1_0 : S64.BroadcastsInDim S64x1 (![0] : Fin 1 → Fin S64x1.rank)
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S64x1_S64x4096_0_1 : S64x1.BroadcastsInDim S64x4096 (![0, 1] : Fin 2 → Fin S64x4096.rank)
  bcast_S1x4096_S64x4096_0_1 : S1x4096.BroadcastsInDim S64x4096 (![0, 1] : Fin 2 → Fin S64x4096.rank)
  inb_S64x4096_S64x4096_0_0 : ∀ a, (![0, 0] : Fin 2 → Nat) a + S64x4096.size a ≤ S64x4096.size a
  h_S64x4096 : 0 < S64x4096.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  slices_S1x16_o0_1_S1x1 : S1x16.Slices ![0, 1] S1x1
  inpos_S1x1_p0_0 : ∀ a, (![0, 0] : Fin 2 → Nat) a < S1x1.size a
  slices_S1x16_o0_0_S1x1 : S1x16.Slices ![0, 0] S1x1
  slices_S1x16_o0_3_S1x1 : S1x16.Slices ![0, 3] S1x1
  slices_S1x16_o0_2_S1x1 : S1x16.Slices ![0, 2] S1x1
  slices_S1x16_o0_5_S1x1 : S1x16.Slices ![0, 5] S1x1
  slices_S1x16_o0_4_S1x1 : S1x16.Slices ![0, 4] S1x1
  slices_S1x16_o0_7_S1x1 : S1x16.Slices ![0, 7] S1x1
  slices_S1x16_o0_6_S1x1 : S1x16.Slices ![0, 6] S1x1
  slices_S1x16_o0_9_S1x1 : S1x16.Slices ![0, 9] S1x1
  slices_S1x16_o0_8_S1x1 : S1x16.Slices ![0, 8] S1x1
  slices_S1x16_o0_11_S1x1 : S1x16.Slices ![0, 11] S1x1
  slices_S1x16_o0_10_S1x1 : S1x16.Slices ![0, 10] S1x1
  slices_S1x16_o0_13_S1x1 : S1x16.Slices ![0, 13] S1x1
  slices_S1x16_o0_12_S1x1 : S1x16.Slices ![0, 12] S1x1
  slices_S1x16_o0_15_S1x1 : S1x16.Slices ![0, 15] S1x1
  slices_S1x16_o0_14_S1x1 : S1x16.Slices ![0, 14] S1x1
  inb_S64x64_S64x64_0_0 : ∀ a, (![0, 0] : Fin 2 → Nat) a + S64x64.size a ≤ S64x64.size a
  h_S64x64 : 0 < S64x64.numel
  shapeCasts_S64x4096_S64x4096 : S64x4096.ShapeCasts S64x4096
  bitsLt_bf16_f32 : FTy.bits .bf16 < FTy.bits .f32
  packedbf16_S64x4096_S64x4096_0_0 : (Rect.unit (s := S64x4096) ![0, 0] S64x4096.size inb_S64x4096_S64x4096_0_0).PackedRows (EltTy.packing .bf16)
  shapeCasts_S4x2048x4096_S8192x4096 : S4x2048x4096.ShapeCasts S8192x4096
  inb_S1024x2048_S1024x2048_0_0 : ∀ a, (![0, 0] : Fin 2 → Nat) a + S1024x2048.size a ≤ S1024x2048.size a
  h_S1024x2048 : 0 < S1024x2048.numel
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S1024x2048_S1024x2048 : S1024x2048.ShapeCasts S1024x2048
  inb_S16x512_S16x512_0_0 : ∀ a, (![0, 0] : Fin 2 → Nat) a + S16x512.size a ≤ S16x512.size a
  h_S16x512 : 0 < S16x512.numel
  inb_S2048x16_S2048x16_0_0 : ∀ a, (![0, 0] : Fin 2 → Nat) a + S2048x16.size a ≤ S2048x16.size a
  h_S2048x16 : 0 < S2048x16.numel
  shapeCasts_S8192x4096_S4x2048x4096 : S8192x4096.ShapeCasts S4x2048x4096
  dot_S64x64_S64x4096_S64x4096_1_0_0_1_n_n_wf : DotDims.WF S64x64 S64x4096 S64x4096 [1] [0] [0] [1] [] []
  dot_S1024x512_S2048x512_S1024x2048_1_1_0_0_n_n_wf : DotDims.WF S1024x512 S2048x512 S1024x2048 [1] [1] [0] [0] [] []
  dot_S1024x512_S16x512_S1024x16_1_1_0_0_n_n_wf : DotDims.WF S1024x512 S16x512 S1024x16 [1] [1] [0] [0] [] []
  dot_S1024x16_S2048x16_S1024x2048_1_1_0_0_n_n_wf : DotDims.WF S1024x16 S2048x16 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S4096x4096.size a
  hwx0_0 : ∀ i : grid0.Coords, EltTy.bits .i32 = 32 ∨ (Rect.block (s := S4096x4096) S64x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S4096x64.size a
  hwx0_1 : ∀ i : grid0.Coords, EltTy.bits .f32 = 32 ∨ (Rect.block (s := S4096x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S64x4096.size a
  hwx0_3 : ∀ i : grid0.Coords, EltTy.bits .f32 = 32 ∨ (Rect.block (s := S64x4096) S64x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x4096.size a ≤ S4096x4096.size a
  hwx0_4 : ∀ i : grid0.Coords, EltTy.bits .bf16 = 32 ∨ (Rect.block (s := S4096x4096) S64x4096.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .f32 = 32 ∨ (Rect.block (s := S8192x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x4096.size a
  hwx1_1 : ∀ i : grid1.Coords, EltTy.bits .bf16 = 32 ∨ (Rect.block (s := S4096x4096) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x512.size a ≤ S16x4096.size a
  hwx1_2 : ∀ i : grid1.Coords, EltTy.bits .f32 = 32 ∨ (Rect.block (s := S16x4096) S16x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x16.size a ≤ S4096x16.size a
  hwx1_3 : ∀ i : grid1.Coords, EltTy.bits .f32 = 32 ∨ (Rect.block (s := S4096x16) S2048x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x2048.size a ≤ S8192x4096.size a
  hwx1_4 : ∀ i : grid1.Coords, EltTy.bits .f32 = 32 ∨ (Rect.block (s := S8192x4096) S1024x2048.size (cc1_transform_4 i) (hinb1_4 i)).WholeWords (EltTy.packing .f32)

variable [Facts₀]

def dot_S64x64_S64x4096_S64x4096_1_0_0_1_n_n : DotDims S64x64 S64x4096 S64x4096 where
  lhsContracting := [1]
  rhsContracting := [0]
  lhsNonContracting := [0]
  rhsNonContracting := [1]
  lhsBatch := []
  rhsBatch := []
  wf := dot_S64x64_S64x4096_S64x4096_1_0_0_1_n_n_wf
def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf
def dot_S1024x512_S16x512_S1024x16_1_1_0_0_n_n : DotDims S1024x512 S16x512 S1024x16 where
  lhsContracting := [1]
  rhsContracting := [1]
  lhsNonContracting := [0]
  rhsNonContracting := [0]
  lhsBatch := []
  rhsBatch := []
  wf := dot_S1024x512_S16x512_S1024x16_1_1_0_0_n_n_wf
def dot_S1024x16_S2048x16_S1024x2048_1_1_0_0_n_n : DotDims S1024x16 S2048x16 S1024x2048 where
  lhsContracting := [1]
  rhsContracting := [1]
  lhsNonContracting := [0]
  rhsNonContracting := [0]
  lhsBatch := []
  rhsBatch := []
  wf := dot_S1024x16_S2048x16_S1024x2048_1_1_0_0_n_n_wf

abbrev win0_0 : Pipeline.Window sig grid0 :=
  Pipeline.Window.ofSpec (Memref.whole main_arg1) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S64x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S64x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v11) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S16x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S2048x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1024x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x64 : Shape := ⟨2, ![4096, 64]⟩
abbrev S16x4096 : Shape := ⟨2, ![16, 4096]⟩
abbrev S4096x16 : Shape := ⟨2, ![4096, 16]⟩
abbrev S16 : Shape := ⟨1, ![16]⟩
abbrev S_ : Shape := ⟨0, ![]⟩
abbrev S4096x4096x1 : Shape := ⟨3, ![4096, 4096, 1]⟩
abbrev S4096x64x64 : Shape := ⟨3, ![4096, 64, 64]⟩
abbrev S4096x64x1 : Shape := ⟨3, ![4096, 64, 1]⟩
abbrev S4x2048x16 : Shape := ⟨3, ![4, 2048, 16]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x64, .f32⟩
  | .hbm, ⟨3, _⟩ => ⟨S16x4096, .f32⟩
  | .hbm, ⟨4, _⟩ => ⟨S4096x16, .f32⟩
  | .hbm, ⟨5, _⟩ => ⟨S16, .f32⟩
  | .hbm, ⟨6, _⟩ => ⟨S_, .i32⟩
  | .hbm, ⟨7, _⟩ => ⟨S4096x4096, .i32⟩
  | .hbm, ⟨8, _⟩ => ⟨S4096x4096, .i1⟩
  | .hbm, ⟨9, _⟩ => ⟨S_, .i32⟩
  | .hbm, ⟨10, _⟩ => ⟨S4096x4096, .i32⟩
  | .hbm, ⟨11, _⟩ => ⟨S4096x4096, .i32⟩
  | .hbm, ⟨12, _⟩ => ⟨S4096x4096, .i32⟩
  | .hbm, ⟨13, _⟩ => ⟨S4096x4096x1, .i32⟩
  | .hbm, ⟨14, _⟩ => ⟨S4096x4096, .f32⟩
  | .hbm, ⟨15, _⟩ => ⟨S4096x64x64, .f32⟩
  | .hbm, ⟨16, _⟩ => ⟨S4096x64x1, .f32⟩
  | .hbm, ⟨17, _⟩ => ⟨S4096x64x64, .f32⟩
  | .hbm, ⟨18, _⟩ => ⟨S4096x64x64, .f32⟩
  | .hbm, ⟨19, _⟩ => ⟨S4096x4096, .f32⟩
  | .hbm, ⟨20, _⟩ => ⟨S4x2048x4096, .f32⟩
  | .hbm, ⟨21, _⟩ => ⟨S4x2048x16, .f32⟩
  | .hbm, ⟨22, _⟩ => ⟨S4x2048x4096, .f32⟩
  | .hbm, ⟨23, _⟩ => ⟨S_, .f32⟩
  | .hbm, ⟨24, _⟩ => ⟨S4x2048x4096, .f32⟩
  | .hbm, ⟨25, _⟩ => ⟨S4x2048x4096, .f32⟩
  | .hbm, ⟨26, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  shapeCasts_S4096x4096_S4096x64x64 : S4096x4096.ShapeCasts S4096x64x64
  bcast_S4096x64_S4096x64x1_0_1 : S4096x64.BroadcastsInDim S4096x64x1 (![0, 1] : Fin 2 → Fin S4096x64x1.rank)
  bcast_S4096x64x1_S4096x64x64_0_1_2 : S4096x64x1.BroadcastsInDim S4096x64x64 (![0, 1, 2] : Fin 3 → Fin S4096x64x64.rank)
  shapeCasts_S4096x64x64_S4096x4096 : S4096x64x64.ShapeCasts S4096x4096
  bcast_S_S4x2048x4096 : S_.BroadcastsInDim S4x2048x4096 (![] : Fin 0 → Fin S4x2048x4096.rank)
  gather_S16_S4096x4096x1_S4096x4096_n_0_n_n_0_2_1_wf : GatherDims.WF S16 S4096x4096x1 S4096x4096 [] [0] [] [0] [] 2 ![1]
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def gather_S16_S4096x4096x1_S4096x4096_n_0_n_n_0_2_1 : GatherDims S16 S4096x4096x1 S4096x4096 where
  offsetDims := []
  collapsedSliceDims := [0]
  operandBatchingDims := []
  startIndicesBatchingDims := []
  startIndexMap := [0]
  indexVectorDim := 2
  sliceSizes := ![1]
  wf := gather_S16_S4096x4096x1_S4096x4096_n_0_n_n_0_2_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.K.R0Defs.lean ====
/-
  The dequantization region: what it reads and what it leaves, as definitions.

  The region walks the weight matrix in 64 strips of 64 rows. At strip `t` it is handed four blocks: the strip's integer
  codes (64 x 4096), the strip's group scales (64 x 64), the row of sixteen levels (1 x 16) and the group selector
  (64 x 4096), the last two the same at every strip. It writes one block, the strip of the dequantized weight:
  the level chosen by each code's low four bits times that row's scales contracted against the selector.
  `deq` is that block as one pure function of the four blocks read; `dat0` records, strip by strip, that every input block is
  left as found and the output block is `deq` of them.
-/
import proofs.«407792_j46918222742185_2_alg».proof.Proof.Gen.Kernel.Launch
import proofs.«407792_j46918222742185_2_alg».proof.Proof.Gen.Kernel.Skeleton
import proofs.«407792_j46918222742185_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: every statement below is over this parameter
variable (V : (c : Dev nD) → (b : Ref sig .tc) → Buf (Elt F) ((c : Thread nD τ).loc b))

/-- Window `w`'s block at strip `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The four input blocks at strip `t`, at their literal types: codes, scales, levels, selector. -/
abbrev qblk (c : Dev nD) (t : Fin cfg0.N) : Vec F S64x4096 .i32 := iblk0 V c 0 t
abbrev sblk (c : Dev nD) (t : Fin cfg0.N) : Vec F S64x64 .f32 := iblk0 V c 1 t
abbrev cblk (c : Dev nD) (t : Fin cfg0.N) : Vec F S1x16 .f32 := iblk0 V c 2 t
abbrev eblk (c : Dev nD) (t : Fin cfg0.N) : Vec F S64x4096 .f32 := iblk0 V c 3 t

/-- The strip of the dequantized weight from the four blocks read: the body's one stored value. -/
def deq (wq : Vec F S64x4096 .i32) (sc : Vec F S64x64 .f32) (cb : Vec F S1x16 .f32) (ex : Vec F S64x4096 .f32) : Vec F S64x4096 .bf16 :=
  k0_pay1 (k0_pay2 cb) (k0_pay3 wq) (k0_pay4 wq) (k0_pay5 wq) (k0_pay6 wq) (k0_pay7 wq cb) (k0_pay8 wq cb) (k0_pay9 wq cb) (k0_pay10 wq cb) sc ex

/-- What the region's five staging buffers hold after the body at strip `t`: the inputs their blocks, the output `deq` of them.
    Nothing is carried between strips and nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => deq (qblk V c t) (sblk V c t) (cblk V c t) (eblk V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = deq (qblk V c t) (sblk V c t) (cblk V c t) (eblk V c t) := by dsimp only [dat0]

end Cert.Kernel.Hand

end
-- ==== Proof.K.Region0.lean ====
/-
  The dequantization region's body, run: from memrefs holding the four blocks read (and the output's at anything) the body
  ends with the inputs as they were and the output's memref at the strip of the dequantized weight, `deq` of the four.
  The body loads each input whole, computes, and stores the result whole, once; so what the output's buffer holds
  afterwards is that one stored value, whatever it held before. From that, the library's obligation for the region's
  record `dat0` at every strip: each input's current buffer holds its block, whether it was fetched at this strip or
  is still there from the first (the level row and the selector are fetched once and their block never moves).
-/
import proofs.«407792_j46918222742185_2_alg».proof.Proof.Gen.Kernel.Launch
import proofs.«407792_j46918222742185_2_alg».proof.Proof.Gen.Kernel.Skeleton
import proofs.«407792_j46918222742185_2_alg».proof.Proof.Gen.Kernel.Points
import proofs.«407792_j46918222742185_2_alg».proof.Proof.K.R0Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: every statement below is over this parameter
variable (V : (c : Dev nD) → (b : Ref sig .tc) → Buf (Elt F) ((c : Thread nD τ).loc b))

/-! ## Each input's buffer holds its block at every strip -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body's one store -/

/-- The whole-buffer rectangles the body loads and stores through. -/
abbrev rQ : Rect S64x4096 := Rect.unit (s := S64x4096) ![0, 0] S64x4096.size inb_S64x4096_S64x4096_0_0
abbrev rS : Rect S64x64 := Rect.unit (s := S64x64) ![0, 0] S64x64.size inb_S64x64_S64x64_0_0
abbrev rC : Rect S1x16 := Rect.unit (s := S1x16) ![0, 0] S1x16.size inb_S1x16_S1x16_0_0

theorem hz2 : (![0, 0] : Fin 2 → Nat) = fun _ => 0 := by
  funext a; match a with | ⟨0, _⟩ => rfl | ⟨1, _⟩ => rfl

/-- What the output's buffer holds after the body, as the one piece stored over the loads of the inputs. -/
def out0_4 (x1 : Vec F S64x4096 .i32) (x2 : Vec F S64x64 .f32) (x3 : Vec F S1x16 .f32) (x4 : Vec F S64x4096 .f32) : Vec F S64x4096 .bf16 :=
  View.canon [⟨rQ, deq (View.ld x1 rQ) (View.ld x2 rS) (View.ld x3 rC) (View.ld x4 rQ)⟩]

/-- A whole-buffer store leaves its value and a whole-buffer load reads what is there: the piece is `deq` of the blocks. -/
theorem out0_4_eq (x1 : Vec F S64x4096 .i32) (x2 : Vec F S64x64 .f32) (x3 : Vec F S1x16 .f32) (x4 : Vec F S64x4096 .f32) :
    out0_4 x1 x2 x3 x4 = deq x1 x2 x3 x4 := by
  unfold out0_4
  rw [View.canon_unit_zero hz2]
  simp only [View.ld_unit_zero (S := S64x4096) hz2, View.ld_unit_zero (S := S64x64) hz2, View.ld_unit_zero (S := S1x16) hz2]

theorem cover0_4 (p0 : Vec F S64x4096 .bf16) (y : S64x4096.Idx) :
    ∃ pc ∈ ([⟨rQ, p0⟩] : List (View.Piece (Elt F) S64x4096 .bf16)), y ∈ pc.1.set :=
  View.cover_of_tiled [⟨rQ, p0⟩] S64x4096.size (by rfl) y

/-! ## The body's triple -/

set_option maxHeartbeats 2000000 in
theorem sound_kernel0 (c : Dev nD) (E : Set ℕ) (i : grid0.Coords)
    (arg1 : Memref sig .tc .vmem S64x4096 .i32) (harg1 : arg1.IsWhole) (arg2 : Memref sig .tc .vmem S64x64 .f32) (harg2 : arg2.IsWhole)
    (arg3 : Memref sig .tc .vmem S1x16 .f32) (harg3 : arg3.IsWhole) (arg4 : Memref sig .tc .vmem S64x4096 .f32) (harg4 : arg4.IsWhole)
    (arg5 : Memref sig .tc .vmem S64x4096 .bf16) (harg5 : arg5.IsWhole)
    (x1 : Vec F S64x4096 .i32) (x2 : Vec F S64x64 .f32) (x3 : Vec F S1x16 .f32) (x4 : Vec F S64x4096 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (out0_4 x1 x2 x3 x4)) -∗ K ⟨⟩))
      ⊢ wp frame (wpE (defs₀ (F := F)) Variants.none c none) E (cc0__dequant_kernel i arg1 harg1 arg2 harg2 arg3 harg3 arg4 harg4 arg5 harg5) K := by
  simp only [cc0__dequant_kernel_eq_skeleton]; unfold cc0__dequant_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_4 _)

/-! ## The obligation, at a generic strip -/

/-- What the body is called with at strip `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any strip: the inputs' memrefs hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, ← out0_4_eq]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's obligation, at every strip. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Defs.lean ====
/-
  The matrix-product region with the low-rank adapter: what it reads and what it leaves, as definitions.

  The grid is 8 row tiles by 2 column tiles by 8 steps along the contraction, the contraction innermost: point `t` is at
  step `t mod 8`. At a point the region is handed a 1024 x 512 block of the flattened input, a 2048 x 512 block of the
  dequantized weight, a 16 x 512 block of the adapter's first factor and a 2048 x 16 block of its second. Its output block
  (1024 x 2048) stays in place over the eight steps of a tile and is written back only after the last; a 1024 x 16 scratch
  is carried beside it. One step does this to the pair (output block, scratch):
    at step 0 both start from the float zero, otherwise from what the step before left;
    the output block gains this step's partial product input-block times weight-block transposed,
    the scratch gains input-block times first-factor-block transposed;
    at step 7 the output block moreover gains twice (scratch times second-factor-block transposed).
  `step1` is that, as a pure function; `outsAt1` folds it over the points; `dat1` is the region's record of it, with the
  scratch's contents carried in the invariant `PhiS1`.
-/
import proofs.«407792_j46918222742185_2_alg».proof.Proof.Gen.Kernel.Launch
import proofs.«407792_j46918222742185_2_alg».proof.Proof.Gen.Kernel.Skeleton
import proofs.«407792_j46918222742185_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: every statement below is over this parameter
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The four input blocks at point `t`, at their literal types: input, weight, first factor, second factor. -/
abbrev xblk (c : Dev nD) (t : Fin cfg1.N) : Vec F S1024x512 .f32 := iblk1 V c 0 t
abbrev wblk (c : Dev nD) (t : Fin cfg1.N) : Vec F S2048x512 .bf16 := iblk1 V c 1 t
abbrev ablk (c : Dev nD) (t : Fin cfg1.N) : Vec F S16x512 .f32 := iblk1 V c 2 t
abbrev bblk (c : Dev nD) (t : Fin cfg1.N) : Vec F S2048x16 .f32 := iblk1 V c 3 t

/-- One point's effect on the pair (output block, scratch) at contraction step `k`, from the four blocks read and what
    the point before left. -/
def step1 (k : ℕ) (x : Vec F S1024x512 .f32) (w : Vec F S2048x512 .bf16) (a : Vec F S16x512 .f32) (b : Vec F S2048x16 .f32)
    (prev : Vec F S1024x2048 .f32 × Vec F S1024x16 .f32) : Vec F S1024x2048 .f32 × Vec F S1024x16 .f32 :=
  let o0 : Vec F S1024x2048 .f32 := if k = 0 then k1_pay1 else prev.1
  let s0 : Vec F S1024x16 .f32 := if k = 0 then k1_pay2 else prev.2
  let o : Vec F S1024x2048 .f32 := k1_pay4 x w o0
  let s : Vec F S1024x16 .f32 := k1_pay5 x a s0
  (if k = 7 then k1_pay6 b s o else o, s)

/-- What the output block's staging buffer and the scratch hold after the body at point `n`. -/
def outsAt1 (c : Dev nD) : (n : ℕ) → n < cfg1.N → Vec F S1024x2048 .f32 × Vec F S1024x16 .f32
  | 0, hn => step1 0 (xblk V c ⟨0, hn⟩) (wblk V c ⟨0, hn⟩) (ablk V c ⟨0, hn⟩) (bblk V c ⟨0, hn⟩) (k1_pay1, k1_pay2)
  | n + 1, hn => step1 ((n + 1) % 8) (xblk V c ⟨n + 1, hn⟩) (wblk V c ⟨n + 1, hn⟩) (ablk V c ⟨n + 1, hn⟩) (bblk V c ⟨n + 1, hn⟩)
      (outsAt1 c n (Nat.lt_of_succ_lt hn))

theorem outsAt1_zero (c : Dev nD) (hn : 0 < cfg1.N) :
    outsAt1 V c 0 hn = step1 0 (xblk V c ⟨0, hn⟩) (wblk V c ⟨0, hn⟩) (ablk V c ⟨0, hn⟩) (bblk V c ⟨0, hn⟩) (k1_pay1, k1_pay2) := rfl

theorem outsAt1_succ (c : Dev nD) (n : ℕ) (hn : n + 1 < cfg1.N) :
    outsAt1 V c (n + 1) hn = step1 ((n + 1) % 8) (xblk V c ⟨n + 1, hn⟩) (wblk V c ⟨n + 1, hn⟩) (ablk V c ⟨n + 1, hn⟩) (bblk V c ⟨n + 1, hn⟩)
      (outsAt1 V c n (Nat.lt_of_succ_lt hn)) := rfl

/-- The scratch the region carries between points, as a whole memref. -/
abbrev scM1 : Memref sig .tc .vmem S1024x16 .f32 := Memref.whole cc1_scratch0

/-- The scoped buffers this region never touches (the other region's staging buffers), each whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The region's invariant before point `n`: before the first point, the scoped rest at anything beside the generator
    register; afterwards the same with the scratch at what the point before left in it. -/
def PhiS1 (c : Dev nD) : (n : ℕ) → n ≤ cfg1.N → sProp 𝕄
  | 0, _ => Pipeline.ΦA spec1 c
  | n + 1, hn => iprop(iprop(rest1 (F := F) c ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(rest1 (F := F) c ∗ owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(iprop(rest1 (F := F) c ∗ owns (c : Thread nD τ) scM1 fullShare ((outsAt1 V c (n - 1) (by omega)).2)) ∗ (∃ r, prngReg c r)) := by
  cases n with
  | zero => exact absurd rfl hz
  | succ n => rfl

/-- The region's record: the arrays as found; after the body at point `t` every input block as found and the output block at
    `outsAt1`'s first component; the scratch carried in the invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

end Cert.Kernel.Hand

end
-- ==== Proof.K.Run.lean ====
/-
  The whole program's run. The program is seven items in a row: three stretches of host operations (the level row; the
  selector's integer division; the selector itself), the dequantization region, one host operation (the input flattened
  to rows), the matrix-product region, one host operation (the result folded back to batch and position).
  `W0` … `W7` are the contents of every unscoped buffer at the eight boundaries: a host stretch applies its operations;
  a region leaves its input arrays as found, its output array at what its write-backs leave, every other buffer as found.
  Each item is a segment entered from one boundary's contents and left at the next one's, the generator register and the
  core's (empty) debts riding along; the launch theorem then says every weakly fair execution ends, with every unscoped
  buffer at `W7`. Read at the arguments that is the frame; read at the result it is the value.
-/
import proofs.«407792_j46918222742185_2_alg».proof.Proof.K.Region0
import proofs.«407792_j46918222742185_2_alg».proof.Proof.K.R1Defs
import proofs.«407792_j46918222742185_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the boundaries -/

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
/-- The same read at the core's references: what the dequantization region is entered with. -/
abbrev V3 : (c : Dev nD) → (b : Ref sig .tc) → Buf (Elt F) ((c : Thread nD τ).loc b) := fun c b => W3 m c b
/-- After the dequantization region. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

abbrev W5 : Dev nD → Valuation τ sig (Elt F) := fun c => StableHlo.after hostOps1 (W4 m c)
/-- What the matrix-product region is entered with. -/
abbrev V5 : (c : Dev nD) → (b : Ref sig .tc) → Buf (Elt F) ((c : Thread nD τ).loc b) := fun c b => W5 m c b
/-- After the matrix-product region. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

abbrev W7 : Dev nD → Valuation τ sig (Elt F) := fun c => StableHlo.after hostOps2 (W6 m c)

/-! ## The proof data family and what rides along -/

abbrev adm' : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm' p) c
  | ⟨0, _⟩ => fun c => dat0 (V3 m) c
  | ⟨1, _⟩ => fun c => dat1 (V5 m) c

abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The dequantization region as a segment -/

set_option backward.isDefEq.respectTransparency.types false in
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The matrix-product region as a segment, given its body's obligation and its invariant's two ends -/

/-- The generator register, the (empty) tables and the scoped buffers no window stages make the class's invariant, -/
theorem toΦA1 (c : Dev nD) (P : sProp 𝕄) :
    iprop((∃ r, prngReg c r) ∗ P ∗ Pipeline.scopedRest spec1 c) ⊢ (Pipeline.ΦA spec1 c : sProp 𝕄) := by
  unfold Pipeline.ΦA
  iintro ⟨Hp, -, Hr⟩
  isplitl [Hr]; · iexact Hr
  iexact Hp

/-- and it gives them back. -/
theorem ofΦA1 (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

/-- The last boundary's thread state, regrouped: the buffers and the register on one side, the debts on the other. -/
theorem last_chain (c : Dev nD) (H : sProp 𝕄) :
    iprop(H ∗ R c) ⊢ iprop((H ∗ ∃ r, prngReg c r) ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
def reg1
    (hb1 : ∀ (V : (c : Dev nD) → (b : Ref sig .tc) → Buf (Elt F) ((c : Thread nD τ).loc b)) (c : Dev nD),
      BodyObligation (dat1 (F := F) V c) (defs₀ (F := F)) Variants.none () Set.univ)
    (hi1 : ∀ (V : (c : Dev nD) → (b : Ref sig .tc) → Buf (Elt F) ((c : Thread nD τ).loc b)) (c : Dev nD),
      (Pipeline.ΦA spec1 c : sProp 𝕄) ⊢ (dat1 (F := F) V c).Φ 0)
    (ho1 : ∀ (V : (c : Dev nD) → (b : Ref sig .tc) → Buf (Elt F) ((c : Thread nD τ).loc b)) (c : Dev nD),
      (dat1 (F := F) V c).Φ (Fin.last cfg1.N) ⊢ (Pipeline.ΦA spec1 c : sProp 𝕄)) :
    Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (hb1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toΦA1 c _).trans (hi1 (V5 m) c)
  hout c := by
    rw [Pipeline.ownSems0_none]
    exact (ho1 (V5 m) c).trans (ofΦA1 c)
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The seven items as segments, and the launch -/

abbrev segs
    (hb1 : ∀ (V : (c : Dev nD) → (b : Ref sig .tc) → Buf (Elt F) ((c : Thread nD τ).loc b)) (c : Dev nD),
      BodyObligation (dat1 (F := F) V c) (defs₀ (F := F)) Variants.none () Set.univ)
    (hi1 : ∀ (V : (c : Dev nD) → (b : Ref sig .tc) → Buf (Elt F) ((c : Thread nD τ).loc b)) (c : Dev nD),
      (Pipeline.ΦA spec1 c : sProp 𝕄) ⊢ (dat1 (F := F) V c).Φ 0)
    (ho1 : ∀ (V : (c : Dev nD) → (b : Ref sig .tc) → Buf (Elt F) ((c : Thread nD τ).loc b)) (c : Dev nD),
      (dat1 (F := F) V c).Φ (Fin.last cfg1.N) ⊢ (Pipeline.ΦA spec1 c : sProp 𝕄)) :
    List (Pipeline.Seg (pcfgs (F := F)) adm' (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m hb1 hi1 ho1),
    .host (hseg hostOps2 hostOps2_sub hostOps2_fresh (W6 m)) ]

set_option backward.isDefEq.respectTransparency.types false in
/-- Every weakly fair execution of the program from memory `m` with zero counters terminates, nothing faulting, and every
    final state has every unscoped buffer at `W7`. -/
theorem run_all
    (hb1 : ∀ (V : (c : Dev nD) → (b : Ref sig .tc) → Buf (Elt F) ((c : Thread nD τ).loc b)) (c : Dev nD),
      BodyObligation (dat1 (F := F) V c) (defs₀ (F := F)) Variants.none () Set.univ)
    (hi1 : ∀ (V : (c : Dev nD) → (b : Ref sig .tc) → Buf (Elt F) ((c : Thread nD τ).loc b)) (c : Dev nD),
      (Pipeline.ΦA spec1 c : sProp 𝕄) ⊢ (dat1 (F := F) V c).Φ 0)
    (ho1 : ∀ (V : (c : Dev nD) → (b : Ref sig .tc) → Buf (Elt F) ((c : Thread nD τ).loc b)) (c : Dev nD),
      (dat1 (F := F) V c).Φ (Fin.last cfg1.N) ⊢ (Pipeline.ΦA spec1 c : sProp 𝕄)) :
    θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit_dev (pcfgs (F := F)) adm' (pdats m) () cellOf_inj emb₁ defs₀ 𝒱₀ L lv m ρ main
    (fun _ => segs m hb1 hi1 ho1)
    (fun c Q => by
      rewrite [main_chain c, Pipeline.Seg.run_eq_chain,
        show (segs m hb1 hi1 ho1).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W7 m c) ∗ ∃ r, prngReg c r))
    (hch := fun c => ⟨.rfl, .rfl, .rfl, .rfl, .rfl, .rfl, .rfl, last_chain c _⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

end Cert.Kernel.Hand

end
-- ==== Proof.K.Frame.lean ====
/-
  The run read at the arguments and at the result. No host operation writes an argument and no region may change one: a
  region reads an argument through an input window, whose array it leaves as found, or does not touch it. So each
  argument's buffer, followed back boundary by boundary from the last contents, is the launch memory's. The result's
  buffer is simply named at the last contents.
-/
import proofs.«407792_j46918222742185_2_alg».proof.Proof.K.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A buffer no host stretch writes keeps its contents across it -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
theorem W5_of (c : Dev nD) (r : Ref sig .tc) (h : r ∉ hostOps1_W) : W5 m c (Proc.devRef .tc r) = W4 m c (Proc.devRef .tc r) :=
  StableHlo.after_of_writes_sub hostOps1 _ hostOps1_writes h
theorem W7_of (c : Dev nD) (r : Ref sig .tc) (h : r ∉ hostOps2_W) : W7 m c (Proc.devRef .tc r) = W6 m c (Proc.devRef .tc r) :=
  StableHlo.after_of_writes_sub hostOps2 _ hostOps2_writes h

/-- Through the three host stretches before the first region. -/
theorem W3_launch (c : Dev nD) (r : Ref sig .tc) (h0 : r ∉ hostOps0_W) (h1 : r ∉ hostOps0_1_W) (h2 : r ∉ hostOps0_2_W) :
    W3 m c (Proc.devRef .tc r) = m ((c : Thread nD τ).loc r) :=
  (W3_of m c r h2).trans ((W2_of m c r h1).trans ((W1_of m c r h0).trans rfl))

/-- An input array of the first region is left as found. -/
theorem W4_in (c : Dev nD) (w : Fin cfg0.W) (hw : (cfg0.win w).isOut = false) :
    W4 m c (Proc.devRef .tc (Pipeline.arrRef spec0 w)) = W3 m c (Proc.devRef .tc (Pipeline.arrRef spec0 w)) :=
  (W4_arr m c w).trans (((dat0 (V3 m) c).arrAt_in w hw _).trans (A_eq0 (V3 m) c w))

/-- An input array of the second region is left as found. -/
theorem W6_in (c : Dev nD) (w : Fin cfg1.W) (hw : (cfg1.win w).isOut = false) :
    W6 m c (Proc.devRef .tc (Pipeline.arrRef spec1 w)) = W5 m c (Proc.devRef .tc (Pipeline.arrRef spec1 w)) :=
  (W6_arr m c w).trans (((dat1 (V5 m) c).arrAt_in w hw _).trans (A_eq1 (V5 m) c w))

/-! ## Each argument ends as launched -/

theorem W7_main_arg0 (c : Dev nD) : W7 m c (Proc.devRef .tc main_arg0) = m ((c : Thread nD τ).loc main_arg0) :=
  (W7_of m c main_arg0 (by decide)).trans <| (W6_of_ne m c main_arg0 (by decide)).trans <| (W5_of m c main_arg0 (by decide)).trans <|
    (W4_of_ne m c main_arg0 (by decide)).trans <| W3_launch m c main_arg0 (by decide) (by decide) (by decide)

theorem W7_main_arg1 (c : Dev nD) : W7 m c (Proc.devRef .tc main_arg1) = m ((c : Thread nD τ).loc main_arg1) :=
  (W7_of m c main_arg1 (by decide)).trans <| (W6_of_ne m c main_arg1 (by decide)).trans <| (W5_of m c main_arg1 (by decide)).trans <|
    (W4_in m c 0 rfl).trans <| W3_launch m c main_arg1 (by decide) (by decide) (by decide)

theorem W7_main_arg2 (c : Dev nD) : W7 m c (Proc.devRef .tc main_arg2) = m ((c : Thread nD τ).loc main_arg2) :=
  (W7_of m c main_arg2 (by decide)).trans <| (W6_of_ne m c main_arg2 (by decide)).trans <| (W5_of m c main_arg2 (by decide)).trans <|
    (W4_in m c 1 rfl).trans <| W3_launch m c main_arg2 (by decide) (by decide) (by decide)

theorem W7_main_arg3 (c : Dev nD) : W7 m c (Proc.devRef .tc main_arg3) = m ((c : Thread nD τ).loc main_arg3) :=
  (W7_of m c main_arg3 (by decide)).trans <| (W6_in m c 2 rfl).trans <| (W5_of m c main_arg3 (by decide)).trans <|
    (W4_of_ne m c main_arg3 (by decide)).trans <| W3_launch m c main_arg3 (by decide) (by decide) (by decide)

theorem W7_main_arg4 (c : Dev nD) : W7 m c (Proc.devRef .tc main_arg4) = m ((c : Thread nD τ).loc main_arg4) :=
  (W7_of m c main_arg4 (by decide)).trans <| (W6_in m c 3 rfl).trans <| (W5_of m c main_arg4 (by decide)).trans <|
    (W4_of_ne m c main_arg4 (by decide)).trans <| W3_launch m c main_arg4 (by decide) (by decide) (by decide)

/-! ## The frame, and the run with the result named -/

/-- Every weakly fair execution terminates, nothing faulting, with the result's buffer at the last contents and every
    argument's buffer as launched. -/
theorem run_value
    (hb1 : ∀ (V : (c : Dev nD) → (b : Ref sig .tc) → Buf (Elt F) ((c : Thread nD τ).loc b)) (c : Dev nD),
      BodyObligation (dat1 (F := F) V c) (defs₀ (F := F)) Variants.none () Set.univ)
    (hi1 : ∀ (V : (c : Dev nD) → (b : Ref sig .tc) → Buf (Elt F) ((c : Thread nD τ).loc b)) (c : Dev nD),
      (Pipeline.ΦA spec1 c : sProp 𝕄) ⊢ (dat1 (F := F) V c).Φ 0)
    (ho1 : ∀ (V : (c : Dev nD) → (b : Ref sig .tc) → Buf (Elt F) ((c : Thread nD τ).loc b)) (c : Dev nD),
      (dat1 (F := F) V c).Φ (Fin.last cfg1.N) ⊢ (Pipeline.ΦA spec1 c : sProp 𝕄)) :
    θ_run defs (onTc (τ := τ) (main (F := F))) ⟨m, fun _ => 0, ρ⟩ (fun r => ∀ c : Dev nD,
      r.2.mem ((c.tc : Thread nD τ).loc main_v13) = W7 m c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v13 (by decide)),
     (h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c)⟩) (run_all m ρ hb1 hi1 ho1)

/-- The frame: the same run with the result forgotten. -/
theorem frame
    (hb1 : ∀ (V : (c : Dev nD) → (b : Ref sig .tc) → Buf (Elt F) ((c : Thread nD τ).loc b)) (c : Dev nD),
      BodyObligation (dat1 (F := F) V c) (defs₀ (F := F)) Variants.none () Set.univ)
    (hi1 : ∀ (V : (c : Dev nD) → (b : Ref sig .tc) → Buf (Elt F) ((c : Thread nD τ).loc b)) (c : Dev nD),
      (Pipeline.ΦA spec1 c : sProp 𝕄) ⊢ (dat1 (F := F) V c).Φ 0)
    (ho1 : ∀ (V : (c : Dev nD) → (b : Ref sig .tc) → Buf (Elt F) ((c : Thread nD τ).loc b)) (c : Dev nD),
      (dat1 (F := F) V c).Φ (Fin.last cfg1.N) ⊢ (Pipeline.ΦA spec1 c : sProp 𝕄)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_value m ρ hb1 hi1 ho1)

end Cert.Kernel.Hand

end
-- ==== Proof.K.Region1.lean ====
/-
  The matrix-product region with the low-rank adapter: the body at every point, and the library's body obligation.

  The body's control depends on the point only through the contraction step `k = t mod 8` (the contraction is the innermost
  grid axis). It branches twice on `k`:
    `k = 0`      the output block and the scratch are zero-filled first, then both gain this step's product;
    `0 < k < 7`  both gain this step's product over what they held;
    `k = 7`      both gain this step's product, and the output block then gains the adapter's correction, computed from the
                 second factor's block and the scratch as just updated.
  Every load and every store is of a whole buffer. So in each case the body's triple can name what every buffer holds
  afterwards outright: the four input buffers as found; the output buffer and the scratch at the payload of their LAST store,
  in which every value read back after an earlier store is that earlier store's payload. Those payloads are exactly the two
  components of `step1 k`.

  Between points the output block stays in its staging buffer (it is written back only after step 7, and the next point, of
  step 0, overwrites it before reading), and the scratch is carried by the invariant. Hence at a point not of step 0 the
  body finds both at what the point before left; at a point of step 0 what they hold is irrelevant. The obligation is the
  case split on `k`, each leaf that case's triple, joined to the record `dat1` by the case's equation for `outsAt1`.
-/
import proofs.«407792_j46918222742185_2_alg».proof.Proof.K.R1Defs
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions in closed form -/

/-- The first conditional's condition (the contraction coordinate is 0), as the body's scalar chain spells it. -/
abbrev cond1_0 (i : grid1.Coords) : Prop :=
  Scalar.cmpi .ne (Scalar.extui (Scalar.cmpi .eq (BitVec.ofNat 32 (i 2).val) 0#32)) 0#32 = 1#1
/-- The second conditional's condition (the contraction coordinate is 7). -/
abbrev cond1_1 (i : grid1.Coords) : Prop :=
  Scalar.cmpi .ne (Scalar.extui (Scalar.cmpi .eq (BitVec.ofNat 32 (i 2).val) 7#32)) 0#32 = 1#1

/-- The contraction is the innermost grid axis: point `t` is at step `t mod 8`. -/
theorem coord2_eq : ∀ t : Fin cfg1.N, (grid1.coords t 2).val = t.val % 8 :=
  (by decide +kernel : ∀ t : Fin grid1.N, (grid1.coords t 2).val = t.val % 8)
/-- The first condition holds exactly at the points of step 0, -/
theorem hcond1_0 : ∀ t : Fin cfg1.N, cond1_0 (grid1.coords t) ↔ t.val % 8 = 0 :=
  (by decide +kernel : ∀ t : Fin grid1.N, cond1_0 (grid1.coords t) ↔ t.val % 8 = 0)
/-- the second exactly at the points of step 7. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Whole-buffer accesses -/

/-- The literal offsets of every access of the body are the zero offsets. -/
theorem off_S1024x512 : (![0, 0] : Fin S1024x512.rank → ℕ) = fun _ => 0 := by
  funext a; match a with | ⟨0, _⟩ => rfl | ⟨1, _⟩ => rfl
theorem off_S2048x512 : (![0, 0] : Fin S2048x512.rank → ℕ) = fun _ => 0 := by
  funext a; match a with | ⟨0, _⟩ => rfl | ⟨1, _⟩ => rfl
theorem off_S16x512 : (![0, 0] : Fin S16x512.rank → ℕ) = fun _ => 0 := by
  funext a; match a with | ⟨0, _⟩ => rfl | ⟨1, _⟩ => rfl
theorem off_S2048x16 : (![0, 0] : Fin S2048x16.rank → ℕ) = fun _ => 0 := by
  funext a; match a with | ⟨0, _⟩ => rfl | ⟨1, _⟩ => rfl
theorem off_S1024x2048 : (![0, 0] : Fin S1024x2048.rank → ℕ) = fun _ => 0 := by
  funext a; match a with | ⟨0, _⟩ => rfl | ⟨1, _⟩ => rfl
theorem off_S1024x16 : (![0, 0] : Fin S1024x16.rank → ℕ) = fun _ => 0 := by
  funext a; match a with | ⟨0, _⟩ => rfl | ⟨1, _⟩ => rfl

/-- A store through the whole-shape rectangle, made last, leaves its payload: whatever the buffer held and whatever
    was stored before, the buffer then reads the payload. -/
theorem read_writes_cons_whole1 {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  funext y
  rw [View.read_writes_apply_eq_canon v f y _ ⟨_, List.mem_cons.mpr (Or.inl rfl), View.mem_set_unit_zero h inb y⟩,
    View.canon_cons_unit_zero h inb]

/-! ## The body in its three control cases

The body branches twice on the contraction step `k`: it zero-fills the output block and the scratch when `k = 0`, and adds
the adapter's correction to the output block when `k = 7`. Every access is of a whole buffer, so in each case the buffers are
handed back at explicit contents: the four inputs as found, the output block and the scratch at the payloads of their last
stores, with every read-back of an earlier store resolved to that store's payload. -/

set_option maxHeartbeats 4800000 in
/-- Step 0: both accumulators are zero-filled first, so what they held before does not matter. The output block ends at this
    step's partial product added to the zero fill, the scratch at the input block times the first factor's block added to
    its zero fill. -/
theorem run1_first (c : Dev nD) (E : Set ℕ) (i : grid1.Coords) (arg3 : Memref sig .tc .vmem S1024x512 .f32) (harg3 : arg3.IsWhole) (arg4 : Memref sig .tc .vmem S2048x512 .bf16) (harg4 : arg4.IsWhole) (arg5 : Memref sig .tc .vmem S16x512 .f32) (harg5 : arg5.IsWhole) (arg6 : Memref sig .tc .vmem S2048x16 .f32) (harg6 : arg6.IsWhole) (arg7 : Memref sig .tc .vmem S1024x2048 .f32) (harg7 : arg7.IsWhole) (arg8 : Memref sig .tc .vmem S1024x16 .f32) (harg8 : arg8.IsWhole)
    (hc0 : cond1_0 i) (hc1 : ¬cond1_1 i)
    (x : Vec F S1024x512 .f32) (w : Vec F S2048x512 .bf16) (a : Vec F S16x512 .f32) (b : Vec F S2048x16 .f32)
    (K : PUnit → sProp 𝕄) :
    iprop(owns (c : Thread nD τ) arg3 fullShare x ∗ owns (c : Thread nD τ) arg4 fullShare w ∗ owns (c : Thread nD τ) arg5 fullShare a
        ∗ owns (c : Thread nD τ) arg6 fullShare b ∗ (∃ d, owns (c : Thread nD τ) arg7 fullShare d) ∗ (∃ d, owns (c : Thread nD τ) arg8 fullShare d)
        ∗ (iprop(owns (c : Thread nD τ) arg3 fullShare x ∗ owns (c : Thread nD τ) arg4 fullShare w ∗ owns (c : Thread nD τ) arg5 fullShare a
        ∗ owns (c : Thread nD τ) arg6 fullShare b ∗ owns (c : Thread nD τ) arg7 fullShare (k1_pay4 x w k1_pay1)
            ∗ owns (c : Thread nD τ) arg8 fullShare (k1_pay5 x a k1_pay2)) -∗ K ⟨⟩))
      ⊢ wp frame (wpE (defs₀ (F := F)) Variants.none c none) E (cc1__mm_lora_kernel i arg3 harg3 arg4 harg4 arg5 harg5 arg6 harg6 arg7 harg7 arg8 harg8) K := by
  simp only [cc1__mm_lora_kernel_eq_skeleton]; unfold cc1__mm_lora_kernel_skel
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf3; subst hf4; subst hf5; subst hf6
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [read_writes_cons_whole1 _ _ off_S1024x2048]
    simp only [View.readAt_eq_ld, View.ld_unit_zero (S := S1024x512) off_S1024x512, View.ld_unit_zero (S := S2048x512) off_S2048x512, View.readCov_unit_zero (S := S1024x2048) _ off_S1024x2048]
  iexists _; isplitr
  swap; · iexact H8
  ipureintro
  sl_unfold_words
  rw [read_writes_cons_whole1 _ _ off_S1024x16]
  simp only [View.readAt_eq_ld, View.ld_unit_zero (S := S1024x512) off_S1024x512, View.ld_unit_zero (S := S16x512) off_S16x512, View.readCov_unit_zero (S := S1024x16) _ off_S1024x16]

set_option maxHeartbeats 4800000 in
/-- Steps 1 to 6: neither branch is taken. The output block gains this step's partial product over what it held, the scratch
    its product over what it held. -/
theorem run1_mid (c : Dev nD) (E : Set ℕ) (i : grid1.Coords) (arg3 : Memref sig .tc .vmem S1024x512 .f32) (harg3 : arg3.IsWhole) (arg4 : Memref sig .tc .vmem S2048x512 .bf16) (harg4 : arg4.IsWhole) (arg5 : Memref sig .tc .vmem S16x512 .f32) (harg5 : arg5.IsWhole) (arg6 : Memref sig .tc .vmem S2048x16 .f32) (harg6 : arg6.IsWhole) (arg7 : Memref sig .tc .vmem S1024x2048 .f32) (harg7 : arg7.IsWhole) (arg8 : Memref sig .tc .vmem S1024x16 .f32) (harg8 : arg8.IsWhole)
    (hc0 : ¬cond1_0 i) (hc1 : ¬cond1_1 i)
    (x : Vec F S1024x512 .f32) (w : Vec F S2048x512 .bf16) (a : Vec F S16x512 .f32) (b : Vec F S2048x16 .f32)
    (o : Vec F S1024x2048 .f32) (s : Vec F S1024x16 .f32) (K : PUnit → sProp 𝕄) :
    iprop(owns (c : Thread nD τ) arg3 fullShare x ∗ owns (c : Thread nD τ) arg4 fullShare w ∗ owns (c : Thread nD τ) arg5 fullShare a
        ∗ owns (c : Thread nD τ) arg6 fullShare b ∗ owns (c : Thread nD τ) arg7 fullShare o ∗ owns (c : Thread nD τ) arg8 fullShare s
        ∗ (iprop(owns (c : Thread nD τ) arg3 fullShare x ∗ owns (c : Thread nD τ) arg4 fullShare w ∗ owns (c : Thread nD τ) arg5 fullShare a
        ∗ owns (c : Thread nD τ) arg6 fullShare b ∗ owns (c : Thread nD τ) arg7 fullShare (k1_pay4 x w o)
            ∗ owns (c : Thread nD τ) arg8 fullShare (k1_pay5 x a s)) -∗ K ⟨⟩))
      ⊢ wp frame (wpE (defs₀ (F := F)) Variants.none c none) E (cc1__mm_lora_kernel i arg3 harg3 arg4 harg4 arg5 harg5 arg6 harg6 arg7 harg7 arg8 harg8) K := by
  simp only [cc1__mm_lora_kernel_eq_skeleton]; unfold cc1__mm_lora_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf3; subst hf4; subst hf5; subst hf6; subst hf7; subst hf8
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [read_writes_cons_whole1 _ _ off_S1024x2048]
    simp only [View.readAt_eq_ld, View.ld_unit_zero (S := S1024x512) off_S1024x512, View.ld_unit_zero (S := S2048x512) off_S2048x512, View.ld_unit_zero (S := S1024x2048) off_S1024x2048]
  iexists _; isplitr
  swap; · iexact H8
  ipureintro
  sl_unfold_words
  rw [read_writes_cons_whole1 _ _ off_S1024x16]
  simp only [View.readAt_eq_ld, View.ld_unit_zero (S := S1024x512) off_S1024x512, View.ld_unit_zero (S := S16x512) off_S16x512, View.ld_unit_zero (S := S1024x16) off_S1024x16]

set_option maxHeartbeats 4800000 in
/-- Step 7: the first branch is not taken, the second is. The scratch gains its product as before; the output block gains its
    partial product and then the correction computed from the second factor's block and the scratch as just updated. -/
theorem run1_last (c : Dev nD) (E : Set ℕ) (i : grid1.Coords) (arg3 : Memref sig .tc .vmem S1024x512 .f32) (harg3 : arg3.IsWhole) (arg4 : Memref sig .tc .vmem S2048x512 .bf16) (harg4 : arg4.IsWhole) (arg5 : Memref sig .tc .vmem S16x512 .f32) (harg5 : arg5.IsWhole) (arg6 : Memref sig .tc .vmem S2048x16 .f32) (harg6 : arg6.IsWhole) (arg7 : Memref sig .tc .vmem S1024x2048 .f32) (harg7 : arg7.IsWhole) (arg8 : Memref sig .tc .vmem S1024x16 .f32) (harg8 : arg8.IsWhole)
    (hc0 : ¬cond1_0 i) (hc1 : cond1_1 i)
    (x : Vec F S1024x512 .f32) (w : Vec F S2048x512 .bf16) (a : Vec F S16x512 .f32) (b : Vec F S2048x16 .f32)
    (o : Vec F S1024x2048 .f32) (s : Vec F S1024x16 .f32) (K : PUnit → sProp 𝕄) :
    iprop(owns (c : Thread nD τ) arg3 fullShare x ∗ owns (c : Thread nD τ) arg4 fullShare w ∗ owns (c : Thread nD τ) arg5 fullShare a
        ∗ owns (c : Thread nD τ) arg6 fullShare b ∗ owns (c : Thread nD τ) arg7 fullShare o ∗ owns (c : Thread nD τ) arg8 fullShare s
        ∗ (iprop(owns (c : Thread nD τ) arg3 fullShare x ∗ owns (c : Thread nD τ) arg4 fullShare w ∗ owns (c : Thread nD τ) arg5 fullShare a
        ∗ owns (c : Thread nD τ) arg6 fullShare b ∗ owns (c : Thread nD τ) arg7 fullShare (k1_pay6 b (k1_pay5 x a s) (k1_pay4 x w o))
            ∗ owns (c : Thread nD τ) arg8 fullShare (k1_pay5 x a s)) -∗ K ⟨⟩))
      ⊢ wp frame (wpE (defs₀ (F := F)) Variants.none c none) E (cc1__mm_lora_kernel i arg3 harg3 arg4 harg4 arg5 harg5 arg6 harg6 arg7 harg7 arg8 harg8) K := by
  simp only [cc1__mm_lora_kernel_eq_skeleton]; unfold cc1__mm_lora_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf3; subst hf4; subst hf5; subst hf6; subst hf7; subst hf8
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [read_writes_cons_whole1 _ _ off_S1024x2048]
    simp only [View.readAt_eq_ld, View.ld_unit_zero (S := S1024x512) off_S1024x512, View.ld_unit_zero (S := S2048x512) off_S2048x512, View.ld_unit_zero (S := S16x512) off_S16x512, View.ld_unit_zero (S := S2048x16) off_S2048x16, View.ld_unit_zero (S := S1024x2048) off_S1024x2048, View.ld_unit_zero (S := S1024x16) off_S1024x16, View.readCov_unit_zero (S := S1024x2048) _ off_S1024x2048, View.readCov_unit_zero (S := S1024x16) _ off_S1024x16]
  iexists _; isplitr
  swap; · iexact H8
  ipureintro
  sl_unfold_words
  rw [read_writes_cons_whole1 _ _ off_S1024x16]
  simp only [View.readAt_eq_ld, View.ld_unit_zero (S := S1024x512) off_S1024x512, View.ld_unit_zero (S := S16x512) off_S16x512, View.ld_unit_zero (S := S1024x16) off_S1024x16]

/-! ## One step, case by case -/

/-- At step 0 the step starts both accumulators from the zero fill and adds no correction. -/
theorem step1_first {k : ℕ} (h0 : k = 0) (x : Vec F S1024x512 .f32) (w : Vec F S2048x512 .bf16) (a : Vec F S16x512 .f32)
    (b : Vec F S2048x16 .f32) (prev : Vec F S1024x2048 .f32 × Vec F S1024x16 .f32) :
    step1 k x w a b prev = (k1_pay4 x w k1_pay1, k1_pay5 x a k1_pay2) := by
  have h7 : ¬k = 7 := by omega
  unfold step1; simp only [if_pos h0, if_neg h7]

/-- At steps 1 to 6 it continues from what the step before left and adds no correction. -/
theorem step1_mid {k : ℕ} (h0 : ¬k = 0) (h7 : ¬k = 7) (x : Vec F S1024x512 .f32) (w : Vec F S2048x512 .bf16) (a : Vec F S16x512 .f32)
    (b : Vec F S2048x16 .f32) (prev : Vec F S1024x2048 .f32 × Vec F S1024x16 .f32) :
    step1 k x w a b prev = (k1_pay4 x w prev.1, k1_pay5 x a prev.2) := by
  unfold step1; simp only [if_neg h0, if_neg h7]

/-- At step 7 it continues likewise and then adds the correction, computed from the scratch as this step leaves it. -/
theorem step1_last {k : ℕ} (h0 : ¬k = 0) (h7 : k = 7) (x : Vec F S1024x512 .f32) (w : Vec F S2048x512 .bf16) (a : Vec F S16x512 .f32)
    (b : Vec F S2048x16 .f32) (prev : Vec F S1024x2048 .f32 × Vec F S1024x16 .f32) :
    step1 k x w a b prev = (k1_pay6 b (k1_pay5 x a prev.2) (k1_pay4 x w prev.1), k1_pay5 x a prev.2) := by
  unfold step1; simp only [if_neg h0, if_pos h7]

/-! ## What the accumulators hold after a point, by the point's case -/

/-- After a point of step 0: this step's products over the zero fills, whatever came before. -/
theorem outsAt1_first (c : Dev nD) (t : Fin cfg1.N) (h0 : t.val % 8 = 0) :
    outsAt1 V c t.val t.isLt = (k1_pay4 (xblk V c t) (wblk V c t) k1_pay1, k1_pay5 (xblk V c t) (ablk V c t) k1_pay2) := by
  obtain ⟨n, hn⟩ := t
  cases n with
  | zero => exact (outsAt1_zero V c hn).trans (step1_first rfl (xblk V c ⟨0, hn⟩) (wblk V c ⟨0, hn⟩) (ablk V c ⟨0, hn⟩) (bblk V c ⟨0, hn⟩) (k1_pay1, k1_pay2))
  | succ n => exact (outsAt1_succ V c n hn).trans (step1_first h0 (xblk V c ⟨n + 1, hn⟩) (wblk V c ⟨n + 1, hn⟩) (ablk V c ⟨n + 1, hn⟩) (bblk V c ⟨n + 1, hn⟩) (outsAt1 V c n (Nat.lt_of_succ_lt hn)))

/-- After a point of steps 1 to 6: this step's products over what the point before left. -/
theorem outsAt1_mid (c : Dev nD) (t : Fin cfg1.N) (h0 : ¬t.val % 8 = 0) (h7 : ¬t.val % 8 = 7) :
    outsAt1 V c t.val t.isLt = (k1_pay4 (xblk V c t) (wblk V c t) (outsAt1 V c (t.val - 1) (Nat.lt_of_le_of_lt (Nat.sub_le _ _) t.isLt)).1,
      k1_pay5 (xblk V c t) (ablk V c t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (outsAt1_succ V c n hn).trans (step1_mid h0 h7 (xblk V c ⟨n + 1, hn⟩) (wblk V c ⟨n + 1, hn⟩) (ablk V c ⟨n + 1, hn⟩) (bblk V c ⟨n + 1, hn⟩) (outsAt1 V c n (Nat.lt_of_succ_lt hn)))

/-- After a point of step 7: the same, and the output block corrected. -/
theorem outsAt1_last (c : Dev nD) (t : Fin cfg1.N) (h0 : ¬t.val % 8 = 0) (h7 : t.val % 8 = 7) :
    outsAt1 V c t.val t.isLt = (k1_pay6 (bblk V c t) (k1_pay5 (xblk V c t) (ablk V c t) (outsAt1 V c (t.val - 1) (Nat.lt_of_le_of_lt (Nat.sub_le _ _) t.isLt)).2)
        (k1_pay4 (xblk V c t) (wblk V c t) (outsAt1 V c (t.val - 1) (Nat.lt_of_le_of_lt (Nat.sub_le _ _) t.isLt)).1),
      k1_pay5 (xblk V c t) (ablk V c t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (outsAt1_succ V c n hn).trans (step1_last h0 h7 (xblk V c ⟨n + 1, hn⟩) (wblk V c ⟨n + 1, hn⟩) (ablk V c ⟨n + 1, hn⟩) (bblk V c ⟨n + 1, hn⟩) (outsAt1 V c n (Nat.lt_of_succ_lt hn)))

/-! ## The invariant before the first point -/

/-- What the launch hands the region, with the scratch split off as a memref owned at some contents: the other region's eight
    staging buffers, the scratch, the generator register. -/
theorem PhiA1_eq (c : Dev nD) :
    (Pipeline.ΦA spec1 c : sProp 𝕄)
      = iprop(iprop(rest1 (F := F) c ∗ (∃ d, owns (c : Thread nD τ) scM1 fullShare d)) ∗ (∃ r, prngReg c r)) := by
  unfold Pipeline.ΦA; rw [scopedRest1_eq]; unfold rest1; simp only [scM1, owns_whole]
  refine BI.equiv_iff.mp ⟨?_, ?_⟩
  · show (_ : sProp 𝕄) ⊢ (_ : sProp 𝕄)
    iintro ⟨⟨A0, A1, A2, A3, A4, A5, A6, A7, HS⟩, Hg⟩
    isplitr [Hg]
    swap; · iexact Hg
    isplitr [HS]
    swap; · iexact HS
    isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  · show (_ : sProp 𝕄) ⊢ (_ : sProp 𝕄)
    iintro ⟨⟨⟨A0, A1, A2, A3, A4, A5, A6, A7⟩, HS⟩, Hg⟩
    isplitr [Hg]
    swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iexact HS

/-! ## What the body finds in each staging buffer -/

/-- Input window 0's current staging buffer holds its block at every point, whether the pipeline fetched it there or its
    block index has not moved since the fetch: the body only reads the window, and the window is neither cut nor ever idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d
/-- Input window 1's current staging buffer holds its block at every point, whether the pipeline fetched it there or its
    block index has not moved since the fetch: the body only reads the window, and the window is neither cut nor ever idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d
/-- Input window 2's current staging buffer holds its block at every point, whether the pipeline fetched it there or its
    block index has not moved since the fetch: the body only reads the window, and the window is neither cut nor ever idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_2 (c : Dev nD) (t : Fin cfg1.N) (d) : (dat1 V c).before 2 t d = iblk1 V c 2 t :=
  before1_2_of V (dat1 V c) (A_eq1 V c 2) (after1_2 V c) t d
/-- Input window 3's current staging buffer holds its block at every point, whether the pipeline fetched it there or its
    block index has not moved since the fetch: the body only reads the window, and the window is neither cut nor ever idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_3 (c : Dev nD) (t : Fin cfg1.N) (d) : (dat1 V c).before 3 t d = iblk1 V c 3 t :=
  before1_3_of V (dat1 V c) (A_eq1 V c 3) (after1_3 V c) t d

/-- At a point that is not of step 0 the output window's current staging buffer holds what the body left at the point before:
    the point is not the first, the block was not written back in between (it is written back only after step 7), and the
    window is neither cut nor ever idle. -/
theorem before1_4_kept (c : Dev nD) (t : Fin cfg1.N) (h0 : ¬t.val % 8 = 0) (d) :
    (dat1 V c).before 4 t d = (outsAt1 V c (t.val - 1) (Nat.lt_of_le_of_lt (Nat.sub_le _ _) t.isLt)).1 := by
  have hN : t.val < 128 := lt_of_lt_of_eq t.isLt (show cfg1.N = 128 from N_1)
  rw [Dat.before_out_kept _ 4 rfl t (by omega) (Bool.eq_false_iff.mpr fun h => by have := (flush1_4 _).mp h; dsimp only at this; omega)
    (fun _ => rfl) (fun _ _ => rfl)]
  rw [after1_4]

/-! ## The body obligation -/

/-- Each window's current staging memref at point `t`, spelt as the pipeline passes it to the body. -/
abbrev ms1_0 (t : Fin cfg1.N) : Memref sig .tc .vmem S1024x512 .f32 := win1_0.stage (cfg1.slots t 0)
abbrev ms1_1 (t : Fin cfg1.N) : Memref sig .tc .vmem S2048x512 .bf16 := win1_1.stage (cfg1.slots t 1)
abbrev ms1_2 (t : Fin cfg1.N) : Memref sig .tc .vmem S16x512 .f32 := win1_2.stage (cfg1.slots t 2)
abbrev ms1_3 (t : Fin cfg1.N) : Memref sig .tc .vmem S2048x16 .f32 := win1_3.stage (cfg1.slots t 3)
abbrev ms1_4 (t : Fin cfg1.N) : Memref sig .tc .vmem S1024x2048 .f32 := win1_4.stage (cfg1.slots t 4)

/-- What the body is called with at point `t`: the invariant, what the core owes, and every window's current buffer at what it
    then holds, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns: the invariant at the next point, the same debt, every buffer at what the record says the body leaves. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 4800000 in
/-- The body at any point. The four input buffers hold their blocks. The point's step decides the case: at step 0 the output
    buffer and the scratch may hold anything (before the first point the invariant has the scratch at anything, later at what
    the point before left, which the zero fill discards); at the other steps the output buffer holds what the point before left
    in it, and the invariant hands over the scratch at what the point before left. The case's triple then runs the body, and
    what it returns is the record's `after` and the invariant at the next point, by the case's equation for `outsAt1`. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4]
  have hN : t.val < 128 := lt_of_lt_of_eq t.isLt (show cfg1.N = 128 from N_1)
  by_cases h0 : t.val % 8 = 0
  · have h7 : ¬t.val % 8 = 7 := by omega
    rw [outsAt1_first V c t h0]; dsimp only
    by_cases hz : t.val = 0
    · rw [PhiS1_castSucc V c t, PhiS1_zero V c _ _ hz, PhiA1_eq]
      iintro ⟨⟨⟨HR, ⟨%ds, HS⟩⟩, Hg⟩, Ho, ⟨%d0, H0⟩, ⟨%d1, H1⟩, ⟨%d2, H2⟩, ⟨%d3, H3⟩, ⟨%d4, H4⟩⟩
      iapply (run1_first c Set.univ (grid1.coords t) _ _ _ _ _ _ _ _ _ _ _ _ ((hcond1_0 t).mpr h0) (fun h => h7 ((hcond1_1 t).mp h))
        (xblk V c t) (wblk V c t) (ablk V c t) (bblk V c t) _)
      isplitl [H0]; · iexact H0
      isplitl [H1]; · iexact H1
      isplitl [H2]; · iexact H2
      isplitl [H3]; · iexact H3
      isplitl [H4]; · iexists _; iexact H4
      isplitl [HS]; · iexists _; iexact HS
      iintro ⟨H0, H1, H2, H3, H4, HS⟩
      isplitl [HR HS Hg]
      · isplitl [HR HS]
        · isplitl [HR]; · iexact HR
          iexact HS
        iexact Hg
      isplitl [Ho]; · iexact Ho
      isplitl [H0]; · iexact H0
      isplitl [H1]; · iexact H1
      isplitl [H2]; · iexact H2
      isplitl [H3]; · iexact H3
      iexact H4
    · rw [PhiS1_castSucc V c t, PhiS1_pos V c _ _ hz]
      iintro ⟨⟨⟨HR, HS⟩, Hg⟩, Ho, ⟨%d0, H0⟩, ⟨%d1, H1⟩, ⟨%d2, H2⟩, ⟨%d3, H3⟩, ⟨%d4, H4⟩⟩
      iapply (run1_first c Set.univ (grid1.coords t) _ _ _ _ _ _ _ _ _ _ _ _ ((hcond1_0 t).mpr h0) (fun h => h7 ((hcond1_1 t).mp h))
        (xblk V c t) (wblk V c t) (ablk V c t) (bblk V c t) _)
      isplitl [H0]; · iexact H0
      isplitl [H1]; · iexact H1
      isplitl [H2]; · iexact H2
      isplitl [H3]; · iexact H3
      isplitl [H4]; · iexists _; iexact H4
      isplitl [HS]; · iexists _; iexact HS
      iintro ⟨H0, H1, H2, H3, H4, HS⟩
      isplitl [HR HS Hg]
      · isplitl [HR HS]
        · isplitl [HR]; · iexact HR
          iexact HS
        iexact Hg
      isplitl [Ho]; · iexact Ho
      isplitl [H0]; · iexact H0
      isplitl [H1]; · iexact H1
      isplitl [H2]; · iexact H2
      isplitl [H3]; · iexact H3
      iexact H4
  · have hz : t.val ≠ 0 := by omega
    simp only [before1_4_kept V c t h0]
    rw [PhiS1_castSucc V c t, PhiS1_pos V c _ _ hz]
    by_cases h7 : t.val % 8 = 7
    · rw [outsAt1_last V c t h0 h7]; dsimp only
      iintro ⟨⟨⟨HR, HS⟩, Hg⟩, Ho, ⟨%d0, H0⟩, ⟨%d1, H1⟩, ⟨%d2, H2⟩, ⟨%d3, H3⟩, ⟨%d4, H4⟩⟩
      iapply (run1_last c Set.univ (grid1.coords t) _ _ _ _ _ _ _ _ _ _ _ _ (fun h => h0 ((hcond1_0 t).mp h)) ((hcond1_1 t).mpr h7)
        (xblk V c t) (wblk V c t) (ablk V c t) (bblk V c t)
        (outsAt1 V c (t.val - 1) (Nat.lt_of_le_of_lt (Nat.sub_le _ _) t.isLt)).1 (outsAt1 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HR HS Hg]
      · isplitl [HR HS]
        · isplitl [HR]; · iexact HR
          iexact HS
        iexact Hg
      isplitl [Ho]; · iexact Ho
      isplitl [H0]; · iexact H0
      isplitl [H1]; · iexact H1
      isplitl [H2]; · iexact H2
      isplitl [H3]; · iexact H3
      iexact H4
    · rw [outsAt1_mid V c t h0 h7]; dsimp only
      iintro ⟨⟨⟨HR, HS⟩, Hg⟩, Ho, ⟨%d0, H0⟩, ⟨%d1, H1⟩, ⟨%d2, H2⟩, ⟨%d3, H3⟩, ⟨%d4, H4⟩⟩
      iapply (run1_mid c Set.univ (grid1.coords t) _ _ _ _ _ _ _ _ _ _ _ _ (fun h => h0 ((hcond1_0 t).mp h)) (fun h => h7 ((hcond1_1 t).mp h))
        (xblk V c t) (wblk V c t) (ablk V c t) (bblk V c t)
        (outsAt1 V c (t.val - 1) (Nat.lt_of_le_of_lt (Nat.sub_le _ _) t.isLt)).1 (outsAt1 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HR HS Hg]
      · isplitl [HR HS]
        · isplitl [HR]; · iexact HR
          iexact HS
        iexact Hg
      isplitl [Ho]; · iexact Ho
      isplitl [H0]; · iexact H0
      isplitl [H1]; · iexact H1
      isplitl [H2]; · iexact H2
      isplitl [H3]; · iexact H3
      iexact H4

/-- The library's body obligation for the region's record, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- What the launch hands the region is the invariant before the first point. -/
theorem hin1 (c : Dev nD) : (Pipeline.ΦA spec1 c : sProp 𝕄) ⊢ (dat1 V c).Φ 0 := by
  show (Pipeline.ΦA spec1 c : sProp 𝕄) ⊢ PhiS1 V c 0 (Nat.zero_le _)
  exact Idealize.SL.BI.Entails.refl _

/-- After any point but the first the invariant gives back what the launch handed over: the scratch's named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HR, HS⟩, Hg⟩
  isplitl [HR HS]
  · isplitl [HR]; · iexact HR
    iexists _; iexact HS
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 128 := N_1; omega)

end Cert.Kernel.Hand

end
-- ==== Proof.KI.R0Defs.lean ====
/-
  The dequantization region: what it reads and what it leaves, as definitions.

  The region walks the weight matrix in 64 strips of 64 rows. At strip `t` it is handed four blocks: the strip's integer
  codes (64 x 4096), the strip's group scales (64 x 64), the row of sixteen levels (1 x 16) and the group selector
  (64 x 4096), the last two the same at every strip. It writes one block, the strip of the dequantized weight:
  the level chosen by each code's low four bits times that row's scales contracted against the selector.
  `deq` is that block as one pure function of the four blocks read; `dat0` records, strip by strip, that every input block is
  left as found and the output block is `deq` of them.
-/
import proofs.«407792_j46918222742185_2_alg».proof.Proof.Gen.KernelIdeal.Launch
import proofs.«407792_j46918222742185_2_alg».proof.Proof.Gen.KernelIdeal.Skeleton
import proofs.«407792_j46918222742185_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: every statement below is over this parameter
variable (V : (c : Dev nD) → (b : Ref sig .tc) → Buf (Elt F) ((c : Thread nD τ).loc b))

/-- Window `w`'s block at strip `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The four input blocks at strip `t`, at their literal types: codes, scales, levels, selector. -/
abbrev qblk (c : Dev nD) (t : Fin cfg0.N) : Vec F S64x4096 .i32 := iblk0 V c 0 t
abbrev sblk (c : Dev nD) (t : Fin cfg0.N) : Vec F S64x64 .f32 := iblk0 V c 1 t
abbrev cblk (c : Dev nD) (t : Fin cfg0.N) : Vec F S1x16 .f32 := iblk0 V c 2 t
abbrev eblk (c : Dev nD) (t : Fin cfg0.N) : Vec F S64x4096 .f32 := iblk0 V c 3 t

/-- The strip of the dequantized weight from the four blocks read: the body's one stored value. -/
def deq (wq : Vec F S64x4096 .i32) (sc : Vec F S64x64 .f32) (cb : Vec F S1x16 .f32) (ex : Vec F S64x4096 .f32) : Vec F S64x4096 .bf16 :=
  k0_pay1 (k0_pay2 cb) (k0_pay3 wq) (k0_pay4 wq) (k0_pay5 wq) (k0_pay6 wq) (k0_pay7 wq cb) (k0_pay8 wq cb) (k0_pay9 wq cb) (k0_pay10 wq cb) sc ex

/-- What the region's five staging buffers hold after the body at strip `t`: the inputs their blocks, the output `deq` of them.
    Nothing is carried between strips and nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => deq (qblk V c t) (sblk V c t) (cblk V c t) (eblk V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = deq (qblk V c t) (sblk V c t) (cblk V c t) (eblk V c t) := by dsimp only [dat0]

end Cert.KernelIdeal.Hand

end
-- ==== Proof.KI.Region0.lean ====
/-
  The dequantization region's body, run: from memrefs holding the four blocks read (and the output's at anything) the body
  ends with the inputs as they were and the output's memref at the strip of the dequantized weight, `deq` of the four.
  The body loads each input whole, computes, and stores the result whole, once; so what the output's buffer holds
  afterwards is that one stored value, whatever it held before. From that, the library's obligation for the region's
  record `dat0` at every strip: each input's current buffer holds its block, whether it was fetched at this strip or
  is still there from the first (the level row and the selector are fetched once and their block never moves).
-/
import proofs.«407792_j46918222742185_2_alg».proof.Proof.Gen.KernelIdeal.Launch
import proofs.«407792_j46918222742185_2_alg».proof.Proof.Gen.KernelIdeal.Skeleton
import proofs.«407792_j46918222742185_2_alg».proof.Proof.Gen.KernelIdeal.Points
import proofs.«407792_j46918222742185_2_alg».proof.Proof.KI.R0Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: every statement below is over this parameter
variable (V : (c : Dev nD) → (b : Ref sig .tc) → Buf (Elt F) ((c : Thread nD τ).loc b))

/-! ## Each input's buffer holds its block at every strip -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body's one store -/

/-- The whole-buffer rectangles the body loads and stores through. -/
abbrev rQ : Rect S64x4096 := Rect.unit (s := S64x4096) ![0, 0] S64x4096.size inb_S64x4096_S64x4096_0_0
abbrev rS : Rect S64x64 := Rect.unit (s := S64x64) ![0, 0] S64x64.size inb_S64x64_S64x64_0_0
abbrev rC : Rect S1x16 := Rect.unit (s := S1x16) ![0, 0] S1x16.size inb_S1x16_S1x16_0_0

theorem hz2 : (![0, 0] : Fin 2 → Nat) = fun _ => 0 := by
  funext a; match a with | ⟨0, _⟩ => rfl | ⟨1, _⟩ => rfl

/-- What the output's buffer holds after the body, as the one piece stored over the loads of the inputs. -/
def out0_4 (x1 : Vec F S64x4096 .i32) (x2 : Vec F S64x64 .f32) (x3 : Vec F S1x16 .f32) (x4 : Vec F S64x4096 .f32) : Vec F S64x4096 .bf16 :=
  View.canon [⟨rQ, deq (View.ld x1 rQ) (View.ld x2 rS) (View.ld x3 rC) (View.ld x4 rQ)⟩]

/-- A whole-buffer store leaves its value and a whole-buffer load reads what is there: the piece is `deq` of the blocks. -/
theorem out0_4_eq (x1 : Vec F S64x4096 .i32) (x2 : Vec F S64x64 .f32) (x3 : Vec F S1x16 .f32) (x4 : Vec F S64x4096 .f32) :
    out0_4 x1 x2 x3 x4 = deq x1 x2 x3 x4 := by
  unfold out0_4
  rw [View.canon_unit_zero hz2]
  simp only [View.ld_unit_zero (S := S64x4096) hz2, View.ld_unit_zero (S := S64x64) hz2, View.ld_unit_zero (S := S1x16) hz2]

theorem cover0_4 (p0 : Vec F S64x4096 .bf16) (y : S64x4096.Idx) :
    ∃ pc ∈ ([⟨rQ, p0⟩] : List (View.Piece (Elt F) S64x4096 .bf16)), y ∈ pc.1.set :=
  View.cover_of_tiled [⟨rQ, p0⟩] S64x4096.size (by rfl) y

/-! ## The body's triple -/

set_option maxHeartbeats 2000000 in
theorem sound_kernel0 (c : Dev nD) (E : Set ℕ) (i : grid0.Coords)
    (arg1 : Memref sig .tc .vmem S64x4096 .i32) (harg1 : arg1.IsWhole) (arg2 : Memref sig .tc .vmem S64x64 .f32) (harg2 : arg2.IsWhole)
    (arg3 : Memref sig .tc .vmem S1x16 .f32) (harg3 : arg3.IsWhole) (arg4 : Memref sig .tc .vmem S64x4096 .f32) (harg4 : arg4.IsWhole)
    (arg5 : Memref sig .tc .vmem S64x4096 .bf16) (harg5 : arg5.IsWhole)
    (x1 : Vec F S64x4096 .i32) (x2 : Vec F S64x64 .f32) (x3 : Vec F S1x16 .f32) (x4 : Vec F S64x4096 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (out0_4 x1 x2 x3 x4)) -∗ K ⟨⟩))
      ⊢ wp frame (wpE (defs₀ (F := F)) Variants.none c none) E (cc0__dequant_kernel i arg1 harg1 arg2 harg2 arg3 harg3 arg4 harg4 arg5 harg5) K := by
  simp only [cc0__dequant_kernel_eq_skeleton]; unfold cc0__dequant_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_4 _)

/-! ## The obligation, at a generic strip -/

/-- What the body is called with at strip `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any strip: the inputs' memrefs hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, ← out0_4_eq]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's obligation, at every strip. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Defs.lean ====
/-
  The matrix-product region with the low-rank adapter: what it reads and what it leaves, as definitions.

  The grid is 8 row tiles by 2 column tiles by 8 steps along the contraction, the contraction innermost: point `t` is at
  step `t mod 8`. At a point the region is handed a 1024 x 512 block of the flattened input, a 2048 x 512 block of the
  dequantized weight, a 16 x 512 block of the adapter's first factor and a 2048 x 16 block of its second. Its output block
  (1024 x 2048) stays in place over the eight steps of a tile and is written back only after the last; a 1024 x 16 scratch
  is carried beside it. One step does this to the pair (output block, scratch):
    at step 0 both start from the float zero, otherwise from what the step before left;
    the output block gains this step's partial product input-block times weight-block transposed,
    the scratch gains input-block times first-factor-block transposed;
    at step 7 the output block moreover gains twice (scratch times second-factor-block transposed).
  `step1` is that, as a pure function; `outsAt1` folds it over the points; `dat1` is the region's record of it, with the
  scratch's contents carried in the invariant `PhiS1`.
-/
import proofs.«407792_j46918222742185_2_alg».proof.Proof.Gen.KernelIdeal.Launch
import proofs.«407792_j46918222742185_2_alg».proof.Proof.Gen.KernelIdeal.Skeleton
import proofs.«407792_j46918222742185_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: every statement below is over this parameter
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The four input blocks at point `t`, at their literal types: input, weight, first factor, second factor. -/
abbrev xblk (c : Dev nD) (t : Fin cfg1.N) : Vec F S1024x512 .f32 := iblk1 V c 0 t
abbrev wblk (c : Dev nD) (t : Fin cfg1.N) : Vec F S2048x512 .bf16 := iblk1 V c 1 t
abbrev ablk (c : Dev nD) (t : Fin cfg1.N) : Vec F S16x512 .f32 := iblk1 V c 2 t
abbrev bblk (c : Dev nD) (t : Fin cfg1.N) : Vec F S2048x16 .f32 := iblk1 V c 3 t

/-- One point's effect on the pair (output block, scratch) at contraction step `k`, from the four blocks read and what
    the point before left. -/
def step1 (k : ℕ) (x : Vec F S1024x512 .f32) (w : Vec F S2048x512 .bf16) (a : Vec F S16x512 .f32) (b : Vec F S2048x16 .f32)
    (prev : Vec F S1024x2048 .f32 × Vec F S1024x16 .f32) : Vec F S1024x2048 .f32 × Vec F S1024x16 .f32 :=
  let o0 : Vec F S1024x2048 .f32 := if k = 0 then k1_pay1 else prev.1
  let s0 : Vec F S1024x16 .f32 := if k = 0 then k1_pay2 else prev.2
  let o : Vec F S1024x2048 .f32 := k1_pay4 x w o0
  let s : Vec F S1024x16 .f32 := k1_pay5 x a s0
  (if k = 7 then k1_pay6 b s o else o, s)

/-- What the output block's staging buffer and the scratch hold after the body at point `n`. -/
def outsAt1 (c : Dev nD) : (n : ℕ) → n < cfg1.N → Vec F S1024x2048 .f32 × Vec F S1024x16 .f32
  | 0, hn => step1 0 (xblk V c ⟨0, hn⟩) (wblk V c ⟨0, hn⟩) (ablk V c ⟨0, hn⟩) (bblk V c ⟨0, hn⟩) (k1_pay1, k1_pay2)
  | n + 1, hn => step1 ((n + 1) % 8) (xblk V c ⟨n + 1, hn⟩) (wblk V c ⟨n + 1, hn⟩) (ablk V c ⟨n + 1, hn⟩) (bblk V c ⟨n + 1, hn⟩)
      (outsAt1 c n (Nat.lt_of_succ_lt hn))

theorem outsAt1_zero (c : Dev nD) (hn : 0 < cfg1.N) :
    outsAt1 V c 0 hn = step1 0 (xblk V c ⟨0, hn⟩) (wblk V c ⟨0, hn⟩) (ablk V c ⟨0, hn⟩) (bblk V c ⟨0, hn⟩) (k1_pay1, k1_pay2) := rfl

theorem outsAt1_succ (c : Dev nD) (n : ℕ) (hn : n + 1 < cfg1.N) :
    outsAt1 V c (n + 1) hn = step1 ((n + 1) % 8) (xblk V c ⟨n + 1, hn⟩) (wblk V c ⟨n + 1, hn⟩) (ablk V c ⟨n + 1, hn⟩) (bblk V c ⟨n + 1, hn⟩)
      (outsAt1 V c n (Nat.lt_of_succ_lt hn)) := rfl

/-- The scratch the region carries between points, as a whole memref. -/
abbrev scM1 : Memref sig .tc .vmem S1024x16 .f32 := Memref.whole cc1_scratch0

/-- The scoped buffers this region never touches (the other region's staging buffers), each whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The region's invariant before point `n`: before the first point, the scoped rest at anything beside the generator
    register; afterwards the same with the scratch at what the point before left in it. -/
def PhiS1 (c : Dev nD) : (n : ℕ) → n ≤ cfg1.N → sProp 𝕄
  | 0, _ => Pipeline.ΦA spec1 c
  | n + 1, hn => iprop(iprop(rest1 (F := F) c ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(rest1 (F := F) c ∗ owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(iprop(rest1 (F := F) c ∗ owns (c : Thread nD τ) scM1 fullShare ((outsAt1 V c (n - 1) (by omega)).2)) ∗ (∃ r, prngReg c r)) := by
  cases n with
  | zero => exact absurd rfl hz
  | succ n => rfl

/-- The region's record: the arrays as found; after the body at point `t` every input block as found and the output block at
    `outsAt1`'s first component; the scratch carried in the invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

end Cert.KernelIdeal.Hand

end
-- ==== Proof.KI.Run.lean ====
/-
  The whole program's run. The program is seven items in a row: three stretches of host operations (the level row; the
  selector's integer division; the selector itself), the dequantization region, one host operation (the input flattened
  to rows), the matrix-product region, one host operation (the result folded back to batch and position).
  `W0` … `W7` are the contents of every unscoped buffer at the eight boundaries: a host stretch applies its operations;
  a region leaves its input arrays as found, its output array at what its write-backs leave, every other buffer as found.
  Each item is a segment entered from one boundary's contents and left at the next one's, the generator register and the
  core's (empty) debts riding along; the launch theorem then says every weakly fair execution ends, with every unscoped
  buffer at `W7`. Read at the arguments that is the frame; read at the result it is the value.
-/
import proofs.«407792_j46918222742185_2_alg».proof.Proof.KI.Region0
import proofs.«407792_j46918222742185_2_alg».proof.Proof.KI.R1Defs
import proofs.«407792_j46918222742185_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the boundaries -/

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
/-- The same read at the core's references: what the dequantization region is entered with. -/
abbrev V3 : (c : Dev nD) → (b : Ref sig .tc) → Buf (Elt F) ((c : Thread nD τ).loc b) := fun c b => W3 m c b
/-- After the dequantization region. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

abbrev W5 : Dev nD → Valuation τ sig (Elt F) := fun c => StableHlo.after hostOps1 (W4 m c)
/-- What the matrix-product region is entered with. -/
abbrev V5 : (c : Dev nD) → (b : Ref sig .tc) → Buf (Elt F) ((c : Thread nD τ).loc b) := fun c b => W5 m c b
/-- After the matrix-product region. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

abbrev W7 : Dev nD → Valuation τ sig (Elt F) := fun c => StableHlo.after hostOps2 (W6 m c)

/-! ## The proof data family and what rides along -/

abbrev adm' : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm' p) c
  | ⟨0, _⟩ => fun c => dat0 (V3 m) c
  | ⟨1, _⟩ => fun c => dat1 (V5 m) c

abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The dequantization region as a segment -/

set_option backward.isDefEq.respectTransparency.types false in
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The matrix-product region as a segment, given its body's obligation and its invariant's two ends -/

/-- The generator register, the (empty) tables and the scoped buffers no window stages make the class's invariant, -/
theorem toΦA1 (c : Dev nD) (P : sProp 𝕄) :
    iprop((∃ r, prngReg c r) ∗ P ∗ Pipeline.scopedRest spec1 c) ⊢ (Pipeline.ΦA spec1 c : sProp 𝕄) := by
  unfold Pipeline.ΦA
  iintro ⟨Hp, -, Hr⟩
  isplitl [Hr]; · iexact Hr
  iexact Hp

/-- and it gives them back. -/
theorem ofΦA1 (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

/-- The last boundary's thread state, regrouped: the buffers and the register on one side, the debts on the other. -/
theorem last_chain (c : Dev nD) (H : sProp 𝕄) :
    iprop(H ∗ R c) ⊢ iprop((H ∗ ∃ r, prngReg c r) ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
def reg1
    (hb1 : ∀ (V : (c : Dev nD) → (b : Ref sig .tc) → Buf (Elt F) ((c : Thread nD τ).loc b)) (c : Dev nD),
      BodyObligation (dat1 (F := F) V c) (defs₀ (F := F)) Variants.none () Set.univ)
    (hi1 : ∀ (V : (c : Dev nD) → (b : Ref sig .tc) → Buf (Elt F) ((c : Thread nD τ).loc b)) (c : Dev nD),
      (Pipeline.ΦA spec1 c : sProp 𝕄) ⊢ (dat1 (F := F) V c).Φ 0)
    (ho1 : ∀ (V : (c : Dev nD) → (b : Ref sig .tc) → Buf (Elt F) ((c : Thread nD τ).loc b)) (c : Dev nD),
      (dat1 (F := F) V c).Φ (Fin.last cfg1.N) ⊢ (Pipeline.ΦA spec1 c : sProp 𝕄)) :
    Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (hb1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toΦA1 c _).trans (hi1 (V5 m) c)
  hout c := by
    rw [Pipeline.ownSems0_none]
    exact (ho1 (V5 m) c).trans (ofΦA1 c)
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The seven items as segments, and the launch -/

abbrev segs
    (hb1 : ∀ (V : (c : Dev nD) → (b : Ref sig .tc) → Buf (Elt F) ((c : Thread nD τ).loc b)) (c : Dev nD),
      BodyObligation (dat1 (F := F) V c) (defs₀ (F := F)) Variants.none () Set.univ)
    (hi1 : ∀ (V : (c : Dev nD) → (b : Ref sig .tc) → Buf (Elt F) ((c : Thread nD τ).loc b)) (c : Dev nD),
      (Pipeline.ΦA spec1 c : sProp 𝕄) ⊢ (dat1 (F := F) V c).Φ 0)
    (ho1 : ∀ (V : (c : Dev nD) → (b : Ref sig .tc) → Buf (Elt F) ((c : Thread nD τ).loc b)) (c : Dev nD),
      (dat1 (F := F) V c).Φ (Fin.last cfg1.N) ⊢ (Pipeline.ΦA spec1 c : sProp 𝕄)) :
    List (Pipeline.Seg (pcfgs (F := F)) adm' (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m hb1 hi1 ho1),
    .host (hseg hostOps2 hostOps2_sub hostOps2_fresh (W6 m)) ]

set_option backward.isDefEq.respectTransparency.types false in
/-- Every weakly fair execution of the program from memory `m` with zero counters terminates, nothing faulting, and every
    final state has every unscoped buffer at `W7`. -/
theorem run_all
    (hb1 : ∀ (V : (c : Dev nD) → (b : Ref sig .tc) → Buf (Elt F) ((c : Thread nD τ).loc b)) (c : Dev nD),
      BodyObligation (dat1 (F := F) V c) (defs₀ (F := F)) Variants.none () Set.univ)
    (hi1 : ∀ (V : (c : Dev nD) → (b : Ref sig .tc) → Buf (Elt F) ((c : Thread nD τ).loc b)) (c : Dev nD),
      (Pipeline.ΦA spec1 c : sProp 𝕄) ⊢ (dat1 (F := F) V c).Φ 0)
    (ho1 : ∀ (V : (c : Dev nD) → (b : Ref sig .tc) → Buf (Elt F) ((c : Thread nD τ).loc b)) (c : Dev nD),
      (dat1 (F := F) V c).Φ (Fin.last cfg1.N) ⊢ (Pipeline.ΦA spec1 c : sProp 𝕄)) :
    θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit_dev (pcfgs (F := F)) adm' (pdats m) () cellOf_inj emb₁ defs₀ 𝒱₀ L lv m ρ main
    (fun _ => segs m hb1 hi1 ho1)
    (fun c Q => by
      rewrite [main_chain c, Pipeline.Seg.run_eq_chain,
        show (segs m hb1 hi1 ho1).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W7 m c) ∗ ∃ r, prngReg c r))
    (hch := fun c => ⟨.rfl, .rfl, .rfl, .rfl, .rfl, .rfl, .rfl, last_chain c _⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

end Cert.KernelIdeal.Hand

end
-- ==== Proof.KI.Frame.lean ====
/-
  The run read at the arguments and at the result. No host operation writes an argument and no region may change one: a
  region reads an argument through an input window, whose array it leaves as found, or does not touch it. So each
  argument's buffer, followed back boundary by boundary from the last contents, is the launch memory's. The result's
  buffer is simply named at the last contents.
-/
import proofs.«407792_j46918222742185_2_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A buffer no host stretch writes keeps its contents across it -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
theorem W5_of (c : Dev nD) (r : Ref sig .tc) (h : r ∉ hostOps1_W) : W5 m c (Proc.devRef .tc r) = W4 m c (Proc.devRef .tc r) :=
  StableHlo.after_of_writes_sub hostOps1 _ hostOps1_writes h
theorem W7_of (c : Dev nD) (r : Ref sig .tc) (h : r ∉ hostOps2_W) : W7 m c (Proc.devRef .tc r) = W6 m c (Proc.devRef .tc r) :=
  StableHlo.after_of_writes_sub hostOps2 _ hostOps2_writes h

/-- Through the three host stretches before the first region. -/
theorem W3_launch (c : Dev nD) (r : Ref sig .tc) (h0 : r ∉ hostOps0_W) (h1 : r ∉ hostOps0_1_W) (h2 : r ∉ hostOps0_2_W) :
    W3 m c (Proc.devRef .tc r) = m ((c : Thread nD τ).loc r) :=
  (W3_of m c r h2).trans ((W2_of m c r h1).trans ((W1_of m c r h0).trans rfl))

/-- An input array of the first region is left as found. -/
theorem W4_in (c : Dev nD) (w : Fin cfg0.W) (hw : (cfg0.win w).isOut = false) :
    W4 m c (Proc.devRef .tc (Pipeline.arrRef spec0 w)) = W3 m c (Proc.devRef .tc (Pipeline.arrRef spec0 w)) :=
  (W4_arr m c w).trans (((dat0 (V3 m) c).arrAt_in w hw _).trans (A_eq0 (V3 m) c w))

/-- An input array of the second region is left as found. -/
theorem W6_in (c : Dev nD) (w : Fin cfg1.W) (hw : (cfg1.win w).isOut = false) :
    W6 m c (Proc.devRef .tc (Pipeline.arrRef spec1 w)) = W5 m c (Proc.devRef .tc (Pipeline.arrRef spec1 w)) :=
  (W6_arr m c w).trans (((dat1 (V5 m) c).arrAt_in w hw _).trans (A_eq1 (V5 m) c w))

/-! ## Each argument ends as launched -/

theorem W7_main_arg0 (c : Dev nD) : W7 m c (Proc.devRef .tc main_arg0) = m ((c : Thread nD τ).loc main_arg0) :=
  (W7_of m c main_arg0 (by decide)).trans <| (W6_of_ne m c main_arg0 (by decide)).trans <| (W5_of m c main_arg0 (by decide)).trans <|
    (W4_of_ne m c main_arg0 (by decide)).trans <| W3_launch m c main_arg0 (by decide) (by decide) (by decide)

theorem W7_main_arg1 (c : Dev nD) : W7 m c (Proc.devRef .tc main_arg1) = m ((c : Thread nD τ).loc main_arg1) :=
  (W7_of m c main_arg1 (by decide)).trans <| (W6_of_ne m c main_arg1 (by decide)).trans <| (W5_of m c main_arg1 (by decide)).trans <|
    (W4_in m c 0 rfl).trans <| W3_launch m c main_arg1 (by decide) (by decide) (by decide)

theorem W7_main_arg2 (c : Dev nD) : W7 m c (Proc.devRef .tc main_arg2) = m ((c : Thread nD τ).loc main_arg2) :=
  (W7_of m c main_arg2 (by decide)).trans <| (W6_of_ne m c main_arg2 (by decide)).trans <| (W5_of m c main_arg2 (by decide)).trans <|
    (W4_in m c 1 rfl).trans <| W3_launch m c main_arg2 (by decide) (by decide) (by decide)

theorem W7_main_arg3 (c : Dev nD) : W7 m c (Proc.devRef .tc main_arg3) = m ((c : Thread nD τ).loc main_arg3) :=
  (W7_of m c main_arg3 (by decide)).trans <| (W6_in m c 2 rfl).trans <| (W5_of m c main_arg3 (by decide)).trans <|
    (W4_of_ne m c main_arg3 (by decide)).trans <| W3_launch m c main_arg3 (by decide) (by decide) (by decide)

theorem W7_main_arg4 (c : Dev nD) : W7 m c (Proc.devRef .tc main_arg4) = m ((c : Thread nD τ).loc main_arg4) :=
  (W7_of m c main_arg4 (by decide)).trans <| (W6_in m c 3 rfl).trans <| (W5_of m c main_arg4 (by decide)).trans <|
    (W4_of_ne m c main_arg4 (by decide)).trans <| W3_launch m c main_arg4 (by decide) (by decide) (by decide)

/-! ## The frame, and the run with the result named -/

/-- Every weakly fair execution terminates, nothing faulting, with the result's buffer at the last contents and every
    argument's buffer as launched. -/
theorem run_value
    (hb1 : ∀ (V : (c : Dev nD) → (b : Ref sig .tc) → Buf (Elt F) ((c : Thread nD τ).loc b)) (c : Dev nD),
      BodyObligation (dat1 (F := F) V c) (defs₀ (F := F)) Variants.none () Set.univ)
    (hi1 : ∀ (V : (c : Dev nD) → (b : Ref sig .tc) → Buf (Elt F) ((c : Thread nD τ).loc b)) (c : Dev nD),
      (Pipeline.ΦA spec1 c : sProp 𝕄) ⊢ (dat1 (F := F) V c).Φ 0)
    (ho1 : ∀ (V : (c : Dev nD) → (b : Ref sig .tc) → Buf (Elt F) ((c : Thread nD τ).loc b)) (c : Dev nD),
      (dat1 (F := F) V c).Φ (Fin.last cfg1.N) ⊢ (Pipeline.ΦA spec1 c : sProp 𝕄)) :
    θ_run defs (onTc (τ := τ) (main (F := F))) ⟨m, fun _ => 0, ρ⟩ (fun r => ∀ c : Dev nD,
      r.2.mem ((c.tc : Thread nD τ).loc main_v13) = W7 m c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v13 (by decide)),
     (h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c)⟩) (run_all m ρ hb1 hi1 ho1)

/-- The frame: the same run with the result forgotten. -/
theorem frame
    (hb1 : ∀ (V : (c : Dev nD) → (b : Ref sig .tc) → Buf (Elt F) ((c : Thread nD τ).loc b)) (c : Dev nD),
      BodyObligation (dat1 (F := F) V c) (defs₀ (F := F)) Variants.none () Set.univ)
    (hi1 : ∀ (V : (c : Dev nD) → (b : Ref sig .tc) → Buf (Elt F) ((c : Thread nD τ).loc b)) (c : Dev nD),
      (Pipeline.ΦA spec1 c : sProp 𝕄) ⊢ (dat1 (F := F) V c).Φ 0)
    (ho1 : ∀ (V : (c : Dev nD) → (b : Ref sig .tc) → Buf (Elt F) ((c : Thread nD τ).loc b)) (c : Dev nD),
      (dat1 (F := F) V c).Φ (Fin.last cfg1.N) ⊢ (Pipeline.ΦA spec1 c : sProp 𝕄)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_value m ρ hb1 hi1 ho1)

end Cert.KernelIdeal.Hand

end
-- ==== Proof.KI.Region1.lean ====
/-
  The matrix-product region with the low-rank adapter: the body at every point, and the library's body obligation.

  The body's control depends on the point only through the contraction step `k = t mod 8` (the contraction is the innermost
  grid axis). It branches twice on `k`:
    `k = 0`      the output block and the scratch are zero-filled first, then both gain this step's product;
    `0 < k < 7`  both gain this step's product over what they held;
    `k = 7`      both gain this step's product, and the output block then gains the adapter's correction, computed from the
                 second factor's block and the scratch as just updated.
  Every load and every store is of a whole buffer. So in each case the body's triple can name what every buffer holds
  afterwards outright: the four input buffers as found; the output buffer and the scratch at the payload of their LAST store,
  in which every value read back after an earlier store is that earlier store's payload. Those payloads are exactly the two
  components of `step1 k`.

  Between points the output block stays in its staging buffer (it is written back only after step 7, and the next point, of
  step 0, overwrites it before reading), and the scratch is carried by the invariant. Hence at a point not of step 0 the
  body finds both at what the point before left; at a point of step 0 what they hold is irrelevant. The obligation is the
  case split on `k`, each leaf that case's triple, joined to the record `dat1` by the case's equation for `outsAt1`.
-/
import proofs.«407792_j46918222742185_2_alg».proof.Proof.KI.R1Defs
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions in closed form -/

/-- The first conditional's condition (the contraction coordinate is 0), as the body's scalar chain spells it. -/
abbrev cond1_0 (i : grid1.Coords) : Prop :=
  Scalar.cmpi .ne (Scalar.extui (Scalar.cmpi .eq (BitVec.ofNat 32 (i 2).val) 0#32)) 0#32 = 1#1
/-- The second conditional's condition (the contraction coordinate is 7). -/
abbrev cond1_1 (i : grid1.Coords) : Prop :=
  Scalar.cmpi .ne (Scalar.extui (Scalar.cmpi .eq (BitVec.ofNat 32 (i 2).val) 7#32)) 0#32 = 1#1

/-- The contraction is the innermost grid axis: point `t` is at step `t mod 8`. -/
theorem coord2_eq : ∀ t : Fin cfg1.N, (grid1.coords t 2).val = t.val % 8 :=
  (by decide +kernel : ∀ t : Fin grid1.N, (grid1.coords t 2).val = t.val % 8)
/-- The first condition holds exactly at the points of step 0, -/
theorem hcond1_0 : ∀ t : Fin cfg1.N, cond1_0 (grid1.coords t) ↔ t.val % 8 = 0 :=
  (by decide +kernel : ∀ t : Fin grid1.N, cond1_0 (grid1.coords t) ↔ t.val % 8 = 0)
/-- the second exactly at the points of step 7. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Whole-buffer accesses -/

/-- The literal offsets of every access of the body are the zero offsets. -/
theorem off_S1024x512 : (![0, 0] : Fin S1024x512.rank → ℕ) = fun _ => 0 := by
  funext a; match a with | ⟨0, _⟩ => rfl | ⟨1, _⟩ => rfl
theorem off_S2048x512 : (![0, 0] : Fin S2048x512.rank → ℕ) = fun _ => 0 := by
  funext a; match a with | ⟨0, _⟩ => rfl | ⟨1, _⟩ => rfl
theorem off_S16x512 : (![0, 0] : Fin S16x512.rank → ℕ) = fun _ => 0 := by
  funext a; match a with | ⟨0, _⟩ => rfl | ⟨1, _⟩ => rfl
theorem off_S2048x16 : (![0, 0] : Fin S2048x16.rank → ℕ) = fun _ => 0 := by
  funext a; match a with | ⟨0, _⟩ => rfl | ⟨1, _⟩ => rfl
theorem off_S1024x2048 : (![0, 0] : Fin S1024x2048.rank → ℕ) = fun _ => 0 := by
  funext a; match a with | ⟨0, _⟩ => rfl | ⟨1, _⟩ => rfl
theorem off_S1024x16 : (![0, 0] : Fin S1024x16.rank → ℕ) = fun _ => 0 := by
  funext a; match a with | ⟨0, _⟩ => rfl | ⟨1, _⟩ => rfl

/-- A store through the whole-shape rectangle, made last, leaves its payload: whatever the buffer held and whatever
    was stored before, the buffer then reads the payload. -/
theorem read_writes_cons_whole1 {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  funext y
  rw [View.read_writes_apply_eq_canon v f y _ ⟨_, List.mem_cons.mpr (Or.inl rfl), View.mem_set_unit_zero h inb y⟩,
    View.canon_cons_unit_zero h inb]

/-! ## The body in its three control cases

The body branches twice on the contraction step `k`: it zero-fills the output block and the scratch when `k = 0`, and adds
the adapter's correction to the output block when `k = 7`. Every access is of a whole buffer, so in each case the buffers are
handed back at explicit contents: the four inputs as found, the output block and the scratch at the payloads of their last
stores, with every read-back of an earlier store resolved to that store's payload. -/

set_option maxHeartbeats 4800000 in
/-- Step 0: both accumulators are zero-filled first, so what they held before does not matter. The output block ends at this
    step's partial product added to the zero fill, the scratch at the input block times the first factor's block added to
    its zero fill. -/
theorem run1_first (c : Dev nD) (E : Set ℕ) (i : grid1.Coords) (arg3 : Memref sig .tc .vmem S1024x512 .f32) (harg3 : arg3.IsWhole) (arg4 : Memref sig .tc .vmem S2048x512 .bf16) (harg4 : arg4.IsWhole) (arg5 : Memref sig .tc .vmem S16x512 .f32) (harg5 : arg5.IsWhole) (arg6 : Memref sig .tc .vmem S2048x16 .f32) (harg6 : arg6.IsWhole) (arg7 : Memref sig .tc .vmem S1024x2048 .f32) (harg7 : arg7.IsWhole) (arg8 : Memref sig .tc .vmem S1024x16 .f32) (harg8 : arg8.IsWhole)
    (hc0 : cond1_0 i) (hc1 : ¬cond1_1 i)
    (x : Vec F S1024x512 .f32) (w : Vec F S2048x512 .bf16) (a : Vec F S16x512 .f32) (b : Vec F S2048x16 .f32)
    (K : PUnit → sProp 𝕄) :
    iprop(owns (c : Thread nD τ) arg3 fullShare x ∗ owns (c : Thread nD τ) arg4 fullShare w ∗ owns (c : Thread nD τ) arg5 fullShare a
        ∗ owns (c : Thread nD τ) arg6 fullShare b ∗ (∃ d, owns (c : Thread nD τ) arg7 fullShare d) ∗ (∃ d, owns (c : Thread nD τ) arg8 fullShare d)
        ∗ (iprop(owns (c : Thread nD τ) arg3 fullShare x ∗ owns (c : Thread nD τ) arg4 fullShare w ∗ owns (c : Thread nD τ) arg5 fullShare a
        ∗ owns (c : Thread nD τ) arg6 fullShare b ∗ owns (c : Thread nD τ) arg7 fullShare (k1_pay4 x w k1_pay1)
            ∗ owns (c : Thread nD τ) arg8 fullShare (k1_pay5 x a k1_pay2)) -∗ K ⟨⟩))
      ⊢ wp frame (wpE (defs₀ (F := F)) Variants.none c none) E (cc1__mm_lora_kernel i arg3 harg3 arg4 harg4 arg5 harg5 arg6 harg6 arg7 harg7 arg8 harg8) K := by
  simp only [cc1__mm_lora_kernel_eq_skeleton]; unfold cc1__mm_lora_kernel_skel
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf3; subst hf4; subst hf5; subst hf6
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [read_writes_cons_whole1 _ _ off_S1024x2048]
    simp only [View.readAt_eq_ld, View.ld_unit_zero (S := S1024x512) off_S1024x512, View.ld_unit_zero (S := S2048x512) off_S2048x512, View.readCov_unit_zero (S := S1024x2048) _ off_S1024x2048]
  iexists _; isplitr
  swap; · iexact H8
  ipureintro
  sl_unfold_words
  rw [read_writes_cons_whole1 _ _ off_S1024x16]
  simp only [View.readAt_eq_ld, View.ld_unit_zero (S := S1024x512) off_S1024x512, View.ld_unit_zero (S := S16x512) off_S16x512, View.readCov_unit_zero (S := S1024x16) _ off_S1024x16]

set_option maxHeartbeats 4800000 in
/-- Steps 1 to 6: neither branch is taken. The output block gains this step's partial product over what it held, the scratch
    its product over what it held. -/
theorem run1_mid (c : Dev nD) (E : Set ℕ) (i : grid1.Coords) (arg3 : Memref sig .tc .vmem S1024x512 .f32) (harg3 : arg3.IsWhole) (arg4 : Memref sig .tc .vmem S2048x512 .bf16) (harg4 : arg4.IsWhole) (arg5 : Memref sig .tc .vmem S16x512 .f32) (harg5 : arg5.IsWhole) (arg6 : Memref sig .tc .vmem S2048x16 .f32) (harg6 : arg6.IsWhole) (arg7 : Memref sig .tc .vmem S1024x2048 .f32) (harg7 : arg7.IsWhole) (arg8 : Memref sig .tc .vmem S1024x16 .f32) (harg8 : arg8.IsWhole)
    (hc0 : ¬cond1_0 i) (hc1 : ¬cond1_1 i)
    (x : Vec F S1024x512 .f32) (w : Vec F S2048x512 .bf16) (a : Vec F S16x512 .f32) (b : Vec F S2048x16 .f32)
    (o : Vec F S1024x2048 .f32) (s : Vec F S1024x16 .f32) (K : PUnit → sProp 𝕄) :
    iprop(owns (c : Thread nD τ) arg3 fullShare x ∗ owns (c : Thread nD τ) arg4 fullShare w ∗ owns (c : Thread nD τ) arg5 fullShare a
        ∗ owns (c : Thread nD τ) arg6 fullShare b ∗ owns (c : Thread nD τ) arg7 fullShare o ∗ owns (c : Thread nD τ) arg8 fullShare s
        ∗ (iprop(owns (c : Thread nD τ) arg3 fullShare x ∗ owns (c : Thread nD τ) arg4 fullShare w ∗ owns (c : Thread nD τ) arg5 fullShare a
        ∗ owns (c : Thread nD τ) arg6 fullShare b ∗ owns (c : Thread nD τ) arg7 fullShare (k1_pay4 x w o)
            ∗ owns (c : Thread nD τ) arg8 fullShare (k1_pay5 x a s)) -∗ K ⟨⟩))
      ⊢ wp frame (wpE (defs₀ (F := F)) Variants.none c none) E (cc1__mm_lora_kernel i arg3 harg3 arg4 harg4 arg5 harg5 arg6 harg6 arg7 harg7 arg8 harg8) K := by
  simp only [cc1__mm_lora_kernel_eq_skeleton]; unfold cc1__mm_lora_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf3; subst hf4; subst hf5; subst hf6; subst hf7; subst hf8
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [read_writes_cons_whole1 _ _ off_S1024x2048]
    simp only [View.readAt_eq_ld, View.ld_unit_zero (S := S1024x512) off_S1024x512, View.ld_unit_zero (S := S2048x512) off_S2048x512, View.ld_unit_zero (S := S1024x2048) off_S1024x2048]
  iexists _; isplitr
  swap; · iexact H8
  ipureintro
  sl_unfold_words
  rw [read_writes_cons_whole1 _ _ off_S1024x16]
  simp only [View.readAt_eq_ld, View.ld_unit_zero (S := S1024x512) off_S1024x512, View.ld_unit_zero (S := S16x512) off_S16x512, View.ld_unit_zero (S := S1024x16) off_S1024x16]

set_option maxHeartbeats 4800000 in
/-- Step 7: the first branch is not taken, the second is. The scratch gains its product as before; the output block gains its
    partial product and then the correction computed from the second factor's block and the scratch as just updated. -/
theorem run1_last (c : Dev nD) (E : Set ℕ) (i : grid1.Coords) (arg3 : Memref sig .tc .vmem S1024x512 .f32) (harg3 : arg3.IsWhole) (arg4 : Memref sig .tc .vmem S2048x512 .bf16) (harg4 : arg4.IsWhole) (arg5 : Memref sig .tc .vmem S16x512 .f32) (harg5 : arg5.IsWhole) (arg6 : Memref sig .tc .vmem S2048x16 .f32) (harg6 : arg6.IsWhole) (arg7 : Memref sig .tc .vmem S1024x2048 .f32) (harg7 : arg7.IsWhole) (arg8 : Memref sig .tc .vmem S1024x16 .f32) (harg8 : arg8.IsWhole)
    (hc0 : ¬cond1_0 i) (hc1 : cond1_1 i)
    (x : Vec F S1024x512 .f32) (w : Vec F S2048x512 .bf16) (a : Vec F S16x512 .f32) (b : Vec F S2048x16 .f32)
    (o : Vec F S1024x2048 .f32) (s : Vec F S1024x16 .f32) (K : PUnit → sProp 𝕄) :
    iprop(owns (c : Thread nD τ) arg3 fullShare x ∗ owns (c : Thread nD τ) arg4 fullShare w ∗ owns (c : Thread nD τ) arg5 fullShare a
        ∗ owns (c : Thread nD τ) arg6 fullShare b ∗ owns (c : Thread nD τ) arg7 fullShare o ∗ owns (c : Thread nD τ) arg8 fullShare s
        ∗ (iprop(owns (c : Thread nD τ) arg3 fullShare x ∗ owns (c : Thread nD τ) arg4 fullShare w ∗ owns (c : Thread nD τ) arg5 fullShare a
        ∗ owns (c : Thread nD τ) arg6 fullShare b ∗ owns (c : Thread nD τ) arg7 fullShare (k1_pay6 b (k1_pay5 x a s) (k1_pay4 x w o))
            ∗ owns (c : Thread nD τ) arg8 fullShare (k1_pay5 x a s)) -∗ K ⟨⟩))
      ⊢ wp frame (wpE (defs₀ (F := F)) Variants.none c none) E (cc1__mm_lora_kernel i arg3 harg3 arg4 harg4 arg5 harg5 arg6 harg6 arg7 harg7 arg8 harg8) K := by
  simp only [cc1__mm_lora_kernel_eq_skeleton]; unfold cc1__mm_lora_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf3; subst hf4; subst hf5; subst hf6; subst hf7; subst hf8
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [read_writes_cons_whole1 _ _ off_S1024x2048]
    simp only [View.readAt_eq_ld, View.ld_unit_zero (S := S1024x512) off_S1024x512, View.ld_unit_zero (S := S2048x512) off_S2048x512, View.ld_unit_zero (S := S16x512) off_S16x512, View.ld_unit_zero (S := S2048x16) off_S2048x16, View.ld_unit_zero (S := S1024x2048) off_S1024x2048, View.ld_unit_zero (S := S1024x16) off_S1024x16, View.readCov_unit_zero (S := S1024x2048) _ off_S1024x2048, View.readCov_unit_zero (S := S1024x16) _ off_S1024x16]
  iexists _; isplitr
  swap; · iexact H8
  ipureintro
  sl_unfold_words
  rw [read_writes_cons_whole1 _ _ off_S1024x16]
  simp only [View.readAt_eq_ld, View.ld_unit_zero (S := S1024x512) off_S1024x512, View.ld_unit_zero (S := S16x512) off_S16x512, View.ld_unit_zero (S := S1024x16) off_S1024x16]

/-! ## One step, case by case -/

/-- At step 0 the step starts both accumulators from the zero fill and adds no correction. -/
theorem step1_first {k : ℕ} (h0 : k = 0) (x : Vec F S1024x512 .f32) (w : Vec F S2048x512 .bf16) (a : Vec F S16x512 .f32)
    (b : Vec F S2048x16 .f32) (prev : Vec F S1024x2048 .f32 × Vec F S1024x16 .f32) :
    step1 k x w a b prev = (k1_pay4 x w k1_pay1, k1_pay5 x a k1_pay2) := by
  have h7 : ¬k = 7 := by omega
  unfold step1; simp only [if_pos h0, if_neg h7]

/-- At steps 1 to 6 it continues from what the step before left and adds no correction. -/
theorem step1_mid {k : ℕ} (h0 : ¬k = 0) (h7 : ¬k = 7) (x : Vec F S1024x512 .f32) (w : Vec F S2048x512 .bf16) (a : Vec F S16x512 .f32)
    (b : Vec F S2048x16 .f32) (prev : Vec F S1024x2048 .f32 × Vec F S1024x16 .f32) :
    step1 k x w a b prev = (k1_pay4 x w prev.1, k1_pay5 x a prev.2) := by
  unfold step1; simp only [if_neg h0, if_neg h7]

/-- At step 7 it continues likewise and then adds the correction, computed from the scratch as this step leaves it. -/
theorem step1_last {k : ℕ} (h0 : ¬k = 0) (h7 : k = 7) (x : Vec F S1024x512 .f32) (w : Vec F S2048x512 .bf16) (a : Vec F S16x512 .f32)
    (b : Vec F S2048x16 .f32) (prev : Vec F S1024x2048 .f32 × Vec F S1024x16 .f32) :
    step1 k x w a b prev = (k1_pay6 b (k1_pay5 x a prev.2) (k1_pay4 x w prev.1), k1_pay5 x a prev.2) := by
  unfold step1; simp only [if_neg h0, if_pos h7]

/-! ## What the accumulators hold after a point, by the point's case -/

/-- After a point of step 0: this step's products over the zero fills, whatever came before. -/
theorem outsAt1_first (c : Dev nD) (t : Fin cfg1.N) (h0 : t.val % 8 = 0) :
    outsAt1 V c t.val t.isLt = (k1_pay4 (xblk V c t) (wblk V c t) k1_pay1, k1_pay5 (xblk V c t) (ablk V c t) k1_pay2) := by
  obtain ⟨n, hn⟩ := t
  cases n with
  | zero => exact (outsAt1_zero V c hn).trans (step1_first rfl (xblk V c ⟨0, hn⟩) (wblk V c ⟨0, hn⟩) (ablk V c ⟨0, hn⟩) (bblk V c ⟨0, hn⟩) (k1_pay1, k1_pay2))
  | succ n => exact (outsAt1_succ V c n hn).trans (step1_first h0 (xblk V c ⟨n + 1, hn⟩) (wblk V c ⟨n + 1, hn⟩) (ablk V c ⟨n + 1, hn⟩) (bblk V c ⟨n + 1, hn⟩) (outsAt1 V c n (Nat.lt_of_succ_lt hn)))

/-- After a point of steps 1 to 6: this step's products over what the point before left. -/
theorem outsAt1_mid (c : Dev nD) (t : Fin cfg1.N) (h0 : ¬t.val % 8 = 0) (h7 : ¬t.val % 8 = 7) :
    outsAt1 V c t.val t.isLt = (k1_pay4 (xblk V c t) (wblk V c t) (outsAt1 V c (t.val - 1) (Nat.lt_of_le_of_lt (Nat.sub_le _ _) t.isLt)).1,
      k1_pay5 (xblk V c t) (ablk V c t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (outsAt1_succ V c n hn).trans (step1_mid h0 h7 (xblk V c ⟨n + 1, hn⟩) (wblk V c ⟨n + 1, hn⟩) (ablk V c ⟨n + 1, hn⟩) (bblk V c ⟨n + 1, hn⟩) (outsAt1 V c n (Nat.lt_of_succ_lt hn)))

/-- After a point of step 7: the same, and the output block corrected. -/
theorem outsAt1_last (c : Dev nD) (t : Fin cfg1.N) (h0 : ¬t.val % 8 = 0) (h7 : t.val % 8 = 7) :
    outsAt1 V c t.val t.isLt = (k1_pay6 (bblk V c t) (k1_pay5 (xblk V c t) (ablk V c t) (outsAt1 V c (t.val - 1) (Nat.lt_of_le_of_lt (Nat.sub_le _ _) t.isLt)).2)
        (k1_pay4 (xblk V c t) (wblk V c t) (outsAt1 V c (t.val - 1) (Nat.lt_of_le_of_lt (Nat.sub_le _ _) t.isLt)).1),
      k1_pay5 (xblk V c t) (ablk V c t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (outsAt1_succ V c n hn).trans (step1_last h0 h7 (xblk V c ⟨n + 1, hn⟩) (wblk V c ⟨n + 1, hn⟩) (ablk V c ⟨n + 1, hn⟩) (bblk V c ⟨n + 1, hn⟩) (outsAt1 V c n (Nat.lt_of_succ_lt hn)))

/-! ## The invariant before the first point -/

/-- What the launch hands the region, with the scratch split off as a memref owned at some contents: the other region's eight
    staging buffers, the scratch, the generator register. -/
theorem PhiA1_eq (c : Dev nD) :
    (Pipeline.ΦA spec1 c : sProp 𝕄)
      = iprop(iprop(rest1 (F := F) c ∗ (∃ d, owns (c : Thread nD τ) scM1 fullShare d)) ∗ (∃ r, prngReg c r)) := by
  unfold Pipeline.ΦA; rw [scopedRest1_eq]; unfold rest1; simp only [scM1, owns_whole]
  refine BI.equiv_iff.mp ⟨?_, ?_⟩
  · show (_ : sProp 𝕄) ⊢ (_ : sProp 𝕄)
    iintro ⟨⟨A0, A1, A2, A3, A4, A5, A6, A7, HS⟩, Hg⟩
    isplitr [Hg]
    swap; · iexact Hg
    isplitr [HS]
    swap; · iexact HS
    isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  · show (_ : sProp 𝕄) ⊢ (_ : sProp 𝕄)
    iintro ⟨⟨⟨A0, A1, A2, A3, A4, A5, A6, A7⟩, HS⟩, Hg⟩
    isplitr [Hg]
    swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iexact HS

/-! ## What the body finds in each staging buffer -/

/-- Input window 0's current staging buffer holds its block at every point, whether the pipeline fetched it there or its
    block index has not moved since the fetch: the body only reads the window, and the window is neither cut nor ever idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d
/-- Input window 1's current staging buffer holds its block at every point, whether the pipeline fetched it there or its
    block index has not moved since the fetch: the body only reads the window, and the window is neither cut nor ever idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d
/-- Input window 2's current staging buffer holds its block at every point, whether the pipeline fetched it there or its
    block index has not moved since the fetch: the body only reads the window, and the window is neither cut nor ever idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_2 (c : Dev nD) (t : Fin cfg1.N) (d) : (dat1 V c).before 2 t d = iblk1 V c 2 t :=
  before1_2_of V (dat1 V c) (A_eq1 V c 2) (after1_2 V c) t d
/-- Input window 3's current staging buffer holds its block at every point, whether the pipeline fetched it there or its
    block index has not moved since the fetch: the body only reads the window, and the window is neither cut nor ever idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_3 (c : Dev nD) (t : Fin cfg1.N) (d) : (dat1 V c).before 3 t d = iblk1 V c 3 t :=
  before1_3_of V (dat1 V c) (A_eq1 V c 3) (after1_3 V c) t d

/-- At a point that is not of step 0 the output window's current staging buffer holds what the body left at the point before:
    the point is not the first, the block was not written back in between (it is written back only after step 7), and the
    window is neither cut nor ever idle. -/
theorem before1_4_kept (c : Dev nD) (t : Fin cfg1.N) (h0 : ¬t.val % 8 = 0) (d) :
    (dat1 V c).before 4 t d = (outsAt1 V c (t.val - 1) (Nat.lt_of_le_of_lt (Nat.sub_le _ _) t.isLt)).1 := by
  have hN : t.val < 128 := lt_of_lt_of_eq t.isLt (show cfg1.N = 128 from N_1)
  rw [Dat.before_out_kept _ 4 rfl t (by omega) (Bool.eq_false_iff.mpr fun h => by have := (flush1_4 _).mp h; dsimp only at this; omega)
    (fun _ => rfl) (fun _ _ => rfl)]
  rw [after1_4]

/-! ## The body obligation -/

/-- Each window's current staging memref at point `t`, spelt as the pipeline passes it to the body. -/
abbrev ms1_0 (t : Fin cfg1.N) : Memref sig .tc .vmem S1024x512 .f32 := win1_0.stage (cfg1.slots t 0)
abbrev ms1_1 (t : Fin cfg1.N) : Memref sig .tc .vmem S2048x512 .bf16 := win1_1.stage (cfg1.slots t 1)
abbrev ms1_2 (t : Fin cfg1.N) : Memref sig .tc .vmem S16x512 .f32 := win1_2.stage (cfg1.slots t 2)
abbrev ms1_3 (t : Fin cfg1.N) : Memref sig .tc .vmem S2048x16 .f32 := win1_3.stage (cfg1.slots t 3)
abbrev ms1_4 (t : Fin cfg1.N) : Memref sig .tc .vmem S1024x2048 .f32 := win1_4.stage (cfg1.slots t 4)

/-- What the body is called with at point `t`: the invariant, what the core owes, and every window's current buffer at what it
    then holds, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns: the invariant at the next point, the same debt, every buffer at what the record says the body leaves. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 4800000 in
/-- The body at any point. The four input buffers hold their blocks. The point's step decides the case: at step 0 the output
    buffer and the scratch may hold anything (before the first point the invariant has the scratch at anything, later at what
    the point before left, which the zero fill discards); at the other steps the output buffer holds what the point before left
    in it, and the invariant hands over the scratch at what the point before left. The case's triple then runs the body, and
    what it returns is the record's `after` and the invariant at the next point, by the case's equation for `outsAt1`. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4]
  have hN : t.val < 128 := lt_of_lt_of_eq t.isLt (show cfg1.N = 128 from N_1)
  by_cases h0 : t.val % 8 = 0
  · have h7 : ¬t.val % 8 = 7 := by omega
    rw [outsAt1_first V c t h0]; dsimp only
    by_cases hz : t.val = 0
    · rw [PhiS1_castSucc V c t, PhiS1_zero V c _ _ hz, PhiA1_eq]
      iintro ⟨⟨⟨HR, ⟨%ds, HS⟩⟩, Hg⟩, Ho, ⟨%d0, H0⟩, ⟨%d1, H1⟩, ⟨%d2, H2⟩, ⟨%d3, H3⟩, ⟨%d4, H4⟩⟩
      iapply (run1_first c Set.univ (grid1.coords t) _ _ _ _ _ _ _ _ _ _ _ _ ((hcond1_0 t).mpr h0) (fun h => h7 ((hcond1_1 t).mp h))
        (xblk V c t) (wblk V c t) (ablk V c t) (bblk V c t) _)
      isplitl [H0]; · iexact H0
      isplitl [H1]; · iexact H1
      isplitl [H2]; · iexact H2
      isplitl [H3]; · iexact H3
      isplitl [H4]; · iexists _; iexact H4
      isplitl [HS]; · iexists _; iexact HS
      iintro ⟨H0, H1, H2, H3, H4, HS⟩
      isplitl [HR HS Hg]
      · isplitl [HR HS]
        · isplitl [HR]; · iexact HR
          iexact HS
        iexact Hg
      isplitl [Ho]; · iexact Ho
      isplitl [H0]; · iexact H0
      isplitl [H1]; · iexact H1
      isplitl [H2]; · iexact H2
      isplitl [H3]; · iexact H3
      iexact H4
    · rw [PhiS1_castSucc V c t, PhiS1_pos V c _ _ hz]
      iintro ⟨⟨⟨HR, HS⟩, Hg⟩, Ho, ⟨%d0, H0⟩, ⟨%d1, H1⟩, ⟨%d2, H2⟩, ⟨%d3, H3⟩, ⟨%d4, H4⟩⟩
      iapply (run1_first c Set.univ (grid1.coords t) _ _ _ _ _ _ _ _ _ _ _ _ ((hcond1_0 t).mpr h0) (fun h => h7 ((hcond1_1 t).mp h))
        (xblk V c t) (wblk V c t) (ablk V c t) (bblk V c t) _)
      isplitl [H0]; · iexact H0
      isplitl [H1]; · iexact H1
      isplitl [H2]; · iexact H2
      isplitl [H3]; · iexact H3
      isplitl [H4]; · iexists _; iexact H4
      isplitl [HS]; · iexists _; iexact HS
      iintro ⟨H0, H1, H2, H3, H4, HS⟩
      isplitl [HR HS Hg]
      · isplitl [HR HS]
        · isplitl [HR]; · iexact HR
          iexact HS
        iexact Hg
      isplitl [Ho]; · iexact Ho
      isplitl [H0]; · iexact H0
      isplitl [H1]; · iexact H1
      isplitl [H2]; · iexact H2
      isplitl [H3]; · iexact H3
      iexact H4
  · have hz : t.val ≠ 0 := by omega
    simp only [before1_4_kept V c t h0]
    rw [PhiS1_castSucc V c t, PhiS1_pos V c _ _ hz]
    by_cases h7 : t.val % 8 = 7
    · rw [outsAt1_last V c t h0 h7]; dsimp only
      iintro ⟨⟨⟨HR, HS⟩, Hg⟩, Ho, ⟨%d0, H0⟩, ⟨%d1, H1⟩, ⟨%d2, H2⟩, ⟨%d3, H3⟩, ⟨%d4, H4⟩⟩
      iapply (run1_last c Set.univ (grid1.coords t) _ _ _ _ _ _ _ _ _ _ _ _ (fun h => h0 ((hcond1_0 t).mp h)) ((hcond1_1 t).mpr h7)
        (xblk V c t) (wblk V c t) (ablk V c t) (bblk V c t)
        (outsAt1 V c (t.val - 1) (Nat.lt_of_le_of_lt (Nat.sub_le _ _) t.isLt)).1 (outsAt1 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HR HS Hg]
      · isplitl [HR HS]
        · isplitl [HR]; · iexact HR
          iexact HS
        iexact Hg
      isplitl [Ho]; · iexact Ho
      isplitl [H0]; · iexact H0
      isplitl [H1]; · iexact H1
      isplitl [H2]; · iexact H2
      isplitl [H3]; · iexact H3
      iexact H4
    · rw [outsAt1_mid V c t h0 h7]; dsimp only
      iintro ⟨⟨⟨HR, HS⟩, Hg⟩, Ho, ⟨%d0, H0⟩, ⟨%d1, H1⟩, ⟨%d2, H2⟩, ⟨%d3, H3⟩, ⟨%d4, H4⟩⟩
      iapply (run1_mid c Set.univ (grid1.coords t) _ _ _ _ _ _ _ _ _ _ _ _ (fun h => h0 ((hcond1_0 t).mp h)) (fun h => h7 ((hcond1_1 t).mp h))
        (xblk V c t) (wblk V c t) (ablk V c t) (bblk V c t)
        (outsAt1 V c (t.val - 1) (Nat.lt_of_le_of_lt (Nat.sub_le _ _) t.isLt)).1 (outsAt1 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HR HS Hg]
      · isplitl [HR HS]
        · isplitl [HR]; · iexact HR
          iexact HS
        iexact Hg
      isplitl [Ho]; · iexact Ho
      isplitl [H0]; · iexact H0
      isplitl [H1]; · iexact H1
      isplitl [H2]; · iexact H2
      isplitl [H3]; · iexact H3
      iexact H4

/-- The library's body obligation for the region's record, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- What the launch hands the region is the invariant before the first point. -/
theorem hin1 (c : Dev nD) : (Pipeline.ΦA spec1 c : sProp 𝕄) ⊢ (dat1 V c).Φ 0 := by
  show (Pipeline.ΦA spec1 c : sProp 𝕄) ⊢ PhiS1 V c 0 (Nat.zero_le _)
  exact Idealize.SL.BI.Entails.refl _

/-- After any point but the first the invariant gives back what the launch handed over: the scratch's named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HR, HS⟩, Hg⟩
  isplitl [HR HS]
  · isplitl [HR]; · iexact HR
    iexists _; iexact HS
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 128 := N_1; omega)

end Cert.KernelIdeal.Hand

end
-- ==== Proof.Spec.lean ====
/-
  The mathematics both programs compute, stated once, over literal shapes and with no program in sight.

  An NF4-quantized linear layer with a low-rank adapter. A weight entry is one of sixteen fixed levels, chosen by the
  low four bits of its integer code, times the scale of the 64-wide group its column lies in:
      W[o, i] = level (code w_q[o, i]) * scales[o, i / 64].
  The layer's output at batch b, position t, output channel o is
      Σ_i x[b,t,i] * W[o,i]  +  2 * Σ_r (Σ_i x[b,t,i] * A[r,i]) * B[o,r].
  Every float is an extended real and every operation the exact one, so the only laws used anywhere are those of a
  commutative monoid with zero: a sum may be cut into consecutive blocks and regrouped, and a sum against a
  zero-one selector picks one term.

  Two readings of each quantity are defined: the one-line mathematical one (`Wd`, `Y2`, `G`) and the one that
  follows the kernel's own arrangement of the work (`Wk`: a nested two-way choice on the code's bits, times a sum
  against a selector matrix; `Y2blk`: the contraction accumulated block by block, 512 columns at a time, from zero).
  The theorems at the end say the two readings agree.
-/
import Idealize.ShloMosaic.PureOps.Ideal
import Idealize.ShloMosaic.Lib.ValueIdx
import Mathlib.Data.Nat.Bitwise
import Mathlib.Data.Fintype.BigOperators
import Mathlib.Algebra.BigOperators.Group.Finset.Basic
import Mathlib.Tactic.IntervalCases

noncomputable section

open scoped BigOperators

namespace Cert.Spec

open Idealize.ShloMosaic Idealize.ShloMosaic.ValueIdx

/-! ## Shapes -/

abbrev SX : Shape := ⟨3, ![4, 2048, 4096]⟩
abbrev SQ : Shape := ⟨2, ![4096, 4096]⟩
abbrev SS : Shape := ⟨2, ![4096, 64]⟩
abbrev SA : Shape := ⟨2, ![16, 4096]⟩
abbrev SB : Shape := ⟨2, ![4096, 16]⟩
abbrev SM : Shape := ⟨2, ![8192, 4096]⟩
abbrev SE : Shape := ⟨2, ![64, 4096]⟩
abbrev SC : Shape := ⟨2, ![1, 16]⟩

/-! ## The sixteen levels -/

/-- The sixteen NF4 levels as f32 words, in code order. -/
def nf4 : Fin 16 → BitVec 32 := fun
  | 0 => 0xBF800000#32 | 1 => 0xBF3239B1#32 | 2 => 0xBF066B30#32 | 3 => 0xBECA32A0#32 | 4 => 0xBE91A24D#32 | 5 => 0xBE3D353F#32 | 6 => 0xBDBA7871#32 | 7 => 0x00000000#32
  | 8 => 0x3DA2FAFF#32 | 9 => 0x3E24CAE3#32 | 10 => 0x3E7C04DD#32 | 11 => 0x3EAD033A#32 | 12 => 0x3EE1A4B8#32 | 13 => 0x3F1007AB#32 | 14 => 0x3F3913B3#32 | 15 => 0x3F800000#32
  | ⟨_ + 16, h⟩ => absurd h (Nat.not_lt.2 (Nat.le_add_left _ _))

/-- A level as the extended real its word denotes. -/
def level (k : Fin 16) : EReal := Ideal.ofBits .f32 (nf4 k)

/-- The adapter's scale, 32/16, as the word both programs carry. -/
def two : EReal := Ideal.ofBits .f32 0x40000000#32

/-- The float zero both accumulators start from. -/
def zero : EReal := Ideal.ofBits .f32 0x00000000#32

/-- A code's low four bits. -/
def code (w : BitVec 32) : Fin 16 := ⟨w.toNat % 16, Nat.mod_lt _ (by decide)⟩

/-! ## The dequantized weight -/

/-- The group a column lies in. -/
def grp (i : Fin 4096) : Fin 64 := ⟨i.val / 64, by have := i.isLt; omega⟩

/-- W[o, i] = level (code w_q[o, i]) * scales[o, i / 64]. -/
def Wd (wq : SQ.Idx → BitVec 32) (s : SS.Idx → EReal) : SQ.Idx → EReal :=
  fun j => level (code (wq j)) * s (ix2 (n0 := 4096) (n1 := 64) (j 0) (grp (j 1)))

/-- The level a code selects, as the kernel finds it: a balanced tree of two-way choices on bits 0, 1, 2, 3 of the
    code over a row `cb` of sixteen candidates. -/
def tree (cb : Fin 16 → EReal) (w : BitVec 32) : EReal :=
  let b0 := w &&& 1#32 ≠ 0#32
  let b1 := w &&& 2#32 ≠ 0#32
  let b2 := w &&& 4#32 ≠ 0#32
  let b3 := w &&& 8#32 ≠ 0#32
  let l0 (i : Fin 8) : EReal := if b0 then cb ⟨2 * i.val + 1, by omega⟩ else cb ⟨2 * i.val, by omega⟩
  let l1 (i : Fin 4) : EReal := if b1 then l0 ⟨2 * i.val + 1, by omega⟩ else l0 ⟨2 * i.val, by omega⟩
  let l2 (i : Fin 2) : EReal := if b2 then l1 ⟨2 * i.val + 1, by omega⟩ else l1 ⟨2 * i.val, by omega⟩
  if b3 then l2 1 else l2 0

/-- The weight as the kernel computes it: the tree's level times the group's scale picked out by a sum against a
    selector matrix `E` (64 groups by 4096 columns). -/
def Wk (cb : Fin 16 → EReal) (E : SE.Idx → EReal) (wq : SQ.Idx → BitVec 32) (s : SS.Idx → EReal) : SQ.Idx → EReal :=
  fun j => tree cb (wq j) * (zero + ∑ g : Fin 64, s (ix2 (n0 := 4096) (n1 := 64) (j 0) g) * E (ix2 (n0 := 64) (n1 := 4096) g (j 1)))

/-- The selector: one where the row is the column's group, zero elsewhere. -/
def onehot : SE.Idx → EReal := fun e => if (e 0).val = (e 1).val / 64 then 1 else 0

/-! ## The layer on the flattened batch -/

/-- out2d[r, o] = Σ_i x2[r,i] * W[o,i] + 2 * Σ_q (Σ_i x2[r,i] * A[q,i]) * B[o,q]. -/
def Y2 (x2 : SM.Idx → EReal) (W : SQ.Idx → EReal) (A : SA.Idx → EReal) (B : SB.Idx → EReal) : SM.Idx → EReal :=
  fun j => (∑ i : Fin 4096, x2 (ix2 (n0 := 8192) (n1 := 4096) (j 0) i) * W (ix2 (n0 := 4096) (n1 := 4096) (j 1) i))
    + two * ∑ q : Fin 16, (∑ i : Fin 4096, x2 (ix2 (n0 := 8192) (n1 := 4096) (j 0) i) * A (ix2 (n0 := 16) (n1 := 4096) q i))
        * B (ix2 (n0 := 4096) (n1 := 16) (j 1) q)

/-- Column `i'` of block `k` (eight blocks of 512). -/
def col (k : Fin 8) (i' : Fin 512) : Fin 4096 := ⟨512 * k.val + i'.val, by have := k.isLt; have := i'.isLt; omega⟩

/-- A contraction over 4096 columns accumulated as the kernel does: from the float zero, one 512-wide block at a time,
    each block's partial sum itself started from the float zero. `acc f n` is the accumulator after `n` blocks. -/
def acc (f : Fin 4096 → EReal) : (n : ℕ) → n ≤ 8 → EReal
  | 0, _ => zero
  | n + 1, h => acc f n (Nat.le_of_succ_le h) + (zero + ∑ i' : Fin 512, f (col ⟨n, h⟩ i'))

/-- The layer with both contractions over the columns accumulated blockwise, and the adapter's contraction over
    the rank started from the float zero: the kernel's arrangement. -/
def Y2blk (x2 : SM.Idx → EReal) (W : SQ.Idx → EReal) (A : SA.Idx → EReal) (B : SB.Idx → EReal) : SM.Idx → EReal :=
  fun j => acc (fun i => x2 (ix2 (n0 := 8192) (n1 := 4096) (j 0) i) * W (ix2 (n0 := 4096) (n1 := 4096) (j 1) i)) 8 le_rfl
    + two * (zero + ∑ q : Fin 16, acc (fun i => x2 (ix2 (n0 := 8192) (n1 := 4096) (j 0) i) * A (ix2 (n0 := 16) (n1 := 4096) q i)) 8 le_rfl
        * B (ix2 (n0 := 4096) (n1 := 16) (j 1) q))

/-! ## The layer on the batch as given -/

/-- The flattened row of batch `b`, position `t`. -/
def row (b : Fin 4) (t : Fin 2048) : Fin 8192 := ⟨2048 * b.val + t.val, by have := b.isLt; have := t.isLt; omega⟩

/-- The result both programs are claimed to compute. -/
def G (x : SX.Idx → EReal) (wq : SQ.Idx → BitVec 32) (s : SS.Idx → EReal) (A : SA.Idx → EReal) (B : SB.Idx → EReal) : SX.Idx → EReal :=
  fun i => (∑ k : Fin 4096, x (ix3 (n0 := 4) (n1 := 2048) (n2 := 4096) (i 0) (i 1) k) * Wd wq s (ix2 (n0 := 4096) (n1 := 4096) (i 2) k))
    + two * ∑ q : Fin 16, (∑ k : Fin 4096, x (ix3 (n0 := 4) (n1 := 2048) (n2 := 4096) (i 0) (i 1) k) * A (ix2 (n0 := 16) (n1 := 4096) q k))
        * B (ix2 (n0 := 4096) (n1 := 16) (i 2) q)

/-- The batch flattened to rows. -/
def flat (x : SX.Idx → EReal) : SM.Idx → EReal :=
  fun j => x (ix3 (n0 := 4) (n1 := 2048) (n2 := 4096) ⟨(j 0).val / 2048, by have := idx2_lt0 j; omega⟩ ⟨(j 0).val % 2048, Nat.mod_lt _ (by decide)⟩ (j 1))

/-! ## The two readings agree -/

/-- The float zero is zero. -/
theorem zero_eq : zero = 0 := by
  simp [zero, Ideal.ofBits, Ideal.ieee]

/-- Masking a word with the single bit `m = 2 ^ k` leaves something nonzero exactly when bit `k` of its value is set,
    that is when the value divided by `m` is odd. -/
theorem and_bit_ne_zero (w : BitVec 32) (k m : ℕ) (hm : m = 2 ^ k) (hk : k < 32) :
    w &&& BitVec.ofNat 32 m ≠ 0#32 ↔ w.toNat / m % 2 = 1 := by
  subst hm
  rw [BitVec.toNat_ne, BitVec.toNat_and, BitVec.toNat_ofNat,
    Nat.mod_eq_of_lt (Nat.pow_lt_pow_right (by decide) hk), Nat.and_two_pow,
    Nat.testBit_eq_decide_div_mod_eq]
  have hpos : 0 < 2 ^ k := Nat.two_pow_pos k
  by_cases h : w.toNat / 2 ^ k % 2 = 1
  · simp [h, hpos.ne']
  · simp [h]

/-- The tree over the sixteen levels is the level of the code's low four bits, for every 32-bit code. -/
theorem tree_level (w : BitVec 32) : tree level w = level (code w) := by
  have h0 : w &&& 1#32 ≠ 0#32 ↔ w.toNat % 16 / 1 % 2 = 1 :=
    (and_bit_ne_zero w 0 1 (by norm_num) (by decide)).trans (by omega)
  have h1 : w &&& 2#32 ≠ 0#32 ↔ w.toNat % 16 / 2 % 2 = 1 :=
    (and_bit_ne_zero w 1 2 (by norm_num) (by decide)).trans (by omega)
  have h2 : w &&& 4#32 ≠ 0#32 ↔ w.toNat % 16 / 4 % 2 = 1 :=
    (and_bit_ne_zero w 2 4 (by norm_num) (by decide)).trans (by omega)
  have h3 : w &&& 8#32 ≠ 0#32 ↔ w.toNat % 16 / 8 % 2 = 1 :=
    (and_bit_ne_zero w 3 8 (by norm_num) (by decide)).trans (by omega)
  obtain ⟨n, hn⟩ : ∃ n, w.toNat % 16 = n := ⟨_, rfl⟩
  have hlt : n < 16 := by omega
  have hc : code w = ⟨n, hlt⟩ := Fin.ext hn
  rw [hn] at h0 h1 h2 h3
  rw [hc]
  unfold tree
  simp only [h0, h1, h2, h3]
  clear hc hn h0 h1 h2 h3
  interval_cases n <;> simp

/-- A sum against the selector picks the column's group. -/
theorem Wk_eq_Wd (wq : SQ.Idx → BitVec 32) (s : SS.Idx → EReal) : Wk level onehot wq s = Wd wq s := by
  funext j
  unfold Wk Wd
  rw [tree_level, zero_eq, zero_add]
  congr 1
  rw [Finset.sum_eq_single (grp (j 1))]
  · have hpos : (grp (j 1)).val = (j 1).val / 64 := rfl
    show s _ * (if (grp (j 1)).val = (j 1).val / 64 then 1 else 0) = _
    rw [if_pos hpos, mul_one]
  · intro g _ hg
    have hne : ¬ g.val = (j 1).val / 64 := fun h => hg (Fin.ext h)
    show s _ * (if g.val = (j 1).val / 64 then 1 else 0) = 0
    rw [if_neg hne, mul_zero]
  · intro h
    exact absurd (Finset.mem_univ _) h

/-- After `n` blocks the accumulator holds the sum over the first `512 * n` columns (the function on columns
    continued by zero past the last one, so that the sum can be written over a range of naturals). -/
theorem acc_eq_range (f : Fin 4096 → EReal) : ∀ (n : ℕ) (h : n ≤ 8),
    acc f n h = ∑ i ∈ Finset.range (512 * n), (if hi : i < 4096 then f ⟨i, hi⟩ else 0) := by
  intro n
  induction n with
  | zero =>
    intro h
    simp [acc, zero_eq]
  | succ n ih =>
    intro h
    rw [acc, ih, zero_eq, zero_add, Nat.mul_succ, Finset.sum_range_add]
    congr 1
    rw [← Fin.sum_univ_eq_sum_range (fun x => if hi : 512 * n + x < 4096 then f ⟨512 * n + x, hi⟩ else 0) 512]
    refine Finset.sum_congr rfl (fun i' _ => ?_)
    have hi : 512 * n + i'.val < 4096 := by have := i'.isLt; omega
    rw [dif_pos hi]
    rfl

/-- Eight blocks of 512 are the 4096 columns. -/
theorem acc_eq_sum (f : Fin 4096 → EReal) : acc f 8 le_rfl = ∑ i : Fin 4096, f i := by
  rw [acc_eq_range f 8 le_rfl]
  show (∑ i ∈ Finset.range 4096, (if hi : i < 4096 then f ⟨i, hi⟩ else 0)) = _
  rw [← Fin.sum_univ_eq_sum_range (fun i => if hi : i < 4096 then f ⟨i, hi⟩ else 0) 4096]
  refine Finset.sum_congr rfl (fun i _ => ?_)
  rw [dif_pos i.isLt]

/-- The blockwise arrangement is the layer. -/
theorem Y2blk_eq_Y2 (x2 : SM.Idx → EReal) (W : SQ.Idx → EReal) (A : SA.Idx → EReal) (B : SB.Idx → EReal) :
    Y2blk x2 W A B = Y2 x2 W A B := by
  funext j
  unfold Y2blk Y2
  simp only [acc_eq_sum, zero_eq, zero_add]

/-- The flattened batch at row `2048 * b + t` is the batch at `(b, t)`: dividing the row by 2048 gives back `b` and the
    remainder gives back `t`. -/
theorem flat_row (x : SX.Idx → EReal) (b : Fin 4) (t : Fin 2048) (k : Fin 4096) :
    flat x (ix2 (n0 := 8192) (n1 := 4096) (row b t) k) = x (ix3 (n0 := 4) (n1 := 2048) (n2 := 4096) b t k) := by
  have hb : (2048 * b.val + t.val) / 2048 = b.val := by have := t.isLt; omega
  have ht : (2048 * b.val + t.val) % 2048 = t.val := by have := t.isLt; omega
  unfold flat
  congr 1
  funext d
  match d with
  | ⟨0, _⟩ => exact Fin.ext hb
  | ⟨1, _⟩ => exact Fin.ext ht
  | ⟨2, _⟩ => rfl

/-- The layer on the flattened batch, read back at batch `b`, position `t`, is the claimed result. -/
theorem Y2_flat (x : SX.Idx → EReal) (wq : SQ.Idx → BitVec 32) (s : SS.Idx → EReal) (A : SA.Idx → EReal) (B : SB.Idx → EReal) (i : SX.Idx) :
    Y2 (flat x) (Wd wq s) A B (ix2 (n0 := 8192) (n1 := 4096) (row (i 0) (i 1)) (i 2)) = G x wq s A B i := by
  show (∑ k : Fin 4096, flat x (ix2 (n0 := 8192) (n1 := 4096) (row (i 0) (i 1)) k) * Wd wq s (ix2 (n0 := 4096) (n1 := 4096) (i 2) k))
      + two * ∑ q : Fin 16, (∑ k : Fin 4096, flat x (ix2 (n0 := 8192) (n1 := 4096) (row (i 0) (i 1)) k) * A (ix2 (n0 := 16) (n1 := 4096) q k))
          * B (ix2 (n0 := 4096) (n1 := 16) (i 2) q) = _
  simp only [flat_row x (i 0) (i 1)]
  rfl

end Cert.Spec

end
-- ==== Proof.KI.Value0.lean ====
/-
  What the dequantization region leaves in its output array, as one function of the arrays it reads.

  The region walks the 4096 x 4096 weight in 64 strips of 64 rows. At strip `t` it reads rows 64t .. 64t + 63 of the
  integer codes and of the group scales, and the whole of the level row (1 x 16) and of the group selector (64 x 4096), and
  writes rows 64t .. 64t + 63 of the output. First the stored block is read entry by entry: at row `p`, column `q` it is
      (the level picked from the row by a tree of two-way choices on bits 0, 1, 2, 3 of the code at (p, q))
        * (float zero + Σ_g scales[p, g] * selector[g, q]),
  the change of float format at the end being the identity on extended reals. Each two-way choice is a select on the
  one-bit word "code AND mask is not zero", which is the `if` on that inequality; each of the sixteen candidates is one entry
  of the level row; the sum is the matrix unit's contraction of the scales' second axis against the selector's first, started
  from the zero splat. Then the blocks are put together: entry (p, q) of strip `t`'s input blocks is entry (64t + p, q) of
  the codes and (64t + p, g) of the scales, the level row and the selector are read as they stand, so what strip `t` writes
  back is rows 64t .. of ONE function of the four arrays, `Spec.Wk`; row `r` lies in strip `r / 64`, every strip is written
  back, so the strips cover the array and it ends holding that function.
-/
import proofs.«407792_j46918222742185_2_alg».proof.Proof.KI.R0Defs
import proofs.«407792_j46918222742185_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

local notation "𝕄" => MT nD τ sig Unit (Elt F) ℕ (UR sig nD τ) ℕ

/-! ## The stored block, entry by entry -/

/-- A select on the one-bit word "x is not y" is the `if` on the inequality. -/
theorem sel_ne (x y : BitVec 32) (a b : EReal) :
    Scalar.select (IntOp.cmpi .ne x y) a b = if x ≠ y then a else b := by
  show (if BitVec.ofBool (x != y) = 1 then a else b) = _
  by_cases h : x = y
  · have hb : (x != y) = false := by rw [h]; exact bne_self_eq_false y
    rw [hb, if_neg (not_not.mpr h)]
    exact if_neg (by decide)
  · have hb : (x != y) = true := bne_iff_ne.mpr h
    rw [hb, if_pos h]
    exact if_pos rfl

/-- The scalar extracted from the 1 x 1 slice of the level row at column `n` is the row's entry `n`. -/
theorem row_at (cb : Vec Ideal S1x16 .f32) (n : Nat) (hn : n < 16) (hs : S1x16.Slices ![0, n] S1x1) :
    extractAt ![0, 0] (extractStridedSlice S1x1 ![0, n] (k0_pay2 cb) hs) inpos_S1x1_p0_0 = cb (ix2 (n0 := 1) (n1 := 16) 0 ⟨n, hn⟩) := by
  unfold k0_pay2
  rw [shapeCast_self]
  unfold extractAt extractStridedSlice
  refine congrArg cb (funext fun a => Fin.ext ?_)
  match a with
  | ⟨0, _⟩ => rfl
  | ⟨1, _⟩ => rfl

/-! The contraction's operand indices, axis by axis: the scales are read at (output row, contraction position), the
    selector at (contraction position, output column). -/

theorem lhs_dq_0 (i : S64x4096.Idx) (q : dot_S64x64_S64x4096_S64x4096_1_0_0_1_n_n.contr.Idx) :
    (dot_S64x64_S64x4096_S64x4096_1_0_0_1_n_n.lhsIdx i q 0).val = (i 0).val := by
  unfold DotDims.lhsIdx
  rw [dif_neg (show ¬(0 : Fin S64x64.rank) ∈ dot_S64x64_S64x4096_S64x4096_1_0_0_1_n_n.lhsBatch by decide), dif_pos (show (0 : Fin S64x64.rank) ∈ dot_S64x64_S64x4096_S64x4096_1_0_0_1_n_n.lhsNonContracting by decide)]
  rfl
theorem lhs_dq_1 (i : S64x4096.Idx) (q : dot_S64x64_S64x4096_S64x4096_1_0_0_1_n_n.contr.Idx) :
    (dot_S64x64_S64x4096_S64x4096_1_0_0_1_n_n.lhsIdx i q 1).val = (q ⟨0, by decide⟩).val :=
  dot_S64x64_S64x4096_S64x4096_1_0_0_1_n_n.lhsIdx_val_of_single rfl i q
theorem rhs_dq_0 (i : S64x4096.Idx) (q : dot_S64x64_S64x4096_S64x4096_1_0_0_1_n_n.contr.Idx) :
    (dot_S64x64_S64x4096_S64x4096_1_0_0_1_n_n.rhsIdx i q 0).val = (q ⟨0, by decide⟩).val :=
  dot_S64x64_S64x4096_S64x4096_1_0_0_1_n_n.rhsIdx_val_of_single rfl i q
theorem rhs_dq_1 (i : S64x4096.Idx) (q : dot_S64x64_S64x4096_S64x4096_1_0_0_1_n_n.contr.Idx) :
    (dot_S64x64_S64x4096_S64x4096_1_0_0_1_n_n.rhsIdx i q 1).val = (i 1).val := by
  unfold DotDims.rhsIdx
  rw [dif_neg (show ¬(1 : Fin S64x4096.rank) ∈ dot_S64x64_S64x4096_S64x4096_1_0_0_1_n_n.rhsBatch by decide), dif_pos (show (1 : Fin S64x4096.rank) ∈ dot_S64x64_S64x4096_S64x4096_1_0_0_1_n_n.rhsNonContracting by decide)]
  rfl

/-- The matrix product into the zero splat, at row `p`, column `q`: the float zero plus the sum over the 64 groups of
    scale (p, g) times selector (g, q). -/
theorem mm_apply (sc : FVec Ideal S64x64 .f32) (ex : FVec Ideal S64x4096 .f32) (p : Fin 64) (q : Fin 4096) :
    matmul dot_S64x64_S64x4096_S64x4096_1_0_0_1_n_n (some .fp32) sc ex (constant (F := Ideal) S64x4096 .f32 0x00000000#32) (ix2 p q)
      = Cert.Spec.zero + ∑ g : Fin 64, sc (ix2 p g) * ex (ix2 g q) := by
  simp only [matmul]
  rw [Ideal.matmul_apply]
  refine congrArg (Cert.Spec.zero + ·) ?_
  rw [← Equiv.sum_comp (contrEquiv1 dot_S64x64_S64x4096_S64x4096_1_0_0_1_n_n 64 rfl rfl).symm]
  refine Finset.sum_congr rfl fun k _ => ?_
  have hk := contrEquiv1_symm_val dot_S64x64_S64x4096_S64x4096_1_0_0_1_n_n 64 rfl rfl k
  have el : dot_S64x64_S64x4096_S64x4096_1_0_0_1_n_n.lhsIdx (ix2 p q) ((contrEquiv1 dot_S64x64_S64x4096_S64x4096_1_0_0_1_n_n 64 rfl rfl).symm k) = ix2 p k := funext fun a => Fin.ext (by
    match a with
    | ⟨0, _⟩ => exact lhs_dq_0 _ _
    | ⟨1, _⟩ => exact (lhs_dq_1 _ _).trans hk)
  have er : dot_S64x64_S64x4096_S64x4096_1_0_0_1_n_n.rhsIdx (ix2 p q) ((contrEquiv1 dot_S64x64_S64x4096_S64x4096_1_0_0_1_n_n 64 rfl rfl).symm k) = ix2 k q := funext fun a => Fin.ext (by
    match a with
    | ⟨0, _⟩ => exact (rhs_dq_0 _ _).trans hk
    | ⟨1, _⟩ => exact rhs_dq_1 _ _)
  rw [el, er]

/-! The four bit tests at an entry: the code there AND 1, 2, 4, 8, compared with zero. -/

theorem pay3_apply (wq : IVec S64x4096 32) (i : S64x4096.Idx) : k0_pay3 (F := Ideal) wq i = IntOp.cmpi .ne (wq i &&& 1#32) 0#32 := rfl
theorem pay4_apply (wq : IVec S64x4096 32) (i : S64x4096.Idx) : k0_pay4 (F := Ideal) wq i = IntOp.cmpi .ne (wq i &&& 2#32) 0#32 := rfl
theorem pay5_apply (wq : IVec S64x4096 32) (i : S64x4096.Idx) : k0_pay5 (F := Ideal) wq i = IntOp.cmpi .ne (wq i &&& 4#32) 0#32 := rfl
theorem pay6_apply (wq : IVec S64x4096 32) (i : S64x4096.Idx) : k0_pay6 (F := Ideal) wq i = IntOp.cmpi .ne (wq i &&& 8#32) 0#32 := rfl

/-- THE STORED BLOCK AT (p, q): the level the code's low four bits pick from the row, through the tree of choices,
    times the float zero plus the scales of row `p` summed against column `q` of the selector. The fifteen selects
    are the tree's fifteen `if`s in the same arrangement, and the sixteen leaves the row's sixteen entries. -/
theorem deq_apply (wq : IVec S64x4096 32) (sc : FVec Ideal S64x64 .f32) (cb : FVec Ideal S1x16 .f32) (ex : FVec Ideal S64x4096 .f32) (p : Fin 64) (q : Fin 4096) :
    (deq (F := Ideal) wq sc cb ex : S64x4096.Idx → EReal) (ix2 p q)
      = Cert.Spec.tree (fun k : Fin 16 => cb (ix2 (n0 := 1) (n1 := 16) 0 k)) (wq (ix2 p q)) * (Cert.Spec.zero + ∑ g : Fin 64, sc (ix2 p g) * ex (ix2 g q)) := by
  unfold deq k0_pay1
  rw [truncf_apply, mulf_apply, shapeCast_self, mm_apply]
  refine congrArg (· * _) ?_
  simp only [k0_pay7, k0_pay8, k0_pay9, k0_pay10, select_apply, broadcast_apply, pay3_apply, pay4_apply, pay5_apply, pay6_apply, sel_ne,
    row_at cb 0 (by decide) slices_S1x16_o0_0_S1x1, row_at cb 1 (by decide) slices_S1x16_o0_1_S1x1, row_at cb 2 (by decide) slices_S1x16_o0_2_S1x1, row_at cb 3 (by decide) slices_S1x16_o0_3_S1x1,
    row_at cb 4 (by decide) slices_S1x16_o0_4_S1x1, row_at cb 5 (by decide) slices_S1x16_o0_5_S1x1, row_at cb 6 (by decide) slices_S1x16_o0_6_S1x1, row_at cb 7 (by decide) slices_S1x16_o0_7_S1x1,
    row_at cb 8 (by decide) slices_S1x16_o0_8_S1x1, row_at cb 9 (by decide) slices_S1x16_o0_9_S1x1, row_at cb 10 (by decide) slices_S1x16_o0_10_S1x1, row_at cb 11 (by decide) slices_S1x16_o0_11_S1x1,
    row_at cb 12 (by decide) slices_S1x16_o0_12_S1x1, row_at cb 13 (by decide) slices_S1x16_o0_13_S1x1, row_at cb 14 (by decide) slices_S1x16_o0_14_S1x1, row_at cb 15 (by decide) slices_S1x16_o0_15_S1x1]
  unfold Cert.Spec.tree
  rfl

/-! ## From the strips to the array -/

section Array
variable (V : (c : Dev nD) → (b : Ref sig .tc) → Buf (Elt Ideal) ((c : Thread nD τ).loc b))

/-- Where each window's block sits at strip `t`: codes, scales and output at block row `t`, the level row and the
    selector at the origin. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Entry `x` of the codes' block at strip `t` is entry (64t + x₀, x₁) of the codes. -/
theorem qblk_apply (c : Dev nD) (t : Fin cfg0.N) (x : S64x4096.Idx) (k : S4096x4096.Idx)
    (hk0 : (k 0).val = 64 * t.val + (x 0).val) (hk1 : (k 1).val = (x 1).val) :
    (qblk V c t) x = (V c main_arg1 : S4096x4096.Idx → BitVec 32) k := by
  obtain ⟨e0, e1, -⟩ := idx_facts0 t
  unfold qblk iblk0
  rw [View.read_apply]
  show V c main_arg1 _ = V c main_arg1 _
  congr 1
  funext a
  apply Fin.ext
  match a with
  | ⟨0, _⟩ => show win0_0.index t (0 : Fin 2) * 64 + 1 * (x 0).val = (k 0).val; rw [e0, hk0]; omega
  | ⟨1, _⟩ => show win0_0.index t (1 : Fin 2) * 4096 + 1 * (x 1).val = (k 1).val; rw [e1, hk1]; omega

/-- Entry `x` of the scales' block at strip `t` is entry (64t + x₀, x₁) of the scales. -/
theorem sblk_apply (c : Dev nD) (t : Fin cfg0.N) (x : S64x64.Idx) (k : S4096x64.Idx)
    (hk0 : (k 0).val = 64 * t.val + (x 0).val) (hk1 : (k 1).val = (x 1).val) :
    (sblk V c t) x = (V c main_arg2 : S4096x64.Idx → EReal) k := by
  obtain ⟨-, -, e0, e1, -⟩ := idx_facts0 t
  unfold sblk iblk0
  rw [View.read_apply]
  show V c main_arg2 _ = V c main_arg2 _
  congr 1
  funext a
  apply Fin.ext
  match a with
  | ⟨0, _⟩ => show win0_1.index t (0 : Fin 2) * 64 + 1 * (x 0).val = (k 0).val; rw [e0, hk0]; omega
  | ⟨1, _⟩ => show win0_1.index t (1 : Fin 2) * 64 + 1 * (x 1).val = (k 1).val; rw [e1, hk1]; omega

/-- The level row's block is the level row, at every strip. -/
theorem cblk_apply (c : Dev nD) (t : Fin cfg0.N) (x : S1x16.Idx) :
    (cblk V c t) x = (V c main_v0 : S1x16.Idx → EReal) x := by
  obtain ⟨-, -, -, -, e0, e1, -⟩ := idx_facts0 t
  unfold cblk iblk0
  rw [View.read_apply]
  show V c main_v0 _ = V c main_v0 _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 16 + 1 * (x 1).val = (x 1).val; rw [e1]; omega

/-- The selector's block is the selector, at every strip. -/
theorem eblk_apply (c : Dev nD) (t : Fin cfg0.N) (x : S64x4096.Idx) :
    (eblk V c t) x = (V c main_v9 : S64x4096.Idx → EReal) x := by
  obtain ⟨-, -, -, -, -, -, e0, e1, -⟩ := idx_facts0 t
  unfold eblk iblk0
  rw [View.read_apply]
  show V c main_v9 _ = V c main_v9 _
  congr 1
  funext a
  apply Fin.ext
  match a with
  | ⟨0, _⟩ => show win0_3.index t (0 : Fin 2) * 64 + 1 * (x 0).val = (x 0).val; rw [e0]; omega
  | ⟨1, _⟩ => show win0_3.index t (1 : Fin 2) * 4096 + 1 * (x 1).val = (x 1).val; rw [e1]; omega

/-- The dequantized weight as one function of the four arrays the region reads. -/
abbrev Wstrips (c : Dev nD) : S4096x4096.Idx → EReal :=
  Cert.Spec.Wk (fun k : Fin 16 => V c main_v0 (ix2 (n0 := 1) (n1 := 16) 0 k)) (V c main_v9) (V c main_arg1) (V c main_arg2)

/-- Entry (p, q) of what strip `t` stores is entry (64t + p, q) of that function: the code and the scales are those of
    row 64t + p, the level row and the selector do not move. -/
theorem strip_apply (c : Dev nD) (t : Fin cfg0.N) (p : Fin 64) (q : Fin 4096) (k : S4096x4096.Idx)
    (hk0 : (k 0).val = 64 * t.val + p.val) (hk1 : (k 1).val = q.val) :
    (deq (F := Ideal) (qblk V c t) (sblk V c t) (cblk V c t) (eblk V c t) : S64x4096.Idx → EReal) (ix2 p q) = Wstrips V c k := by
  refine (deq_apply (qblk V c t) (sblk V c t) (cblk V c t) (eblk V c t) p q).trans ?_
  have h1 : (fun k : Fin 16 => cblk V c t (ix2 (n0 := 1) (n1 := 16) 0 k)) = fun k : Fin 16 => (V c main_v0 : S1x16.Idx → EReal) (ix2 (n0 := 1) (n1 := 16) 0 k) :=
    funext fun k => cblk_apply V c t _
  have h2 : qblk V c t (ix2 p q) = (V c main_arg1 : S4096x4096.Idx → BitVec 32) k := qblk_apply V c t _ _ hk0 hk1
  have h3 : ∀ g : Fin 64, sblk V c t (ix2 p g) = (V c main_arg2 : S4096x64.Idx → EReal) (ix2 (n0 := 4096) (n1 := 64) (k 0) g) :=
    fun g => sblk_apply V c t _ _ hk0 rfl
  have h4 : ∀ g : Fin 64, eblk V c t (ix2 g q) = (V c main_v9 : S64x4096.Idx → EReal) (ix2 (n0 := 64) (n1 := 4096) g (k 1)) :=
    fun g => (eblk_apply V c t _).trans (congrArg _ (funext fun a => Fin.ext (by
      match a with
      | ⟨0, _⟩ => rfl
      | ⟨1, _⟩ => exact hk1.symm)))
  rw [h1, h2]
  simp only [h3, h4]
  rfl

/-- WHAT STRIP `t` WRITES BACK is block `t` of the dequantized weight. -/
theorem flushed0_eq (c : Dev nD) (t : Fin cfg0.N) :
    (dat0 (F := Ideal) V c).flushed 4 t = ((cfg0.win 4).blk t).view.read (Elt Ideal) (Wstrips V c) := by
  show (cfg0.win 4).cut (grid0.coords t) ((dat0 V c).after 4 t) = _
  rw [after0_4]
  obtain ⟨-, -, -, -, -, -, -, -, e0, e1⟩ := idx_facts0 t
  funext j
  rw [View.read_apply]
  show (deq (F := Ideal) (qblk V c t) (sblk V c t) (cblk V c t) (eblk V c t) : S64x4096.Idx → EReal) j = Wstrips V c (((cfg0.win 4).blk t).view.emb j)
  have hj : (j : S64x4096.Idx) = ix2 (n0 := 64) (n1 := 4096) (j 0) (j 1) := eq_ix2 (n0 := 64) (n1 := 4096) j
  refine Eq.trans (congrArg (deq (F := Ideal) (qblk V c t) (sblk V c t) (cblk V c t) (eblk V c t) : S64x4096.Idx → EReal) hj) ?_
  refine strip_apply V c t (j 0) (j 1) (((cfg0.win 4).blk t).view.emb j) ?_ ?_
  · show win0_4.index t (0 : Fin 2) * 64 + 1 * (j 0).val = 64 * t.val + (j 0).val
    rw [e0]; omega
  · show win0_4.index t (1 : Fin 2) * 4096 + 1 * (j 1).val = (j 1).val
    rw [e1]; omega

/-- An index of the weight lies in strip `t`'s block iff each coordinate is in the block's range on its axis. -/
theorem mem_blk0 (t : Fin cfg0.N) (i : S4096x4096.Idx) :
    i ∈ ((cfg0.win 4).blk t).view.set ↔ ∀ a : Fin 2, win0_4.index t a * S64x4096.size a ≤ (i a).val ∧ (i a).val < win0_4.index t a * S64x4096.size a + S64x4096.size a := by
  show i ∈ ((View.whole main_v10).slice (win0_4.rect t)).set ↔ _
  rw [View.set_slice_whole, Rect.mem_set_unit]
  exact Iff.rfl

/-- Row `r` of the weight lies in strip `r / 64`, and every strip is written back: the strips cover the array. -/
theorem cover0 (i : S4096x4096.Idx) : ∃ t : Fin cfg0.N, (cfg0.win 4).flush t = true ∧ i ∈ ((cfg0.win 4).blk t).view.set := by
  have hi0 : (i 0).val < 4096 := (i 0).isLt
  have hi1 : (i 1).val < 4096 := (i 1).isLt
  have hN : grid0.N = 64 := N_0
  have ht : (i 0).val / 64 < cfg0.N := by show (i 0).val / 64 < grid0.N; rw [hN]; omega
  obtain ⟨-, -, -, -, -, -, -, -, e0, e1⟩ := idx_facts0 ⟨(i 0).val / 64, ht⟩
  have e0' : win0_4.index ⟨(i 0).val / 64, ht⟩ (0 : Fin 2) = (i 0).val / 64 := e0
  refine ⟨⟨(i 0).val / 64, ht⟩, flush0_4 _, ?_⟩
  rw [mem_blk0]
  intro a
  match a with
  | ⟨0, _⟩ =>
    show win0_4.index ⟨(i 0).val / 64, ht⟩ (0 : Fin 2) * 64 ≤ (i 0).val ∧ (i 0).val < win0_4.index ⟨(i 0).val / 64, ht⟩ (0 : Fin 2) * 64 + 64
    rw [e0']; omega
  | ⟨1, _⟩ =>
    show win0_4.index ⟨(i 0).val / 64, ht⟩ (1 : Fin 2) * 4096 ≤ (i 1).val ∧ (i 1).val < win0_4.index ⟨(i 0).val / 64, ht⟩ (1 : Fin 2) * 4096 + 4096
    rw [e1]; omega

/-- THE OUTPUT ARRAY after the region: the dequantized weight, as the kernel arranges it, of the level row, the selector,
    the codes and the scales as the region found them. -/
theorem arr0_eq (c : Dev nD) :
    ((dat0 (F := Ideal) V c).arrAt 4 cfg0.N : S4096x4096.Idx → EReal)
      = Cert.Spec.Wk (fun k : Fin 16 => V c main_v0 (ix2 (n0 := 1) (n1 := 16) 0 k)) (V c main_v9) (V c main_arg1) (V c main_arg2) :=
  (dat0 (F := Ideal) V c).arrAt_eq_of_cover 4 (Wstrips V c) (fun t _ => flushed0_eq V c t) (cover0)

end Array

end Cert.KernelIdeal.Hand

end
-- ==== Proof.KI.Value1.lean ====
/-
  What the matrix-product region leaves in its output array, as one function of the four arrays it reads, over the extended
  reals.

  The output array is 8192 x 4096, cut into 8 x 2 tiles of 1024 x 2048; each tile is visited at eight consecutive points, one
  per 512-wide block of the 4096 columns being contracted. At the point that is step `k` of tile `(i, j)` the region is handed
  rows `1024 i ..` and columns `512 k ..` of the input, rows `2048 j ..` and columns `512 k ..` of the weight, columns
  `512 k ..` of the adapter's first factor and rows `2048 j ..` of its second.

  Over the extended reals a change of float format is the identity, and a product of two blocks along their second axes,
  taken into a block of float zeros, is at entry `(p, q)` the float zero plus the sum over the shared axis of left row `p`
  times right row `q`. So one step adds to the output block's entry `(p, q)` the float zero plus the 512 products of this
  step's columns, and likewise to the scratch's entry `(p, r)` against the first factor; by induction over the steps of a tile
  both hold the contraction accumulated block by block from the float zero, which is `Cert.Spec.acc`. The last step then adds
  twice (the float zero plus the sum over the rank of scratch times second factor), and the entry is `Cert.Spec.Y2blk` at the
  tile's row and channel, term for term: no law of arithmetic is used, only the order in which the sums are written.
  Each tile is written back once, after its last step, and the sixteen tiles cover the array; so the array ends as `Y2blk` of
  the four arrays.
-/
import proofs.«407792_j46918222742185_2_alg».proof.Proof.KI.R1Defs
import proofs.«407792_j46918222742185_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

local notation "𝕄" => MT nD τ sig Unit (Elt F) ℕ (UR sig nD τ) ℕ

namespace Value1

section AnyFloat

-- the core's buffer contents when the region is entered: every statement below is over this parameter
variable (V : (c : Dev nD) → (b : Ref sig .tc) → Buf (Elt F) ((c : Thread nD τ).loc b))

/-! ## Where the blocks sit

Point `t` is step `t mod 8` of column tile `(t / 8) mod 2` of row tile `t / 16`. -/

/-- The five block indices at every point of the grid. -/
theorem blockIdx1 : ∀ t : Fin cfg1.N,
    win1_0.index t (0 : Fin 2) = t.val / 16 ∧ win1_0.index t (1 : Fin 2) = t.val % 8
    ∧ win1_1.index t (0 : Fin 2) = t.val / 8 % 2 ∧ win1_1.index t (1 : Fin 2) = t.val % 8
    ∧ win1_2.index t (0 : Fin 2) = 0 ∧ win1_2.index t (1 : Fin 2) = t.val % 8
    ∧ win1_3.index t (0 : Fin 2) = t.val / 8 % 2 ∧ win1_3.index t (1 : Fin 2) = 0
    ∧ win1_4.index t (0 : Fin 2) = t.val / 16 ∧ win1_4.index t (1 : Fin 2) = t.val / 8 % 2 :=
  (by decide +kernel : ∀ t : Fin grid1.N, _)

/-- The input block at a local index is the flattened input at row `1024 * (t / 16) + p`, column `512 * (t % 8) + q`. -/
theorem xblk_apply (c : Dev nD) (t : Fin cfg1.N) (p : Fin 1024) (q : Fin 512) (i : S8192x4096.Idx)
    (h0 : (i 0).val = 1024 * (t.val / 16) + p.val) (h1 : (i 1).val = 512 * (t.val % 8) + q.val) :
    xblk V c t (ix2 p q) = (V c main_v11 : S8192x4096.Idx → Elt F .f32) i := by
  obtain ⟨e0, e1, -⟩ := blockIdx1 t
  unfold xblk iblk1
  rw [View.read_apply]
  show (V c main_v11 : S8192x4096.Idx → Elt F .f32) _ = _
  congr 1
  funext a
  apply Fin.ext
  match a with
  | ⟨0, _⟩ => show win1_0.index t (0 : Fin 2) * 1024 + 1 * p.val = (i 0).val; rw [e0, h0]; omega
  | ⟨1, _⟩ => show win1_0.index t (1 : Fin 2) * 512 + 1 * q.val = (i 1).val; rw [e1, h1]; omega

/-- The weight block at a local index is the dequantized weight at row `2048 * ((t / 8) % 2) + q`, column `512 * (t % 8) + k`. -/
theorem wblk_apply (c : Dev nD) (t : Fin cfg1.N) (q : Fin 2048) (k : Fin 512) (i : S4096x4096.Idx)
    (h0 : (i 0).val = 2048 * (t.val / 8 % 2) + q.val) (h1 : (i 1).val = 512 * (t.val % 8) + k.val) :
    wblk V c t (ix2 q k) = (V c main_v10 : S4096x4096.Idx → Elt F .bf16) i := by
  obtain ⟨-, -, e0, e1, -⟩ := blockIdx1 t
  unfold wblk iblk1
  rw [View.read_apply]
  show (V c main_v10 : S4096x4096.Idx → Elt F .bf16) _ = _
  congr 1
  funext a
  apply Fin.ext
  match a with
  | ⟨0, _⟩ => show win1_1.index t (0 : Fin 2) * 2048 + 1 * q.val = (i 0).val; rw [e0, h0]; omega
  | ⟨1, _⟩ => show win1_1.index t (1 : Fin 2) * 512 + 1 * k.val = (i 1).val; rw [e1, h1]; omega

/-- The first factor's block at a local index is the first factor at row `r`, column `512 * (t % 8) + k`. -/
theorem ablk_apply (c : Dev nD) (t : Fin cfg1.N) (r : Fin 16) (k : Fin 512) (i : S16x4096.Idx)
    (h0 : (i 0).val = r.val) (h1 : (i 1).val = 512 * (t.val % 8) + k.val) :
    ablk V c t (ix2 r k) = (V c main_arg3 : S16x4096.Idx → Elt F .f32) i := by
  obtain ⟨-, -, -, -, e0, e1, -⟩ := blockIdx1 t
  unfold ablk iblk1
  rw [View.read_apply]
  show (V c main_arg3 : S16x4096.Idx → Elt F .f32) _ = _
  congr 1
  funext a
  apply Fin.ext
  match a with
  | ⟨0, _⟩ => show win1_2.index t (0 : Fin 2) * 16 + 1 * r.val = (i 0).val; rw [e0, h0]; omega
  | ⟨1, _⟩ => show win1_2.index t (1 : Fin 2) * 512 + 1 * k.val = (i 1).val; rw [e1, h1]; omega

/-- The second factor's block at a local index is the second factor at row `2048 * ((t / 8) % 2) + q`, column `r`. -/
theorem bblk_apply (c : Dev nD) (t : Fin cfg1.N) (q : Fin 2048) (r : Fin 16) (i : S4096x16.Idx)
    (h0 : (i 0).val = 2048 * (t.val / 8 % 2) + q.val) (h1 : (i 1).val = r.val) :
    bblk V c t (ix2 q r) = (V c main_arg4 : S4096x16.Idx → Elt F .f32) i := by
  obtain ⟨-, -, -, -, -, -, e0, e1, -⟩ := blockIdx1 t
  unfold bblk iblk1
  rw [View.read_apply]
  show (V c main_arg4 : S4096x16.Idx → Elt F .f32) _ = _
  congr 1
  funext a
  apply Fin.ext
  match a with
  | ⟨0, _⟩ => show win1_3.index t (0 : Fin 2) * 2048 + 1 * q.val = (i 0).val; rw [e0, h0]; omega
  | ⟨1, _⟩ => show win1_3.index t (1 : Fin 2) * 16 + 1 * r.val = (i 1).val; rw [e1, h1]; omega

end AnyFloat

/-! ## The three contractions at an index

Each of the body's three products contracts the second axis of both operands, so its entry `(p, q)` pairs row `p` of the
left operand with row `q` of the right one. The coordinate facts first, axis by axis. -/

theorem lhsW_0 (i : S1024x2048.Idx) (q : dot_S1024x512_S2048x512_S1024x2048_1_1_0_0_n_n.contr.Idx) :
    (dot_S1024x512_S2048x512_S1024x2048_1_1_0_0_n_n.lhsIdx i q 0).val = (i 0).val := by
  unfold DotDims.lhsIdx
  rw [dif_neg (show ¬(0 : Fin S1024x512.rank) ∈ dot_S1024x512_S2048x512_S1024x2048_1_1_0_0_n_n.lhsBatch by decide),
    dif_pos (show (0 : Fin S1024x512.rank) ∈ dot_S1024x512_S2048x512_S1024x2048_1_1_0_0_n_n.lhsNonContracting by decide)]
  rfl
theorem lhsW_1 (i : S1024x2048.Idx) (q : dot_S1024x512_S2048x512_S1024x2048_1_1_0_0_n_n.contr.Idx) :
    (dot_S1024x512_S2048x512_S1024x2048_1_1_0_0_n_n.lhsIdx i q 1).val = (q ⟨0, by decide⟩).val :=
  dot_S1024x512_S2048x512_S1024x2048_1_1_0_0_n_n.lhsIdx_val_of_single rfl i q
theorem rhsW_0 (i : S1024x2048.Idx) (q : dot_S1024x512_S2048x512_S1024x2048_1_1_0_0_n_n.contr.Idx) :
    (dot_S1024x512_S2048x512_S1024x2048_1_1_0_0_n_n.rhsIdx i q 0).val = (i 1).val := by
  unfold DotDims.rhsIdx
  rw [dif_neg (show ¬(0 : Fin S2048x512.rank) ∈ dot_S1024x512_S2048x512_S1024x2048_1_1_0_0_n_n.rhsBatch by decide),
    dif_pos (show (0 : Fin S2048x512.rank) ∈ dot_S1024x512_S2048x512_S1024x2048_1_1_0_0_n_n.rhsNonContracting by decide)]
  rfl
theorem rhsW_1 (i : S1024x2048.Idx) (q : dot_S1024x512_S2048x512_S1024x2048_1_1_0_0_n_n.contr.Idx) :
    (dot_S1024x512_S2048x512_S1024x2048_1_1_0_0_n_n.rhsIdx i q 1).val = (q ⟨0, by decide⟩).val :=
  dot_S1024x512_S2048x512_S1024x2048_1_1_0_0_n_n.rhsIdx_val_of_single rfl i q

theorem lhsA_0 (i : S1024x16.Idx) (q : dot_S1024x512_S16x512_S1024x16_1_1_0_0_n_n.contr.Idx) :
    (dot_S1024x512_S16x512_S1024x16_1_1_0_0_n_n.lhsIdx i q 0).val = (i 0).val := by
  unfold DotDims.lhsIdx
  rw [dif_neg (show ¬(0 : Fin S1024x512.rank) ∈ dot_S1024x512_S16x512_S1024x16_1_1_0_0_n_n.lhsBatch by decide),
    dif_pos (show (0 : Fin S1024x512.rank) ∈ dot_S1024x512_S16x512_S1024x16_1_1_0_0_n_n.lhsNonContracting by decide)]
  rfl
theorem lhsA_1 (i : S1024x16.Idx) (q : dot_S1024x512_S16x512_S1024x16_1_1_0_0_n_n.contr.Idx) :
    (dot_S1024x512_S16x512_S1024x16_1_1_0_0_n_n.lhsIdx i q 1).val = (q ⟨0, by decide⟩).val :=
  dot_S1024x512_S16x512_S1024x16_1_1_0_0_n_n.lhsIdx_val_of_single rfl i q
theorem rhsA_0 (i : S1024x16.Idx) (q : dot_S1024x512_S16x512_S1024x16_1_1_0_0_n_n.contr.Idx) :
    (dot_S1024x512_S16x512_S1024x16_1_1_0_0_n_n.rhsIdx i q 0).val = (i 1).val := by
  unfold DotDims.rhsIdx
  rw [dif_neg (show ¬(0 : Fin S16x512.rank) ∈ dot_S1024x512_S16x512_S1024x16_1_1_0_0_n_n.rhsBatch by decide),
    dif_pos (show (0 : Fin S16x512.rank) ∈ dot_S1024x512_S16x512_S1024x16_1_1_0_0_n_n.rhsNonContracting by decide)]
  rfl
theorem rhsA_1 (i : S1024x16.Idx) (q : dot_S1024x512_S16x512_S1024x16_1_1_0_0_n_n.contr.Idx) :
    (dot_S1024x512_S16x512_S1024x16_1_1_0_0_n_n.rhsIdx i q 1).val = (q ⟨0, by decide⟩).val :=
  dot_S1024x512_S16x512_S1024x16_1_1_0_0_n_n.rhsIdx_val_of_single rfl i q

theorem lhsB_0 (i : S1024x2048.Idx) (q : dot_S1024x16_S2048x16_S1024x2048_1_1_0_0_n_n.contr.Idx) :
    (dot_S1024x16_S2048x16_S1024x2048_1_1_0_0_n_n.lhsIdx i q 0).val = (i 0).val := by
  unfold DotDims.lhsIdx
  rw [dif_neg (show ¬(0 : Fin S1024x16.rank) ∈ dot_S1024x16_S2048x16_S1024x2048_1_1_0_0_n_n.lhsBatch by decide),
    dif_pos (show (0 : Fin S1024x16.rank) ∈ dot_S1024x16_S2048x16_S1024x2048_1_1_0_0_n_n.lhsNonContracting by decide)]
  rfl
theorem lhsB_1 (i : S1024x2048.Idx) (q : dot_S1024x16_S2048x16_S1024x2048_1_1_0_0_n_n.contr.Idx) :
    (dot_S1024x16_S2048x16_S1024x2048_1_1_0_0_n_n.lhsIdx i q 1).val = (q ⟨0, by decide⟩).val :=
  dot_S1024x16_S2048x16_S1024x2048_1_1_0_0_n_n.lhsIdx_val_of_single rfl i q
theorem rhsB_0 (i : S1024x2048.Idx) (q : dot_S1024x16_S2048x16_S1024x2048_1_1_0_0_n_n.contr.Idx) :
    (dot_S1024x16_S2048x16_S1024x2048_1_1_0_0_n_n.rhsIdx i q 0).val = (i 1).val := by
  unfold DotDims.rhsIdx
  rw [dif_neg (show ¬(0 : Fin S2048x16.rank) ∈ dot_S1024x16_S2048x16_S1024x2048_1_1_0_0_n_n.rhsBatch by decide),
    dif_pos (show (0 : Fin S2048x16.rank) ∈ dot_S1024x16_S2048x16_S1024x2048_1_1_0_0_n_n.rhsNonContracting by decide)]
  rfl
theorem rhsB_1 (i : S1024x2048.Idx) (q : dot_S1024x16_S2048x16_S1024x2048_1_1_0_0_n_n.contr.Idx) :
    (dot_S1024x16_S2048x16_S1024x2048_1_1_0_0_n_n.rhsIdx i q 1).val = (q ⟨0, by decide⟩).val :=
  dot_S1024x16_S2048x16_S1024x2048_1_1_0_0_n_n.rhsIdx_val_of_single rfl i q

/-- Input block times weight block transposed, into the float zero: the zero plus the sum over the block's 512 columns. -/
theorem mmW_apply (x : FVec Ideal S1024x512 .bf16) (w : FVec Ideal S2048x512 .bf16) (p : Fin 1024) (q : Fin 2048) :
    (matmul dot_S1024x512_S2048x512_S1024x2048_1_1_0_0_n_n none x w (constant (F := Ideal) S1024x2048 .f32 0x00000000#32) : FVec Ideal S1024x2048 .f32) (ix2 p q)
      = Cert.Spec.zero + ∑ k : Fin 512, x (ix2 p k) * w (ix2 q k) := by
  refine (Ideal.matmul_apply dot_S1024x512_S2048x512_S1024x2048_1_1_0_0_n_n none x w (constant (F := Ideal) S1024x2048 .f32 0x00000000#32) (ix2 p q)).trans ?_
  refine congrArg (Cert.Spec.zero + ·) ?_
  rw [← Equiv.sum_comp (contrEquiv1 dot_S1024x512_S2048x512_S1024x2048_1_1_0_0_n_n 512 rfl rfl).symm]
  refine Finset.sum_congr rfl fun k _ => ?_
  have hk := contrEquiv1_symm_val dot_S1024x512_S2048x512_S1024x2048_1_1_0_0_n_n 512 rfl rfl k
  have el : dot_S1024x512_S2048x512_S1024x2048_1_1_0_0_n_n.lhsIdx (ix2 p q) ((contrEquiv1 dot_S1024x512_S2048x512_S1024x2048_1_1_0_0_n_n 512 rfl rfl).symm k) = ix2 p k :=
    funext fun a => Fin.ext (by
      match a with
      | ⟨0, _⟩ => exact lhsW_0 _ _
      | ⟨1, _⟩ => exact (lhsW_1 _ _).trans hk)
  have er : dot_S1024x512_S2048x512_S1024x2048_1_1_0_0_n_n.rhsIdx (ix2 p q) ((contrEquiv1 dot_S1024x512_S2048x512_S1024x2048_1_1_0_0_n_n 512 rfl rfl).symm k) = ix2 q k :=
    funext fun a => Fin.ext (by
      match a with
      | ⟨0, _⟩ => exact rhsW_0 _ _
      | ⟨1, _⟩ => exact (rhsW_1 _ _).trans hk)
  rw [el, er]

/-- Input block times first-factor block transposed, likewise. -/
theorem mmA_apply (x : FVec Ideal S1024x512 .bf16) (w : FVec Ideal S16x512 .bf16) (p : Fin 1024) (q : Fin 16) :
    (matmul dot_S1024x512_S16x512_S1024x16_1_1_0_0_n_n none x w (constant (F := Ideal) S1024x16 .f32 0x00000000#32) : FVec Ideal S1024x16 .f32) (ix2 p q)
      = Cert.Spec.zero + ∑ k : Fin 512, x (ix2 p k) * w (ix2 q k) := by
  refine (Ideal.matmul_apply dot_S1024x512_S16x512_S1024x16_1_1_0_0_n_n none x w (constant (F := Ideal) S1024x16 .f32 0x00000000#32) (ix2 p q)).trans ?_
  refine congrArg (Cert.Spec.zero + ·) ?_
  rw [← Equiv.sum_comp (contrEquiv1 dot_S1024x512_S16x512_S1024x16_1_1_0_0_n_n 512 rfl rfl).symm]
  refine Finset.sum_congr rfl fun k _ => ?_
  have hk := contrEquiv1_symm_val dot_S1024x512_S16x512_S1024x16_1_1_0_0_n_n 512 rfl rfl k
  have el : dot_S1024x512_S16x512_S1024x16_1_1_0_0_n_n.lhsIdx (ix2 p q) ((contrEquiv1 dot_S1024x512_S16x512_S1024x16_1_1_0_0_n_n 512 rfl rfl).symm k) = ix2 p k :=
    funext fun a => Fin.ext (by
      match a with
      | ⟨0, _⟩ => exact lhsA_0 _ _
      | ⟨1, _⟩ => exact (lhsA_1 _ _).trans hk)
  have er : dot_S1024x512_S16x512_S1024x16_1_1_0_0_n_n.rhsIdx (ix2 p q) ((contrEquiv1 dot_S1024x512_S16x512_S1024x16_1_1_0_0_n_n 512 rfl rfl).symm k) = ix2 q k :=
    funext fun a => Fin.ext (by
      match a with
      | ⟨0, _⟩ => exact rhsA_0 _ _
      | ⟨1, _⟩ => exact (rhsA_1 _ _).trans hk)
  rw [el, er]

/-- Scratch times second-factor block transposed: the zero plus the sum over the rank. -/
theorem mmB_apply (x : FVec Ideal S1024x16 .bf16) (w : FVec Ideal S2048x16 .bf16) (p : Fin 1024) (q : Fin 2048) :
    (matmul dot_S1024x16_S2048x16_S1024x2048_1_1_0_0_n_n none x w (constant (F := Ideal) S1024x2048 .f32 0x00000000#32) : FVec Ideal S1024x2048 .f32) (ix2 p q)
      = Cert.Spec.zero + ∑ k : Fin 16, x (ix2 p k) * w (ix2 q k) := by
  refine (Ideal.matmul_apply dot_S1024x16_S2048x16_S1024x2048_1_1_0_0_n_n none x w (constant (F := Ideal) S1024x2048 .f32 0x00000000#32) (ix2 p q)).trans ?_
  refine congrArg (Cert.Spec.zero + ·) ?_
  rw [← Equiv.sum_comp (contrEquiv1 dot_S1024x16_S2048x16_S1024x2048_1_1_0_0_n_n 16 rfl rfl).symm]
  refine Finset.sum_congr rfl fun k _ => ?_
  have hk := contrEquiv1_symm_val dot_S1024x16_S2048x16_S1024x2048_1_1_0_0_n_n 16 rfl rfl k
  have el : dot_S1024x16_S2048x16_S1024x2048_1_1_0_0_n_n.lhsIdx (ix2 p q) ((contrEquiv1 dot_S1024x16_S2048x16_S1024x2048_1_1_0_0_n_n 16 rfl rfl).symm k) = ix2 p k :=
    funext fun a => Fin.ext (by
      match a with
      | ⟨0, _⟩ => exact lhsB_0 _ _
      | ⟨1, _⟩ => exact (lhsB_1 _ _).trans hk)
  have er : dot_S1024x16_S2048x16_S1024x2048_1_1_0_0_n_n.rhsIdx (ix2 p q) ((contrEquiv1 dot_S1024x16_S2048x16_S1024x2048_1_1_0_0_n_n 16 rfl rfl).symm k) = ix2 q k :=
    funext fun a => Fin.ext (by
      match a with
      | ⟨0, _⟩ => exact rhsB_0 _ _
      | ⟨1, _⟩ => exact (rhsB_1 _ _).trans hk)
  rw [el, er]

/-! ## The body's stored values at an index

Over the extended reals a change of float format is the identity and a shape cast to the same shape reads through, so each
stored value is the accumulator's entry plus that step's contraction, itself started from the float zero. -/

/-- The output block's reset value: the float zero everywhere. -/
theorem pay1_apply (j : S1024x2048.Idx) : (k1_pay1 (F := Ideal)) j = Cert.Spec.zero := rfl

/-- The scratch's reset value: the float zero everywhere. -/
theorem pay2_apply (j : S1024x16.Idx) : (k1_pay2 (F := Ideal)) j = Cert.Spec.zero := rfl

/-- The output block after a step: its entry plus (zero plus the sum over the step's 512 columns of input times weight). -/
theorem pay4_apply (x : FVec Ideal S1024x512 .f32) (w : FVec Ideal S2048x512 .bf16) (o : FVec Ideal S1024x2048 .f32)
    (p : Fin 1024) (q : Fin 2048) :
    k1_pay4 x w o (ix2 p q) = o (ix2 p q) + (Cert.Spec.zero + ∑ k : Fin 512, x (ix2 p k) * w (ix2 q k)) := by
  have e : k1_pay4 x w o = addf o
      (matmul dot_S1024x512_S2048x512_S1024x2048_1_1_0_0_n_n none (truncf .bf16 x bitsLt_bf16_f32)
        w (constant (F := Ideal) S1024x2048 .f32 0x00000000#32)) := by
    unfold k1_pay4 k1_pay3
    simp only [shapeCast_self]
  refine (congrFun e (ix2 p q)).trans ?_
  exact congrArg (o (ix2 p q) + ·)
    (mmW_apply (truncf .bf16 x bitsLt_bf16_f32) w p q)

/-- The scratch after a step: its entry plus (zero plus the sum over the step's 512 columns of input times first factor). -/
theorem pay5_apply (x : FVec Ideal S1024x512 .f32) (a : FVec Ideal S16x512 .f32) (s : FVec Ideal S1024x16 .f32)
    (p : Fin 1024) (r : Fin 16) :
    k1_pay5 x a s (ix2 p r) = s (ix2 p r) + (Cert.Spec.zero + ∑ k : Fin 512, x (ix2 p k) * a (ix2 r k)) := by
  have e : k1_pay5 x a s = addf s
      (matmul dot_S1024x512_S16x512_S1024x16_1_1_0_0_n_n none (truncf .bf16 x bitsLt_bf16_f32)
        (truncf .bf16 a bitsLt_bf16_f32) (constant (F := Ideal) S1024x16 .f32 0x00000000#32)) := by
    unfold k1_pay5 k1_pay3
    simp only [shapeCast_self]
  refine (congrFun e (ix2 p r)).trans ?_
  exact congrArg (s (ix2 p r) + ·)
    (mmA_apply (truncf .bf16 x bitsLt_bf16_f32)
      (truncf .bf16 a bitsLt_bf16_f32) p r)

/-- The output block after the last step's closing addition: its entry plus twice (zero plus the sum over the rank of scratch
    times second factor). -/
theorem pay6_apply (b : FVec Ideal S2048x16 .f32) (s : FVec Ideal S1024x16 .f32) (o : FVec Ideal S1024x2048 .f32)
    (p : Fin 1024) (q : Fin 2048) :
    k1_pay6 b s o (ix2 p q)
      = o (ix2 p q) + Cert.Spec.two * (Cert.Spec.zero + ∑ r : Fin 16, s (ix2 p r) * b (ix2 q r)) := by
  have e : k1_pay6 b s o = addf o
      (mulf (broadcast S1024x2048 (Scalar.ofBits (F := Ideal) .f32 0x40000000#32))
        (matmul dot_S1024x16_S2048x16_S1024x2048_1_1_0_0_n_n none (truncf .bf16 s bitsLt_bf16_f32)
          (truncf .bf16 b bitsLt_bf16_f32) (constant (F := Ideal) S1024x2048 .f32 0x00000000#32))) := by
    unfold k1_pay6
    simp only [shapeCast_self]
  refine (congrFun e (ix2 p q)).trans ?_
  exact congrArg (fun z => o (ix2 p q) + Cert.Spec.two * z)
    (mmB_apply (truncf .bf16 s bitsLt_bf16_f32)
      (truncf .bf16 b bitsLt_bf16_f32) p q)

/-! ## One step at an index -/

/-- The scratch after one step. -/
theorem step1_snd (k : ℕ) (x : Vec Ideal S1024x512 .f32) (w : Vec Ideal S2048x512 .bf16) (a : Vec Ideal S16x512 .f32)
    (b : Vec Ideal S2048x16 .f32) (prev : Vec Ideal S1024x2048 .f32 × Vec Ideal S1024x16 .f32) (p : Fin 1024) (r : Fin 16) :
    (step1 k x w a b prev).2 (ix2 p r)
      = (if k = 0 then Cert.Spec.zero else prev.2 (ix2 p r))
        + (Cert.Spec.zero + ∑ i' : Fin 512, x (ix2 p i') * a (ix2 r i')) := by
  show k1_pay5 x a (if k = 0 then k1_pay2 (F := Ideal) else prev.2) (ix2 p r) = _
  rw [pay5_apply]
  by_cases hk : k = 0
  · rw [if_pos hk, if_pos hk]; rfl
  · rw [if_neg hk, if_neg hk]

/-- The output block before the closing addition. -/
theorem step1_fst (k : ℕ) (x : Vec Ideal S1024x512 .f32) (w : Vec Ideal S2048x512 .bf16) (a : Vec Ideal S16x512 .f32)
    (b : Vec Ideal S2048x16 .f32) (prev : Vec Ideal S1024x2048 .f32 × Vec Ideal S1024x16 .f32) (p : Fin 1024) (q : Fin 2048) :
    (step1 k x w a b prev).1 (ix2 p q)
      = if k = 7 then
          ((if k = 0 then Cert.Spec.zero else prev.1 (ix2 p q))
              + (Cert.Spec.zero + ∑ i' : Fin 512, x (ix2 p i') * w (ix2 q i')))
            + Cert.Spec.two * (Cert.Spec.zero + ∑ r : Fin 16, (step1 k x w a b prev).2 (ix2 p r) * b (ix2 q r))
        else (if k = 0 then Cert.Spec.zero else prev.1 (ix2 p q))
              + (Cert.Spec.zero + ∑ i' : Fin 512, x (ix2 p i') * w (ix2 q i')) := by
  have ho : k1_pay4 x w (if k = 0 then k1_pay1 (F := Ideal) else prev.1) (ix2 p q)
      = (if k = 0 then Cert.Spec.zero else prev.1 (ix2 p q))
        + (Cert.Spec.zero + ∑ i' : Fin 512, x (ix2 p i') * w (ix2 q i')) := by
    rw [pay4_apply]
    by_cases hk : k = 0
    · rw [if_pos hk, if_pos hk]; rfl
    · rw [if_neg hk, if_neg hk]
  by_cases h7 : k = 7
  · rw [if_pos h7]
    show (if k = 7 then k1_pay6 b (k1_pay5 x a (if k = 0 then k1_pay2 (F := Ideal) else prev.2))
        (k1_pay4 x w (if k = 0 then k1_pay1 (F := Ideal) else prev.1)) else k1_pay4 x w (if k = 0 then k1_pay1 (F := Ideal) else prev.1)) (ix2 p q) = _
    rw [if_pos h7, pay6_apply, ho]
    rfl
  · rw [if_neg h7]
    show (if k = 7 then k1_pay6 b (k1_pay5 x a (if k = 0 then k1_pay2 (F := Ideal) else prev.2))
        (k1_pay4 x w (if k = 0 then k1_pay1 (F := Ideal) else prev.1)) else k1_pay4 x w (if k = 0 then k1_pay1 (F := Ideal) else prev.1)) (ix2 p q) = _
    rw [if_neg h7, ho]

/-! ## The invariant over the points of a tile -/

section AtIdeal

variable (V : (c : Dev nD) → (b : Ref sig .tc) → Buf (Elt Ideal) ((c : Thread nD τ).loc b))

/-- The four arrays the region reads, as it finds them: flattened input, dequantized weight, the adapter's two factors. -/
abbrev xarr (c : Dev nD) : Cert.Spec.SM.Idx → EReal := V c main_v11
abbrev warr (c : Dev nD) : Cert.Spec.SQ.Idx → EReal := V c main_v10
abbrev aarr (c : Dev nD) : Cert.Spec.SA.Idx → EReal := V c main_arg3
abbrev barr (c : Dev nD) : Cert.Spec.SB.Idx → EReal := V c main_arg4

/-- Row `p` of row tile `i`, as a row of the whole input. -/
def rowAt (i : Fin 8) (p : Fin 1024) : Fin 8192 := ⟨1024 * i.val + p.val, by have := i.isLt; have := p.isLt; omega⟩
/-- Column `q` of column tile `j`, as an output channel. -/
def colAt (j : Fin 2) (q : Fin 2048) : Fin 4096 := ⟨2048 * j.val + q.val, by have := j.isLt; have := q.isLt; omega⟩

/-- The terms of the main contraction for input row `ρ` and output channel `o`, and of the adapter's first contraction
    for input row `ρ` and rank index `r`, over the 4096 columns. -/
abbrev fW (c : Dev nD) (ρ : Fin 8192) (o : Fin 4096) : Fin 4096 → EReal :=
  fun i' => xarr V c (ix2 ρ i') * warr V c (ix2 o i')
abbrev fA (c : Dev nD) (ρ : Fin 8192) (r : Fin 16) : Fin 4096 → EReal :=
  fun i' => xarr V c (ix2 ρ i') * aarr V c (ix2 r i')

/-- The four blocks at the point that is step `k` of tile `(i, j)`, read at a local index. -/
theorem xblk_at (c : Dev nD) (n : ℕ) (hn : n < cfg1.N) (i : Fin 8) (j : Fin 2) (k : ℕ) (hk : k < 8)
    (hnk : n = (i.val * 2 + j.val) * 8 + k) (p : Fin 1024) (i' : Fin 512) :
    xblk V c ⟨n, hn⟩ (ix2 p i') = xarr V c (ix2 (rowAt i p) (Cert.Spec.col ⟨k, hk⟩ i')) := by
  refine xblk_apply V c ⟨n, hn⟩ p i' (ix2 (rowAt i p) (Cert.Spec.col ⟨k, hk⟩ i')) ?_ ?_
  · show 1024 * i.val + p.val = 1024 * (n / 16) + p.val
    have := j.isLt; omega
  · show 512 * k + i'.val = 512 * (n % 8) + i'.val
    omega

theorem wblk_at (c : Dev nD) (n : ℕ) (hn : n < cfg1.N) (i : Fin 8) (j : Fin 2) (k : ℕ) (hk : k < 8)
    (hnk : n = (i.val * 2 + j.val) * 8 + k) (q : Fin 2048) (i' : Fin 512) :
    wblk V c ⟨n, hn⟩ (ix2 q i') = warr V c (ix2 (colAt j q) (Cert.Spec.col ⟨k, hk⟩ i')) := by
  refine wblk_apply V c ⟨n, hn⟩ q i' (ix2 (colAt j q) (Cert.Spec.col ⟨k, hk⟩ i')) ?_ ?_
  · show 2048 * j.val + q.val = 2048 * (n / 8 % 2) + q.val
    have := j.isLt; omega
  · show 512 * k + i'.val = 512 * (n % 8) + i'.val
    omega

theorem ablk_at (c : Dev nD) (n : ℕ) (hn : n < cfg1.N) (i : Fin 8) (j : Fin 2) (k : ℕ) (hk : k < 8)
    (hnk : n = (i.val * 2 + j.val) * 8 + k) (r : Fin 16) (i' : Fin 512) :
    ablk V c ⟨n, hn⟩ (ix2 r i') = aarr V c (ix2 r (Cert.Spec.col ⟨k, hk⟩ i')) := by
  refine ablk_apply V c ⟨n, hn⟩ r i' (ix2 r (Cert.Spec.col ⟨k, hk⟩ i')) rfl ?_
  show 512 * k + i'.val = 512 * (n % 8) + i'.val
  omega

theorem bblk_at (c : Dev nD) (n : ℕ) (hn : n < cfg1.N) (i : Fin 8) (j : Fin 2) (k : ℕ) (hk : k < 8)
    (hnk : n = (i.val * 2 + j.val) * 8 + k) (q : Fin 2048) (r : Fin 16) :
    bblk V c ⟨n, hn⟩ (ix2 q r) = barr V c (ix2 (colAt j q) r) := by
  refine bblk_apply V c ⟨n, hn⟩ q r (ix2 (colAt j q) r) ?_ rfl
  show 2048 * j.val + q.val = 2048 * (n / 8 % 2) + q.val
  have := j.isLt; omega

/-- One step keeps the invariant. At step `k` of tile `(i, j)`, if (unless `k = 0`) the pair handed on holds the two
    contractions accumulated over the first `k` column blocks, then afterwards the scratch holds the adapter's contraction
    over `k + 1` blocks, and the output block holds the main contraction over `k + 1` blocks or, after the last step, the
    layer's value. -/
theorem step_inv (c : Dev nD) (n : ℕ) (hn : n < cfg1.N) (i : Fin 8) (j : Fin 2) (k : ℕ) (hk : k < 8)
    (hnk : n = (i.val * 2 + j.val) * 8 + k) (prev : Vec Ideal S1024x2048 .f32 × Vec Ideal S1024x16 .f32)
    (hs : k ≠ 0 → ∀ (p : Fin 1024) (r : Fin 16),
      prev.2 (ix2 p r) = Cert.Spec.acc (fA V c (rowAt i p) r) k (Nat.le_of_lt hk))
    (ho : k ≠ 0 → ∀ (p : Fin 1024) (q : Fin 2048),
      prev.1 (ix2 p q) = Cert.Spec.acc (fW V c (rowAt i p) (colAt j q)) k (Nat.le_of_lt hk)) :
    (∀ (p : Fin 1024) (r : Fin 16),
      (step1 k (xblk V c ⟨n, hn⟩) (wblk V c ⟨n, hn⟩) (ablk V c ⟨n, hn⟩) (bblk V c ⟨n, hn⟩) prev).2 (ix2 p r)
        = Cert.Spec.acc (fA V c (rowAt i p) r) (k + 1) hk)
    ∧ ∀ (p : Fin 1024) (q : Fin 2048),
      (step1 k (xblk V c ⟨n, hn⟩) (wblk V c ⟨n, hn⟩) (ablk V c ⟨n, hn⟩) (bblk V c ⟨n, hn⟩) prev).1 (ix2 p q)
        = if k = 7 then Cert.Spec.Y2blk (xarr V c) (warr V c) (aarr V c) (barr V c) (ix2 (rowAt i p) (colAt j q))
          else Cert.Spec.acc (fW V c (rowAt i p) (colAt j q)) (k + 1) hk := by
  have hS : ∀ (p : Fin 1024) (r : Fin 16),
      (step1 k (xblk V c ⟨n, hn⟩) (wblk V c ⟨n, hn⟩) (ablk V c ⟨n, hn⟩) (bblk V c ⟨n, hn⟩) prev).2 (ix2 p r)
        = Cert.Spec.acc (fA V c (rowAt i p) r) (k + 1) hk := by
    intro p r
    refine (step1_snd k (xblk V c ⟨n, hn⟩) (wblk V c ⟨n, hn⟩) (ablk V c ⟨n, hn⟩) (bblk V c ⟨n, hn⟩) prev p r).trans ?_
    have hsum : ∑ i' : Fin 512, xblk V c ⟨n, hn⟩ (ix2 p i') * ablk V c ⟨n, hn⟩ (ix2 r i')
        = ∑ i' : Fin 512, fA V c (rowAt i p) r (Cert.Spec.col ⟨k, hk⟩ i') :=
      Finset.sum_congr rfl fun i' _ => by
        rw [xblk_at V c n hn i j k hk hnk p i', ablk_at V c n hn i j k hk hnk r i']
    rw [hsum]
    by_cases hk0 : k = 0
    · subst hk0; rw [if_pos rfl]; rfl
    · rw [if_neg hk0, hs hk0 p r]; rfl
  refine ⟨hS, fun p q => ?_⟩
  refine (step1_fst k (xblk V c ⟨n, hn⟩) (wblk V c ⟨n, hn⟩) (ablk V c ⟨n, hn⟩) (bblk V c ⟨n, hn⟩) prev p q).trans ?_
  have hsum : ∑ i' : Fin 512, xblk V c ⟨n, hn⟩ (ix2 p i') * wblk V c ⟨n, hn⟩ (ix2 q i')
      = ∑ i' : Fin 512, fW V c (rowAt i p) (colAt j q) (Cert.Spec.col ⟨k, hk⟩ i') :=
    Finset.sum_congr rfl fun i' _ => by
      rw [xblk_at V c n hn i j k hk hnk p i', wblk_at V c n hn i j k hk hnk q i']
  have hop : (if k = 0 then Cert.Spec.zero else prev.1 (ix2 p q))
        + (Cert.Spec.zero + ∑ i' : Fin 512, xblk V c ⟨n, hn⟩ (ix2 p i') * wblk V c ⟨n, hn⟩ (ix2 q i'))
      = Cert.Spec.acc (fW V c (rowAt i p) (colAt j q)) (k + 1) hk := by
    rw [hsum]
    by_cases hk0 : k = 0
    · subst hk0; rw [if_pos rfl]; rfl
    · rw [if_neg hk0, ho hk0 p q]; rfl
  rw [hop]
  by_cases h7 : k = 7
  · rw [if_pos h7, if_pos h7]
    subst h7
    have hsumr : ∑ r : Fin 16,
          (step1 7 (xblk V c ⟨n, hn⟩) (wblk V c ⟨n, hn⟩) (ablk V c ⟨n, hn⟩) (bblk V c ⟨n, hn⟩) prev).2 (ix2 p r)
            * bblk V c ⟨n, hn⟩ (ix2 q r)
        = ∑ r : Fin 16, Cert.Spec.acc (fA V c (rowAt i p) r) 8 le_rfl * barr V c (ix2 (colAt j q) r) :=
      Finset.sum_congr rfl fun r _ => by
        rw [hS p r, bblk_at V c n hn i j 7 hk hnk q r]
    rw [hsumr]
    rfl
  · rw [if_neg h7, if_neg h7]

/-- After the body at the point that is step `k` of tile `(i, j)`: the scratch holds, at `(p, r)`, the adapter's first
    contraction for that row accumulated over `k + 1` column blocks; the output block holds, at `(p, q)`, the main
    contraction likewise, and after step 7 the layer's value at that row and channel. -/
theorem outsAt1_inv (c : Dev nD) : ∀ (n : ℕ) (hn : n < cfg1.N) (i : Fin 8) (j : Fin 2) (k : ℕ) (hk : k < 8),
    n = (i.val * 2 + j.val) * 8 + k →
    (∀ (p : Fin 1024) (r : Fin 16),
      (outsAt1 V c n hn).2 (ix2 p r) = Cert.Spec.acc (fA V c (rowAt i p) r) (k + 1) hk)
    ∧ ∀ (p : Fin 1024) (q : Fin 2048),
      (outsAt1 V c n hn).1 (ix2 p q)
        = if k = 7 then Cert.Spec.Y2blk (xarr V c) (warr V c) (aarr V c) (barr V c) (ix2 (rowAt i p) (colAt j q))
          else Cert.Spec.acc (fW V c (rowAt i p) (colAt j q)) (k + 1) hk
  | 0, hn, i, j, k, hk, hnk => by
    have hk0 : k = 0 := by omega
    subst hk0
    rw [outsAt1_zero V c hn]
    exact step_inv V c 0 hn i j 0 hk hnk _ (fun h => absurd rfl h) (fun h => absurd rfl h)
  | n + 1, hn, i, j, k, hk, hnk => by
    rw [outsAt1_succ V c n hn]
    have hk' : (n + 1) % 8 = k := by omega
    rw [hk']
    refine step_inv V c (n + 1) hn i j k hk hnk _ (fun hk0 p r => ?_) (fun hk0 p q => ?_)
    · obtain ⟨k', rfl⟩ : ∃ k', k = k' + 1 := ⟨k - 1, by omega⟩
      exact (outsAt1_inv c n (Nat.lt_of_succ_lt hn) i j k' (by omega) (by omega)).1 p r
    · obtain ⟨k', rfl⟩ : ∃ k', k = k' + 1 := ⟨k - 1, by omega⟩
      have h := (outsAt1_inv c n (Nat.lt_of_succ_lt hn) i j k' (by omega) (by omega)).2 p q
      rw [if_neg (by omega)] at h
      exact h

/-! ## From the blocks to the array -/

/-- What a flushing point writes back is its block of the layer's value. -/
theorem flushed1_eq (c : Dev nD) (t : Fin cfg1.N) (hf : (cfg1.win 4).flush t = true) :
    (dat1 V c).flushed 4 t = ((cfg1.win 4).blk t).view.read (Elt Ideal)
      (Cert.Spec.Y2blk (xarr V c) (warr V c) (aarr V c) (barr V c)) := by
  have hN : cfg1.N = 128 := N_1
  have h7 : t.val % 8 = 7 := (flush1_4 t).mp hf
  have ht : t.val < 128 := hN ▸ t.isLt
  obtain ⟨-, -, -, -, -, -, -, -, e0, e1⟩ := blockIdx1 t
  show (cfg1.win 4).cut (grid1.coords t) ((dat1 V c).after 4 t) = _
  rw [after1_4]
  funext y
  obtain ⟨p, q, rfl⟩ : ∃ (p : Fin 1024) (q : Fin 2048), y = ix2 p q := ⟨y 0, y 1, eq_ix2 y⟩
  rw [View.read_apply]
  show (outsAt1 V c t.val t.isLt).1 (ix2 p q) = _
  rw [(outsAt1_inv V c t.val t.isLt ⟨t.val / 16, by omega⟩ ⟨t.val / 8 % 2, by omega⟩ 7 (by decide)
    (by show t.val = (t.val / 16 * 2 + t.val / 8 % 2) * 8 + 7; omega)).2 p q, if_pos rfl]
  congr 1
  funext a
  apply Fin.ext
  match a with
  | ⟨0, _⟩ => show 1024 * (t.val / 16) + p.val = win1_4.index t (0 : Fin 2) * 1024 + 1 * p.val; rw [e0]; omega
  | ⟨1, _⟩ => show 2048 * (t.val / 8 % 2) + q.val = win1_4.index t (1 : Fin 2) * 2048 + 1 * q.val; rw [e1]; omega

/-- Every entry `(r, o)` of the output array lies in the block written back after the last step of tile
    `(r / 1024, o / 2048)`. -/
theorem cover1 (i : S8192x4096.Idx) :
    ∃ t : Fin cfg1.N, (cfg1.win 4).flush t = true ∧ i ∈ ((cfg1.win 4).blk t).view.set := by
  have hN : cfg1.N = 128 := N_1
  have h0 : (i 0).val < 8192 := (i 0).isLt
  have h1 : (i 1).val < 4096 := (i 1).isLt
  obtain ⟨t, ht⟩ : ∃ t : Fin cfg1.N, t.val = ((i 0).val / 1024 * 2 + (i 1).val / 2048) * 8 + 7 :=
    ⟨⟨((i 0).val / 1024 * 2 + (i 1).val / 2048) * 8 + 7, by rw [hN]; omega⟩, rfl⟩
  obtain ⟨-, -, -, -, -, -, -, -, e0, e1⟩ := blockIdx1 t
  refine ⟨t, (flush1_4 t).mpr (by omega), ?_⟩
  show i ∈ ((View.whole main_v12).slice (win1_4.rect t)).set
  rw [View.set_slice_whole, Rect.mem_set_unit]
  intro a
  match a with
  | ⟨0, _⟩ =>
    show win1_4.index t (0 : Fin 2) * 1024 ≤ (i 0).val ∧ (i 0).val < win1_4.index t (0 : Fin 2) * 1024 + 1024
    rw [e0]; omega
  | ⟨1, _⟩ =>
    show win1_4.index t (1 : Fin 2) * 2048 ≤ (i 1).val ∧ (i 1).val < win1_4.index t (1 : Fin 2) * 2048 + 2048
    rw [e1]; omega

end AtIdeal

end Value1

/-- The output array after the region is the layer's value, in the blockwise arrangement, of the four arrays the region reads:
    every flushing point writes its block of that one function, and the blocks written cover the array. -/
theorem arr1_eq (V : (c : Dev nD) → (b : Ref sig .tc) → Buf (Elt Ideal) ((c : Thread nD τ).loc b)) (c : Dev nD) :
    ((dat1 (F := Ideal) V c).arrAt 4 cfg1.N : S8192x4096.Idx → EReal)
      = Cert.Spec.Y2blk (V c main_v11) (V c main_v10) (V c main_arg3) (V c main_arg4) :=
  (dat1 V c).arrAt_eq_of_cover 4
    (Cert.Spec.Y2blk (Value1.xarr V c) (Value1.warr V c) (Value1.aarr V c) (Value1.barr V c))
    (fun t hf => Value1.flushed1_eq V c t hf) Value1.cover1

end Cert.KernelIdeal.Hand

end
-- ==== Proof.KI.HostVals.lean ====
/-
  What the host-side stretches of the program compute, read at an index.

  Before the dequantization the program builds two constant arrays. The first is the table of the sixteen levels, a
  literal list laid out as one row of sixteen. The second is the selector matrix, 64 rows by 4096 columns: row numbers
  0..63 laid down the columns, column numbers 0..4095 floor-divided by 64 and laid across the rows, the two compared for
  equality and the one-bit answer converted to a float. Floor division is spelt out as the truncated quotient, less one
  where dividend and divisor differ in sign and the remainder is not zero; for a dividend in 0..4095 and the divisor 64
  the correction never applies (the signs differ only at 0, whose remainder is 0), and the truncated quotient of two
  non-negative words is the quotient of their values. So the entry at (g, i) is 1 when g = i / 64 and 0 otherwise.

  Around the matrix product stand two reshapes: the batch of 4 x 2048 rows flattened to 8192 rows beforehand, and the
  8192 result rows cut back into 4 x 2048 afterwards. Both keep row-major order, so row r of the flat array is batch
  r / 2048 at position r mod 2048, and batch b at position t is row 2048 b + t.

  No host stretch writes an argument array.
-/
import proofs.«407792_j46918222742185_2_alg».proof.Proof.Gen.KernelIdeal.Regions
import proofs.«407792_j46918222742185_2_alg».proof.Proof.Spec
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.StableHlo.Predicate

namespace HostVals

/-! ## Words: a small non-negative word divided by 64 -/

/-- The sign of a 32-bit word as an integer: -1, 0 or 1. -/
def sgn32 (w : BitVec 32) : BitVec 32 := if w = 0 then 0 else if w.msb then -1 else 1

theorem toNat_ofNat_lt (n : ℕ) (hn : n < 4096) : (BitVec.ofNat 32 n).toNat = n := by
  rw [BitVec.toNat_ofNat]; exact Nat.mod_eq_of_lt (by omega)

/-- Signed division of a small non-negative word by 64 meets no corner and is the quotient of the values. -/
theorem divsi_64 (n : ℕ) (hn : n < 4096) : IntOp.divsi .host (BitVec.ofNat 32 n) 64#32 = BitVec.ofNat 32 (n / 64) := by
  have hcorner : ¬ IntOp.SDivCorner (BitVec.ofNat 32 n) 64#32 := by
    intro hc; rcases hc with hc | ⟨_, hc⟩ <;> exact absurd hc (by decide)
  have hm : (BitVec.ofNat 32 n).msb = false := BitVec.msb_eq_false_iff_two_mul_lt.mpr (by rw [toNat_ofNat_lt n hn]; omega)
  apply BitVec.eq_of_toNat_eq
  simp only [IntOp.divsi, if_neg hcorner, BitVec.sdiv_eq, hm, show (64#32 : BitVec 32).msb = false from by decide, BitVec.udiv_eq,
    BitVec.toNat_udiv, BitVec.toNat_ofNat, Nat.reducePow, Nat.reduceMod]
  omega

/-- The floor-division correction never fires for a small non-negative dividend and the divisor 64: the signs differ
    only at zero, where the remainder vanishes. -/
theorem fdiv_cond_64 (n : ℕ) (hn : n < 4096) :
    IntOp.andi (IntOp.cmpi .ne (sgn32 (BitVec.ofNat 32 n)) (sgn32 64#32))
      (IntOp.cmpi .ne (IntOp.remsi .host (BitVec.ofNat 32 n) 64#32) 0#32) = 0#1 := by
  rcases Nat.eq_zero_or_pos n with rfl | hpos
  · decide
  · have hne : BitVec.ofNat 32 n ≠ 0 := by
      intro h; have := congrArg BitVec.toNat h; rw [toNat_ofNat_lt n hn] at this; simp at this; omega
    have hm : (BitVec.ofNat 32 n).msb = false := BitVec.msb_eq_false_iff_two_mul_lt.mpr (by rw [toNat_ofNat_lt n hn]; omega)
    have h1 : sgn32 (BitVec.ofNat 32 n) = 1 := by simp only [sgn32, if_neg hne, hm]; rfl
    have h2 : sgn32 64#32 = 1 := by decide
    rw [h1, h2]
    have h3 : IntOp.cmpi .ne (1 : BitVec 32) 1 = 0#1 := by decide
    rw [h3]
    simp only [IntOp.andi, BitVec.zero_and]

/-! ## The host stretches' results as terms over the valuation they start from -/

/-- Floor division of a row of 4096 words by a scalar word, as the outlined function computes it: the truncated quotient,
    less one where dividend and divisor differ in sign and the remainder is not zero. -/
def fdiv (x : IVec S1x4096 32) (d : IVec S_ 32) : IVec S1x4096 32 :=
  select (andi (cmpi .ne (signi x) (broadcastInDim S1x4096 ![] bcast_S_S1x4096 (signi d)))
      (cmpi .ne (Host.remsi x (broadcastInDim S1x4096 ![] bcast_S_S1x4096 d)) (broadcastInDim S1x4096 ![] bcast_S_S1x4096 (constantI S_ 32 0#32))))
    (subi (Host.divsi x (broadcastInDim S1x4096 ![] bcast_S_S1x4096 d)) (broadcastInDim S1x4096 ![] bcast_S_S1x4096 (constantI S_ 32 1#32)))
    (Host.divsi x (broadcastInDim S1x4096 ![] bcast_S_S1x4096 d))

variable (W : Valuation τ sig (Elt Ideal))

theorem v0_term : (StableHlo.after hostOps0 W (Proc.devRef .tc main_v0) : S1x16.Idx → EReal)
    = shapeCast S1x16 (fun i : S16.Idx => (FloatOps.ofBits .f32 (lit0 (S16.rowMajor i)) : Ideal .f32)) shapeCasts_S16_S1x16 := by
  dsimp only [Gen.hostOps0]; after_results; rfl

theorem v2_term : (StableHlo.after hostOps0 W (Proc.devRef .tc main_v2) : S64x1.Idx → BitVec 32)
    = broadcastInDim S64x1 ![0] bcast_S64_S64x1_0 (iotaInDim S64 32 0) := by
  dsimp only [Gen.hostOps0]; after_results

theorem v4_term : (StableHlo.after hostOps0 W (Proc.devRef .tc main_v4) : S1x4096.Idx → BitVec 32)
    = broadcastInDim S1x4096 ![1] bcast_S4096_S1x4096_1 (iotaInDim S4096 32 0) := by
  dsimp only [Gen.hostOps0]; after_results

theorem c_term : (StableHlo.after hostOps0 W (Proc.devRef .tc main_c) : S_.Idx → BitVec 32) = constantI S_ 32 64#32 := by
  dsimp only [Gen.hostOps0]; after_results

theorem v5_term : (StableHlo.after hostOps0_1 W (Proc.devRef .tc main_v5) : S1x4096.Idx → BitVec 32)
    = fdiv (W (Proc.devRef .tc main_v4)) (W (Proc.devRef .tc main_c)) := by
  dsimp only [Gen.hostOps0_1]; after_results; rfl

theorem v9_term : (StableHlo.after hostOps0_2 W (Proc.devRef .tc main_v9) : S64x4096.Idx → EReal)
    = uitofp (F := Ideal) .f32 (cmpi .eq (broadcastInDim S64x4096 ![0, 1] bcast_S64x1_S64x4096_0_1 (W (Proc.devRef .tc main_v2)))
        (broadcastInDim S64x4096 ![0, 1] bcast_S1x4096_S64x4096_0_1 (W (Proc.devRef .tc main_v5)))) := by
  dsimp only [Gen.hostOps0_2]; after_results

/-! ## The terms read at an index -/

theorem cmpi_eq_ofNat (a b : ℕ) (ha : a < 4096) (hb : b < 4096) :
    IntOp.cmpi .eq (BitVec.ofNat 32 a) (BitVec.ofNat 32 b) = if a = b then 1#1 else 0#1 := by
  show BitVec.ofBool (BitVec.ofNat 32 a == BitVec.ofNat 32 b) = _
  by_cases h : a = b
  · subst h; rw [if_pos rfl, beq_self_eq_true]; rfl
  · have hne : BitVec.ofNat 32 a ≠ BitVec.ofNat 32 b := fun e => h (by
      have := congrArg BitVec.toNat e; rwa [toNat_ofNat_lt a ha, toNat_ofNat_lt b hb] at this)
    rw [if_neg h, beq_eq_false_iff_ne.mpr hne]; rfl

/-- The floor-divided row at column q, when the dividend row holds q there and the divisor is 64: q / 64. -/
theorem fdiv_at (x : IVec S1x4096 32) (q : Fin 4096) (hx : x (i1q q) = BitVec.ofNat 32 q.val) :
    fdiv x (constantI S_ 32 64#32) (i1q q) = BitVec.ofNat 32 (q.val / 64) := by
  have e : fdiv x (constantI S_ 32 64#32) (i1q q) =
      Scalar.select (IntOp.andi (IntOp.cmpi .ne (sgn32 (x (i1q q))) (sgn32 64#32)) (IntOp.cmpi .ne (IntOp.remsi .host (x (i1q q)) 64#32) 0#32))
        (IntOp.subi (IntOp.divsi .host (x (i1q q)) 64#32) 1#32) (IntOp.divsi .host (x (i1q q)) 64#32) := rfl
  rw [e, hx, fdiv_cond_64 _ q.isLt, divsi_64 _ q.isLt]
  show (if (0#1 : BitVec 1) = 1 then _ else _) = _
  rw [if_neg (by decide)]

/-- Rows holding their own number against columns holding their group's number, compared and converted: the selector. -/
theorem onehot_of (a : IVec S64x1 32) (b : IVec S1x4096 32) (ha : ∀ p : Fin 64, a (ixP p) = BitVec.ofNat 32 p.val)
    (hb : ∀ q : Fin 4096, b (i1q q) = BitVec.ofNat 32 (q.val / 64)) :
    uitofp (F := Ideal) .f32 (cmpi .eq (broadcastInDim S64x4096 ![0, 1] bcast_S64x1_S64x4096_0_1 a)
        (broadcastInDim S64x4096 ![0, 1] bcast_S1x4096_S64x4096_0_1 b)) = Cert.Spec.onehot := by
  funext i
  obtain ⟨p, q, rfl⟩ : ∃ (p : Fin 64) (q : Fin 4096), i = ij p q := ⟨i 0, i 1, (ij_eta i).symm⟩
  show (((IntOp.cmpi .eq (broadcastInDim S64x4096 ![0, 1] bcast_S64x1_S64x4096_0_1 a (ij p q))
      (broadcastInDim S64x4096 ![0, 1] bcast_S1x4096_S64x4096_0_1 b (ij p q))).toNat : ℝ) : EReal)
    = if p.val = q.val / 64 then 1 else 0
  rw [bcast_of_col, bcast_of_row, ha, hb, cmpi_eq_ofNat _ _ (by have := p.isLt; omega) (by have := q.isLt; omega)]
  by_cases h : p.val = q.val / 64
  · rw [if_pos h, if_pos h]; simp
  · rw [if_neg h, if_neg h]; simp

/-! ## The table of levels -/

theorem lit0_eq (k : Fin 16) : lit0 k = Cert.Spec.nf4 k := by fin_cases k <;> rfl

/-- The literal table reshaped to one row reads, at column k, the k-th level. -/
theorem v0_at (k : Fin 16) :
    (StableHlo.after hostOps0 W (Proc.devRef .tc main_v0) : S1x16.Idx → EReal) (ValueIdx.ix2 (n0 := 1) (n1 := 16) 0 k) = Cert.Spec.level k := by
  rw [v0_term]
  refine (shapeCast_apply _ shapeCasts_S16_S1x16 (ValueIdx.ix2 (n0 := 1) (n1 := 16) 0 k) (ValueIdx.ix1 k) ?_).trans ?_
  · rw [Shape.rowMajor_val_one, Shape.rowMajor_val_two]; show k.val = 0 * 16 + k.val; omega
  · have hk : S16.rowMajor (ValueIdx.ix1 k) = k := Fin.ext (by rw [Shape.rowMajor_val_one])
    show Ideal.ofBits .f32 (lit0 (S16.rowMajor (ValueIdx.ix1 k))) = Ideal.ofBits .f32 (Cert.Spec.nf4 k)
    rw [hk, lit0_eq]

end HostVals

open HostVals

variable (W : Valuation τ sig (Elt Ideal))

/-! ## The two reshapes around the matrix product -/

/-- The batch reshaped to rows: row r holds batch r / 2048, position r mod 2048. -/
theorem v11_eq : (StableHlo.after hostOps1 W (Proc.devRef .tc main_v11) : S8192x4096.Idx → EReal)
    = Cert.Spec.flat (W (Proc.devRef .tc main_arg0)) := by
  have e : (StableHlo.after hostOps1 W (Proc.devRef .tc main_v11) : S8192x4096.Idx → EReal)
      = shapeCast S8192x4096 (W (Proc.devRef .tc main_arg0) : S4x2048x4096.Idx → EReal) shapeCasts_S4x2048x4096_S8192x4096 := by
    dsimp only [Gen.hostOps1]; after_results; rfl
  rw [e]
  funext j
  have hk : (S4x2048x4096.rowMajor (ValueIdx.ix3 (n0 := 4) (n1 := 2048) (n2 := 4096)
      ⟨(j 0).val / 2048, by have := ValueIdx.idx2_lt0 j; omega⟩ ⟨(j 0).val % 2048, Nat.mod_lt _ (by decide)⟩ (j 1))).val
      = (S8192x4096.rowMajor j).val := by
    rw [Shape.rowMajor_val_three, Shape.rowMajor_val_two]
    show ((j 0).val / 2048 * 2048 + (j 0).val % 2048) * 4096 + (j 1).val = (j 0).val * 4096 + (j 1).val
    have := Nat.div_add_mod (j 0).val 2048
    omega
  exact shapeCast_apply (s := S4x2048x4096) (t := S8192x4096) _ _ j _ hk

/-- The rows reshaped back to the batch: batch b, position t is row 2048 b + t. -/
theorem v13_at (i : S4x2048x4096.Idx) :
    (StableHlo.after hostOps2 W (Proc.devRef .tc main_v13) : S4x2048x4096.Idx → EReal) i
      = (W (Proc.devRef .tc main_v12) : S8192x4096.Idx → EReal) (ValueIdx.ix2 (n0 := 8192) (n1 := 4096) (Cert.Spec.row (i 0) (i 1)) (i 2)) := by
  have e : (StableHlo.after hostOps2 W (Proc.devRef .tc main_v13) : S4x2048x4096.Idx → EReal)
      = shapeCast S4x2048x4096 (W (Proc.devRef .tc main_v12) : S8192x4096.Idx → EReal) shapeCasts_S8192x4096_S4x2048x4096 := by
    dsimp only [Gen.hostOps2]; after_results; rfl
  rw [e]
  have hk : (S8192x4096.rowMajor (ValueIdx.ix2 (n0 := 8192) (n1 := 4096) (Cert.Spec.row (i 0) (i 1)) (i 2))).val
      = (S4x2048x4096.rowMajor i).val := by
    rw [Shape.rowMajor_val_three, Shape.rowMajor_val_two]
    show (2048 * (i 0).val + (i 1).val) * 4096 + (i 2).val = ((i 0).val * 2048 + (i 1).val) * 4096 + (i 2).val
    omega
  exact shapeCast_apply (s := S8192x4096) (t := S4x2048x4096) _ _ i _ hk

/-! ## At the valuations the regions are entered with -/

variable (m : (ℓ : Loc nD τ sig) → Buf (Elt Ideal) ℓ) (c : Dev nD)

/-- The selector array the dequantization reads is the one-hot matrix of column groups. -/
theorem v9_eq : (Gen.V3 m c (Proc.devRef .tc main_v9) : S64x4096.Idx → EReal) = Cert.Spec.onehot := by
  refine (v9_term (Gen.V2 m c)).trans (onehot_of _ _ (fun p => ?_) (fun q => ?_))
  · rw [Gen.V2_of m c main_v2 (by decide)]
    show (StableHlo.after hostOps0 (Gen.V0 m c) (Proc.devRef .tc main_v2) : S64x1.Idx → BitVec 32) (ixP p) = _
    rw [v2_term]
    exact (bcast_col1 _ _ p).trans (iota_apply p)
  · show (StableHlo.after hostOps0_1 (Gen.V1 m c) (Proc.devRef .tc main_v5) : S1x4096.Idx → BitVec 32) (i1q q) = _
    rw [v5_term (Gen.V1 m c), show (Gen.V1 m c (Proc.devRef .tc main_c) : S_.Idx → BitVec 32) = constantI S_ 32 64#32 from c_term (Gen.V0 m c)]
    refine fdiv_at _ q ?_
    show (StableHlo.after hostOps0 (Gen.V0 m c) (Proc.devRef .tc main_v4) : S1x4096.Idx → BitVec 32) (i1q q) = _
    rw [v4_term]
    exact (bcast_row1 _ _ q).trans (iota_apply q)

/-- The table of levels the dequantization reads. -/
theorem v0_eq (k : Fin 16) :
    (Gen.V3 m c (Proc.devRef .tc main_v0) : S1x16.Idx → EReal) (ValueIdx.ix2 (n0 := 1) (n1 := 16) 0 k) = Cert.Spec.level k := by
  rw [(Gen.V3_of m c main_v0 (by decide)).trans (Gen.V2_of m c main_v0 (by decide))]
  exact v0_at (Gen.V0 m c) k

/-- No host stretch before the dequantization writes an argument. -/
theorem V3_arg1 : Gen.V3 m c (Proc.devRef .tc main_arg1) = m ((c : Thread nD τ).loc main_arg1) :=
  (Gen.V3_of m c main_arg1 (by decide)).trans <| (Gen.V2_of m c main_arg1 (by decide)).trans <| (Gen.V1_of m c main_arg1 (by decide)).trans rfl
theorem V3_arg2 : Gen.V3 m c (Proc.devRef .tc main_arg2) = m ((c : Thread nD τ).loc main_arg2) :=
  (Gen.V3_of m c main_arg2 (by decide)).trans <| (Gen.V2_of m c main_arg2 (by decide)).trans <| (Gen.V1_of m c main_arg2 (by decide)).trans rfl

end Cert.KernelIdeal.Hand

end
-- ==== Proof.KI.KValue.lean ====
/-
  The idealized kernel program's result as one function of its inputs.

  Followed back from the last boundary: the result is the matrix-product region's output array read through the final
  reshape; that array is the layer on the flattened batch, in the blockwise arrangement, of the arrays the region was
  entered with; of those, the input rows are the batch flattened by the reshape before the region, the weight is the
  dequantization region's output array, and the adapter's factors are the arguments untouched; the dequantized weight is
  the tree-and-selector arrangement over the level row and the selector the host stretches computed, which are the sixteen
  levels and the zero-one group selector, of the codes and scales untouched. The two arrangements are the plain formulas
  (the specification's closing theorems), and the layer on the flattened batch read back at batch and position is the
  claimed result.
-/
import proofs.«407792_j46918222742185_2_alg».proof.Proof.KI.Frame
import proofs.«407792_j46918222742185_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

theorem result_eq (c : Dev nD)
    (h0 : ∀ (V : (c : Dev nD) → (b : Ref sig .tc) → Buf (Elt Ideal) ((c : Thread nD τ).loc b)) (c : Dev nD),
      ((dat0 (F := Ideal) V c).arrAt 4 cfg0.N : S4096x4096.Idx → EReal)
        = Cert.Spec.Wk (fun k : Fin 16 => V c main_v0 (ix2 (n0 := 1) (n1 := 16) 0 k)) (V c main_v9) (V c main_arg1) (V c main_arg2))
    (h1 : ∀ (V : (c : Dev nD) → (b : Ref sig .tc) → Buf (Elt Ideal) ((c : Thread nD τ).loc b)) (c : Dev nD),
      ((dat1 (F := Ideal) V c).arrAt 4 cfg1.N : S8192x4096.Idx → EReal)
        = Cert.Spec.Y2blk (V c main_v11) (V c main_v10) (V c main_arg3) (V c main_arg4))
    (hv9 : (W3 m c (Proc.devRef .tc main_v9) : S64x4096.Idx → EReal) = Cert.Spec.onehot)
    (hv0 : ∀ k : Fin 16, (W3 m c (Proc.devRef .tc main_v0) : S1x16.Idx → EReal) (ix2 (n0 := 1) (n1 := 16) 0 k) = Cert.Spec.level k)
    (hflat : ∀ W : Valuation τ sig (Elt Ideal),
      (StableHlo.after hostOps1 W (Proc.devRef .tc main_v11) : S8192x4096.Idx → EReal) = Cert.Spec.flat (W (Proc.devRef .tc main_arg0)))
    (hback : ∀ (W : Valuation τ sig (Elt Ideal)) (i : S4x2048x4096.Idx),
      (StableHlo.after hostOps2 W (Proc.devRef .tc main_v13) : S4x2048x4096.Idx → EReal) i
        = W (Proc.devRef .tc main_v12) (ix2 (n0 := 8192) (n1 := 4096) (Cert.Spec.row (i 0) (i 1)) (i 2))) :
    (W7 m c (Proc.devRef .tc main_v13) : S4x2048x4096.Idx → EReal)
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) := by
  -- the arrays the second region is entered with
  have e11 : (V5 m c main_v11 : S8192x4096.Idx → EReal) = Cert.Spec.flat (m ((c : Thread nD τ).loc main_arg0)) := by
    rw [show (V5 m c main_v11 : S8192x4096.Idx → EReal) = StableHlo.after hostOps1 (W4 m c) (Proc.devRef .tc main_v11) from rfl, hflat]
    exact congrArg Cert.Spec.flat ((W4_of_ne m c main_arg0 (by decide)).trans (W3_launch m c main_arg0 (by decide) (by decide) (by decide)))
  have e3 : V5 m c main_arg3 = m ((c : Thread nD τ).loc main_arg3) :=
    (W5_of m c main_arg3 (by decide)).trans ((W4_of_ne m c main_arg3 (by decide)).trans (W3_launch m c main_arg3 (by decide) (by decide) (by decide)))
  have e4 : V5 m c main_arg4 = m ((c : Thread nD τ).loc main_arg4) :=
    (W5_of m c main_arg4 (by decide)).trans ((W4_of_ne m c main_arg4 (by decide)).trans (W3_launch m c main_arg4 (by decide) (by decide) (by decide)))
  have eq1 : V3 m c main_arg1 = m ((c : Thread nD τ).loc main_arg1) := W3_launch m c main_arg1 (by decide) (by decide) (by decide)
  have eq2 : V3 m c main_arg2 = m ((c : Thread nD τ).loc main_arg2) := W3_launch m c main_arg2 (by decide) (by decide) (by decide)
  have e10 : (V5 m c main_v10 : S4096x4096.Idx → EReal)
      = Cert.Spec.Wd (m ((c : Thread nD τ).loc main_arg1)) (m ((c : Thread nD τ).loc main_arg2)) := by
    have a : (V5 m c main_v10 : S4096x4096.Idx → EReal) = (dat0 (F := Ideal) (V3 m) c).arrAt 4 cfg0.N :=
      (W5_of m c main_v10 (by decide)).trans (W4_arr m c 4)
    have hv9' : (V3 m c main_v9 : S64x4096.Idx → EReal) = Cert.Spec.onehot := hv9
    rw [a, h0 (V3 m) c, eq1, eq2, hv9', show (fun k : Fin 16 => V3 m c main_v0 (ix2 (n0 := 1) (n1 := 16) 0 k)) = Cert.Spec.level from funext hv0]
    exact Cert.Spec.Wk_eq_Wd _ _
  funext i
  rw [show (W7 m c (Proc.devRef .tc main_v13) : S4x2048x4096.Idx → EReal) = StableHlo.after hostOps2 (W6 m c) (Proc.devRef .tc main_v13) from rfl, hback]
  rw [show (W6 m c (Proc.devRef .tc main_v12) : S8192x4096.Idx → EReal) = (dat1 (F := Ideal) (V5 m) c).arrAt 4 cfg1.N from W6_arr m c 4,
    h1 (V5 m) c, e11, e10, e3, e4, Cert.Spec.Y2blk_eq_Y2]
  exact Cert.Spec.Y2_flat _ _ _ _ _ i

end Cert.KernelIdeal.Hand

end
-- ==== Proof.RefRun.lean ====
import proofs.«407792_j46918222742185_2_alg».proof.Proof.Gen.ReferenceIdeal
import Idealize.ShloMosaic.Lib.StableHlo.Run

/-!
  The reference program read as a straight line of host operations, and what its run leaves in memory.

  The program is twenty-two tensor operations and a return. Listed in order they are one straight line, so every
  weakly fair execution terminates and leaves each buffer at the fold of the operations' results over the launch
  contents. The result buffer then holds one composed function of the five argument arrays, named res here:

      codes    q' = if q < 0 then q + 16 else q
      levels   L  = table[q']                                   (a gather from the sixteen-entry table)
      weight   W  = reshape (reshape L to [4096, 64, 64] * scales broadcast along the last axis) to [4096, 4096]
      result      = x · Wᵀ  +  2 * ((x · Aᵀ) · Bᵀ)

  and the five arguments are left as they were.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 22 operations, in order. -/
abbrev ops : List (HloOp τ sig (Elt F)) :=
  [ nullary main_cst (fun i => FloatOps.ofBits .f32 (lit0 (S16.rowMajor i))),
    nullary main_c (constantI S_ 32 0#32),
    unary main_c main_v0 (broadcastInDim S4096x4096 ![] bcast_S_S4096x4096 : (⟨S_, .i32⟩ : BufTy).Contents (Elt F) → (⟨S4096x4096, .i32⟩ : BufTy).Contents (Elt F)),
    binary main_arg1 main_v0 main_v1 (cmpi .slt : (⟨S4096x4096, .i32⟩ : BufTy).Contents (Elt F) → (⟨S4096x4096, .i32⟩ : BufTy).Contents (Elt F) → (⟨S4096x4096, .i1⟩ : BufTy).Contents (Elt F)),
    nullary main_c_0 (constantI S_ 32 16#32),
    unary main_c_0 main_v2 (broadcastInDim S4096x4096 ![] bcast_S_S4096x4096 : (⟨S_, .i32⟩ : BufTy).Contents (Elt F) → (⟨S4096x4096, .i32⟩ : BufTy).Contents (Elt F)),
    binary main_arg1 main_v2 main_v3 (addi : (⟨S4096x4096, .i32⟩ : BufTy).Contents (Elt F) → (⟨S4096x4096, .i32⟩ : BufTy).Contents (Elt F) → (⟨S4096x4096, .i32⟩ : BufTy).Contents (Elt F)),
    ternary main_v1 main_v3 main_arg1 main_v4 (select : (⟨S4096x4096, .i1⟩ : BufTy).Contents (Elt F) → (⟨S4096x4096, .i32⟩ : BufTy).Contents (Elt F) → (⟨S4096x4096, .i32⟩ : BufTy).Contents (Elt F) → (⟨S4096x4096, .i32⟩ : BufTy).Contents (Elt F)),
    unary main_v4 main_v5 (broadcastInDim S4096x4096x1 ![0, 1] bcast_S4096x4096_S4096x4096x1_0_1 : (⟨S4096x4096, .i32⟩ : BufTy).Contents (Elt F) → (⟨S4096x4096x1, .i32⟩ : BufTy).Contents (Elt F)),
    binary main_cst main_v5 main_v6 ((fun x i => Host.gather gather_S16_S4096x4096x1_S4096x4096_n_0_n_n_0_2_1 x i) : (⟨S16, .f32⟩ : BufTy).Contents (Elt F) → (⟨S4096x4096x1, .i32⟩ : BufTy).Contents (Elt F) → (⟨S4096x4096, .f32⟩ : BufTy).Contents (Elt F)),
    reshape main_v6 main_v7 rfl shapeCasts_S4096x4096_S4096x64x64,
    unary main_arg2 main_v8 (broadcastInDim S4096x64x1 ![0, 1] bcast_S4096x64_S4096x64x1_0_1 : (⟨S4096x64, .f32⟩ : BufTy).Contents (Elt F) → (⟨S4096x64x1, .f32⟩ : BufTy).Contents (Elt F)),
    unary main_v8 main_v9 (broadcastInDim S4096x64x64 ![0, 1, 2] bcast_S4096x64x1_S4096x64x64_0_1_2 : (⟨S4096x64x1, .f32⟩ : BufTy).Contents (Elt F) → (⟨S4096x64x64, .f32⟩ : BufTy).Contents (Elt F)),
    binary main_v7 main_v9 main_v10 (mulf : (⟨S4096x64x64, .f32⟩ : BufTy).Contents (Elt F) → (⟨S4096x64x64, .f32⟩ : BufTy).Contents (Elt F) → (⟨S4096x64x64, .f32⟩ : BufTy).Contents (Elt F)),
    reshape main_v10 main_v11 rfl shapeCasts_S4096x64x64_S4096x4096,
    binary main_arg0 main_v11 main_v12 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    binary main_arg0 main_arg3 main_v13 ((fun l r => Host.dotGeneral dot_S4x2048x4096_S16x4096_S4x2048x16_2_1_01_0_n_n none l r) : (⟨S4x2048x4096, .f32⟩ : BufTy).Contents (Elt F) → (⟨S16x4096, .f32⟩ : BufTy).Contents (Elt F) → (⟨S4x2048x16, .f32⟩ : BufTy).Contents (Elt F)),
    binary main_v13 main_arg4 main_v14 ((fun l r => Host.dotGeneral dot_S4x2048x16_S4096x16_S4x2048x4096_2_1_01_0_n_n none l r) : (⟨S4x2048x16, .f32⟩ : BufTy).Contents (Elt F) → (⟨S4096x16, .f32⟩ : BufTy).Contents (Elt F) → (⟨S4x2048x4096, .f32⟩ : BufTy).Contents (Elt F)),
    nullary main_cst_1 (constant S_ .f32 0x40000000#32),
    unary main_cst_1 main_v15 (broadcastInDim S4x2048x4096 ![] bcast_S_S4x2048x4096 : (⟨S_, .f32⟩ : BufTy).Contents (Elt F) → (⟨S4x2048x4096, .f32⟩ : BufTy).Contents (Elt F)),
    binary main_v15 main_v14 main_v16 (mulf : (⟨S4x2048x4096, .f32⟩ : BufTy).Contents (Elt F) → (⟨S4x2048x4096, .f32⟩ : BufTy).Contents (Elt F) → (⟨S4x2048x4096, .f32⟩ : BufTy).Contents (Elt F)),
    binary main_v12 main_v16 main_v17 (addf : (⟨S4x2048x4096, .f32⟩ : BufTy).Contents (Elt F) → (⟨S4x2048x4096, .f32⟩ : BufTy).Contents (Elt F) → (⟨S4x2048x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., binary_bufs_sub .., reshape_bufs_sub .., unary_bufs_sub ..,
    unary_bufs_sub .., binary_bufs_sub .., reshape_bufs_sub .., binary_bufs_sub .., binary_bufs_sub .., binary_bufs_sub ..,
    nullary_bufs_sub .., unary_bufs_sub .., binary_bufs_sub .., binary_bufs_sub ..⟩

/-! ## The composed term, stage by stage -/

/-- The sixteen-entry table of levels, as the program's constant holds it. -/
def table : (⟨S16, .f32⟩ : BufTy).Contents (Elt F) := fun i => FloatOps.ofBits .f32 (lit0 (S16.rowMajor i))

/-- The codes with sixteen added to the negative ones. -/
def wrapped (q : (⟨S4096x4096, .i32⟩ : BufTy).Contents (Elt F)) : (⟨S4096x4096, .i32⟩ : BufTy).Contents (Elt F) :=
  select (cmpi .slt q (broadcastInDim S4096x4096 ![] bcast_S_S4096x4096 (constantI S_ 32 0#32) : (⟨S4096x4096, .i32⟩ : BufTy).Contents (Elt F)))
    (addi q (broadcastInDim S4096x4096 ![] bcast_S_S4096x4096 (constantI S_ 32 16#32) : (⟨S4096x4096, .i32⟩ : BufTy).Contents (Elt F))) q

/-- The level each code selects: the table gathered at the wrapped codes. -/
def levels (q : (⟨S4096x4096, .i32⟩ : BufTy).Contents (Elt F)) : (⟨S4096x4096, .f32⟩ : BufTy).Contents (Elt F) :=
  Host.gather gather_S16_S4096x4096x1_S4096x4096_n_0_n_n_0_2_1 (table (F := F))
    (broadcastInDim S4096x4096x1 ![0, 1] bcast_S4096x4096_S4096x4096x1_0_1 (wrapped (F := F) q) : (⟨S4096x4096x1, .i32⟩ : BufTy).Contents (Elt F))

/-- The group scales laid along a third axis of sixty-four. -/
def scales3 (s : (⟨S4096x64, .f32⟩ : BufTy).Contents (Elt F)) : (⟨S4096x64x64, .f32⟩ : BufTy).Contents (Elt F) :=
  broadcastInDim S4096x64x64 ![0, 1, 2] bcast_S4096x64x1_S4096x64x64_0_1_2
    (broadcastInDim S4096x64x1 ![0, 1] bcast_S4096x64_S4096x64x1_0_1 s : (⟨S4096x64x1, .f32⟩ : BufTy).Contents (Elt F))

/-- The dequantized weight: levels in groups of sixty-four, times the group's scale, laid flat again. -/
def weight (q : (⟨S4096x4096, .i32⟩ : BufTy).Contents (Elt F)) (s : (⟨S4096x64, .f32⟩ : BufTy).Contents (Elt F)) :
    (⟨S4096x4096, .f32⟩ : BufTy).Contents (Elt F) :=
  shapeCast S4096x4096
    (mulf (shapeCast S4096x64x64 (levels (F := F) q) shapeCasts_S4096x4096_S4096x64x64 : (⟨S4096x64x64, .f32⟩ : BufTy).Contents (Elt F)) (scales3 (F := F) s)
      : (⟨S4096x64x64, .f32⟩ : BufTy).Contents (Elt F))
    shapeCasts_S4096x64x64_S4096x4096

/-- The adapter's term before its scale: (x · Aᵀ) · Bᵀ. -/
def adapter (x : (⟨S4x2048x4096, .f32⟩ : BufTy).Contents (Elt F)) (A : (⟨S16x4096, .f32⟩ : BufTy).Contents (Elt F))
    (B : (⟨S4096x16, .f32⟩ : BufTy).Contents (Elt F)) : (⟨S4x2048x4096, .f32⟩ : BufTy).Contents (Elt F) :=
  Host.dotGeneral dot_S4x2048x16_S4096x16_S4x2048x4096_2_1_01_0_n_n none
    (Host.dotGeneral dot_S4x2048x4096_S16x4096_S4x2048x16_2_1_01_0_n_n none x A : (⟨S4x2048x16, .f32⟩ : BufTy).Contents (Elt F)) B

/-- What the result buffer holds after the run, as one function of the five arguments. -/
def res (x : (⟨S4x2048x4096, .f32⟩ : BufTy).Contents (Elt F)) (q : (⟨S4096x4096, .i32⟩ : BufTy).Contents (Elt F))
    (s : (⟨S4096x64, .f32⟩ : BufTy).Contents (Elt F)) (A : (⟨S16x4096, .f32⟩ : BufTy).Contents (Elt F))
    (B : (⟨S4096x16, .f32⟩ : BufTy).Contents (Elt F)) : (⟨S4x2048x4096, .f32⟩ : BufTy).Contents (Elt F) :=
  addf (Host.dotGeneral dot_S4x2048x4096_S4096x4096_S4x2048x4096_2_1_01_0_n_n none x (weight (F := F) q s) : (⟨S4x2048x4096, .f32⟩ : BufTy).Contents (Elt F))
    (mulf (broadcastInDim S4x2048x4096 ![] bcast_S_S4x2048x4096 (constant S_ .f32 0x40000000#32) : (⟨S4x2048x4096, .f32⟩ : BufTy).Contents (Elt F))
      (adapter (F := F) x A B) : (⟨S4x2048x4096, .f32⟩ : BufTy).Contents (Elt F))

/-- The fold of the operations' results, read at the result buffer, is the composed term of the contents the arguments
    started with. -/
theorem after_res (V : Valuation τ sig (Elt F)) :
    after ops V (Proc.devRef .tc main_v17)
      = res (F := F) (V (Proc.devRef .tc main_arg0)) (V (Proc.devRef .tc main_arg1)) (V (Proc.devRef .tc main_arg2))
          (V (Proc.devRef .tc main_arg3)) (V (Proc.devRef .tc main_arg4)) := by
  after_results_simp
  rfl

/-- On every device, for any float values, from any memory with zero counters: every weakly fair execution of @main
    terminates with the result at the composed term of the arguments and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17)
          = res (F := F) (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v17).trans (after_res _),
      (h c main_arg0).trans (by after_results),
      (h c main_arg1).trans (by after_results),
      (h c main_arg2).trans (by after_results),
      (h c main_arg3).trans (by after_results),
      (h c main_arg4).trans (by after_results)⟩)
    (run_seq scopedRefs_eq scopedSems_eq defs main (fun _ => ops) main_eq (fun _ => ops_sub) m ρ)

end Cert.ReferenceIdeal.Hand

end
-- ==== Proof.RefValue.lean ====
import proofs.«407792_j46918222742185_2_alg».proof.Proof.RefRun
import proofs.«407792_j46918222742185_2_alg».proof.Proof.Spec
import Idealize.ShloMosaic.Lib.ValueIdx
import Idealize.ShloMosaic.Lib.Pipeline.Value
import Idealize.ShloMosaic.PureOps.Ideal.Laws

/-!
  The reference program's result as one function of its inputs.

  The composed term the run leaves in the result buffer is read index by index, at the ideal values. The three
  contractions are sums over their one contracted axis; the two reshapes keep the row-major position, so column k of
  the flat weight is entry (k / 64, k % 64) of the grouped one; the broadcast scale does not depend on the position
  inside a group; and the gather reads the table at the code, which, for a code between 0 and 15, is neither moved by
  the wrap of negative codes nor by the clamp into the table. Together: the result is the layer's output
  Σ_k x[b,t,k] * (level(code) * scale)[o,k] + 2 * Σ_r (Σ_k x[b,t,k] * A[r,k]) * B[o,r].
-/

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-! ## The three contractions read at an index

Each contracts the last axis of its left operand with the last axis of its right operand and has no batch axis, so at
result index (b, t, o) and contraction position k the left operand is read at (b, t, k) and the right at (o, k). -/

theorem lhsW_0 (j : S4x2048x4096.Idx) (k : dot_S4x2048x4096_S4096x4096_S4x2048x4096_2_1_01_0_n_n.contr.Idx) :
    (dot_S4x2048x4096_S4096x4096_S4x2048x4096_2_1_01_0_n_n.lhsIdx j k 0).val = (j 0).val := by
  unfold DotDims.lhsIdx
  rw [dif_neg (show ¬(0 : Fin S4x2048x4096.rank) ∈ dot_S4x2048x4096_S4096x4096_S4x2048x4096_2_1_01_0_n_n.lhsBatch by decide),
    dif_pos (show (0 : Fin S4x2048x4096.rank) ∈ dot_S4x2048x4096_S4096x4096_S4x2048x4096_2_1_01_0_n_n.lhsNonContracting by decide)]
  rfl

theorem lhsW_1 (j : S4x2048x4096.Idx) (k : dot_S4x2048x4096_S4096x4096_S4x2048x4096_2_1_01_0_n_n.contr.Idx) :
    (dot_S4x2048x4096_S4096x4096_S4x2048x4096_2_1_01_0_n_n.lhsIdx j k 1).val = (j 1).val := by
  unfold DotDims.lhsIdx
  rw [dif_neg (show ¬(1 : Fin S4x2048x4096.rank) ∈ dot_S4x2048x4096_S4096x4096_S4x2048x4096_2_1_01_0_n_n.lhsBatch by decide),
    dif_pos (show (1 : Fin S4x2048x4096.rank) ∈ dot_S4x2048x4096_S4096x4096_S4x2048x4096_2_1_01_0_n_n.lhsNonContracting by decide)]
  rfl

theorem lhsW_2 (j : S4x2048x4096.Idx) (k : dot_S4x2048x4096_S4096x4096_S4x2048x4096_2_1_01_0_n_n.contr.Idx) :
    (dot_S4x2048x4096_S4096x4096_S4x2048x4096_2_1_01_0_n_n.lhsIdx j k 2).val = (k ⟨0, by decide⟩).val :=
  dot_S4x2048x4096_S4096x4096_S4x2048x4096_2_1_01_0_n_n.lhsIdx_val_of_single rfl j k

theorem rhsW_0 (j : S4x2048x4096.Idx) (k : dot_S4x2048x4096_S4096x4096_S4x2048x4096_2_1_01_0_n_n.contr.Idx) :
    (dot_S4x2048x4096_S4096x4096_S4x2048x4096_2_1_01_0_n_n.rhsIdx j k 0).val = (j 2).val := by
  unfold DotDims.rhsIdx
  rw [dif_neg (show ¬(0 : Fin S4096x4096.rank) ∈ dot_S4x2048x4096_S4096x4096_S4x2048x4096_2_1_01_0_n_n.rhsBatch by decide),
    dif_pos (show (0 : Fin S4096x4096.rank) ∈ dot_S4x2048x4096_S4096x4096_S4x2048x4096_2_1_01_0_n_n.rhsNonContracting by decide)]
  rfl

theorem rhsW_1 (j : S4x2048x4096.Idx) (k : dot_S4x2048x4096_S4096x4096_S4x2048x4096_2_1_01_0_n_n.contr.Idx) :
    (dot_S4x2048x4096_S4096x4096_S4x2048x4096_2_1_01_0_n_n.rhsIdx j k 1).val = (k ⟨0, by decide⟩).val :=
  dot_S4x2048x4096_S4096x4096_S4x2048x4096_2_1_01_0_n_n.rhsIdx_val_of_single rfl j k

/-- The product with the weight at an index: the sum over the 4096 columns. -/
theorem dotW_apply (l : FVec Ideal S4x2048x4096 .f32) (r : FVec Ideal S4096x4096 .f32) (i : S4x2048x4096.Idx) :
    Host.dotGeneral dot_S4x2048x4096_S4096x4096_S4x2048x4096_2_1_01_0_n_n none l r i
      = ∑ k : Fin 4096, l (ix3 (n0 := 4) (n1 := 2048) (n2 := 4096) (i 0) (i 1) k) * r (ix2 (n0 := 4096) (n1 := 4096) (i 2) k) := by
  simp only [Host.dotGeneral]
  rw [Ideal.dotGeneral_apply,
    ← Equiv.sum_comp (contrEquiv1 dot_S4x2048x4096_S4096x4096_S4x2048x4096_2_1_01_0_n_n 4096 rfl rfl).symm]
  refine Finset.sum_congr rfl fun k _ => ?_
  have hk := contrEquiv1_symm_val dot_S4x2048x4096_S4096x4096_S4x2048x4096_2_1_01_0_n_n 4096 rfl rfl k
  congr 2
  · funext a; refine Fin.ext ?_
    match a with
    | ⟨0, _⟩ => exact lhsW_0 _ _
    | ⟨1, _⟩ => exact lhsW_1 _ _
    | ⟨2, _⟩ => exact (lhsW_2 _ _).trans hk
  · funext a; refine Fin.ext ?_
    match a with
    | ⟨0, _⟩ => exact rhsW_0 _ _
    | ⟨1, _⟩ => exact (rhsW_1 _ _).trans hk

theorem lhsA_0 (j : S4x2048x16.Idx) (k : dot_S4x2048x4096_S16x4096_S4x2048x16_2_1_01_0_n_n.contr.Idx) :
    (dot_S4x2048x4096_S16x4096_S4x2048x16_2_1_01_0_n_n.lhsIdx j k 0).val = (j 0).val := by
  unfold DotDims.lhsIdx
  rw [dif_neg (show ¬(0 : Fin S4x2048x4096.rank) ∈ dot_S4x2048x4096_S16x4096_S4x2048x16_2_1_01_0_n_n.lhsBatch by decide),
    dif_pos (show (0 : Fin S4x2048x4096.rank) ∈ dot_S4x2048x4096_S16x4096_S4x2048x16_2_1_01_0_n_n.lhsNonContracting by decide)]
  rfl

theorem lhsA_1 (j : S4x2048x16.Idx) (k : dot_S4x2048x4096_S16x4096_S4x2048x16_2_1_01_0_n_n.contr.Idx) :
    (dot_S4x2048x4096_S16x4096_S4x2048x16_2_1_01_0_n_n.lhsIdx j k 1).val = (j 1).val := by
  unfold DotDims.lhsIdx
  rw [dif_neg (show ¬(1 : Fin S4x2048x4096.rank) ∈ dot_S4x2048x4096_S16x4096_S4x2048x16_2_1_01_0_n_n.lhsBatch by decide),
    dif_pos (show (1 : Fin S4x2048x4096.rank) ∈ dot_S4x2048x4096_S16x4096_S4x2048x16_2_1_01_0_n_n.lhsNonContracting by decide)]
  rfl

theorem lhsA_2 (j : S4x2048x16.Idx) (k : dot_S4x2048x4096_S16x4096_S4x2048x16_2_1_01_0_n_n.contr.Idx) :
    (dot_S4x2048x4096_S16x4096_S4x2048x16_2_1_01_0_n_n.lhsIdx j k 2).val = (k ⟨0, by decide⟩).val :=
  dot_S4x2048x4096_S16x4096_S4x2048x16_2_1_01_0_n_n.lhsIdx_val_of_single rfl j k

theorem rhsA_0 (j : S4x2048x16.Idx) (k : dot_S4x2048x4096_S16x4096_S4x2048x16_2_1_01_0_n_n.contr.Idx) :
    (dot_S4x2048x4096_S16x4096_S4x2048x16_2_1_01_0_n_n.rhsIdx j k 0).val = (j 2).val := by
  unfold DotDims.rhsIdx
  rw [dif_neg (show ¬(0 : Fin S16x4096.rank) ∈ dot_S4x2048x4096_S16x4096_S4x2048x16_2_1_01_0_n_n.rhsBatch by decide),
    dif_pos (show (0 : Fin S16x4096.rank) ∈ dot_S4x2048x4096_S16x4096_S4x2048x16_2_1_01_0_n_n.rhsNonContracting by decide)]
  rfl

theorem rhsA_1 (j : S4x2048x16.Idx) (k : dot_S4x2048x4096_S16x4096_S4x2048x16_2_1_01_0_n_n.contr.Idx) :
    (dot_S4x2048x4096_S16x4096_S4x2048x16_2_1_01_0_n_n.rhsIdx j k 1).val = (k ⟨0, by decide⟩).val :=
  dot_S4x2048x4096_S16x4096_S4x2048x16_2_1_01_0_n_n.rhsIdx_val_of_single rfl j k

/-- The product with the adapter's first factor at an index: the sum over the 4096 columns. -/
theorem dotA_apply (l : FVec Ideal S4x2048x4096 .f32) (r : FVec Ideal S16x4096 .f32) (i : S4x2048x16.Idx) :
    Host.dotGeneral dot_S4x2048x4096_S16x4096_S4x2048x16_2_1_01_0_n_n none l r i
      = ∑ k : Fin 4096, l (ix3 (n0 := 4) (n1 := 2048) (n2 := 4096) (i 0) (i 1) k) * r (ix2 (n0 := 16) (n1 := 4096) (i 2) k) := by
  simp only [Host.dotGeneral]
  rw [Ideal.dotGeneral_apply,
    ← Equiv.sum_comp (contrEquiv1 dot_S4x2048x4096_S16x4096_S4x2048x16_2_1_01_0_n_n 4096 rfl rfl).symm]
  refine Finset.sum_congr rfl fun k _ => ?_
  have hk := contrEquiv1_symm_val dot_S4x2048x4096_S16x4096_S4x2048x16_2_1_01_0_n_n 4096 rfl rfl k
  congr 2
  · funext a; refine Fin.ext ?_
    match a with
    | ⟨0, _⟩ => exact lhsA_0 _ _
    | ⟨1, _⟩ => exact lhsA_1 _ _
    | ⟨2, _⟩ => exact (lhsA_2 _ _).trans hk
  · funext a; refine Fin.ext ?_
    match a with
    | ⟨0, _⟩ => exact rhsA_0 _ _
    | ⟨1, _⟩ => exact (rhsA_1 _ _).trans hk

theorem lhsB_0 (j : S4x2048x4096.Idx) (k : dot_S4x2048x16_S4096x16_S4x2048x4096_2_1_01_0_n_n.contr.Idx) :
    (dot_S4x2048x16_S4096x16_S4x2048x4096_2_1_01_0_n_n.lhsIdx j k 0).val = (j 0).val := by
  unfold DotDims.lhsIdx
  rw [dif_neg (show ¬(0 : Fin S4x2048x16.rank) ∈ dot_S4x2048x16_S4096x16_S4x2048x4096_2_1_01_0_n_n.lhsBatch by decide),
    dif_pos (show (0 : Fin S4x2048x16.rank) ∈ dot_S4x2048x16_S4096x16_S4x2048x4096_2_1_01_0_n_n.lhsNonContracting by decide)]
  rfl

theorem lhsB_1 (j : S4x2048x4096.Idx) (k : dot_S4x2048x16_S4096x16_S4x2048x4096_2_1_01_0_n_n.contr.Idx) :
    (dot_S4x2048x16_S4096x16_S4x2048x4096_2_1_01_0_n_n.lhsIdx j k 1).val = (j 1).val := by
  unfold DotDims.lhsIdx
  rw [dif_neg (show ¬(1 : Fin S4x2048x16.rank) ∈ dot_S4x2048x16_S4096x16_S4x2048x4096_2_1_01_0_n_n.lhsBatch by decide),
    dif_pos (show (1 : Fin S4x2048x16.rank) ∈ dot_S4x2048x16_S4096x16_S4x2048x4096_2_1_01_0_n_n.lhsNonContracting by decide)]
  rfl

theorem lhsB_2 (j : S4x2048x4096.Idx) (k : dot_S4x2048x16_S4096x16_S4x2048x4096_2_1_01_0_n_n.contr.Idx) :
    (dot_S4x2048x16_S4096x16_S4x2048x4096_2_1_01_0_n_n.lhsIdx j k 2).val = (k ⟨0, by decide⟩).val :=
  dot_S4x2048x16_S4096x16_S4x2048x4096_2_1_01_0_n_n.lhsIdx_val_of_single rfl j k

theorem rhsB_0 (j : S4x2048x4096.Idx) (k : dot_S4x2048x16_S4096x16_S4x2048x4096_2_1_01_0_n_n.contr.Idx) :
    (dot_S4x2048x16_S4096x16_S4x2048x4096_2_1_01_0_n_n.rhsIdx j k 0).val = (j 2).val := by
  unfold DotDims.rhsIdx
  rw [dif_neg (show ¬(0 : Fin S4096x16.rank) ∈ dot_S4x2048x16_S4096x16_S4x2048x4096_2_1_01_0_n_n.rhsBatch by decide),
    dif_pos (show (0 : Fin S4096x16.rank) ∈ dot_S4x2048x16_S4096x16_S4x2048x4096_2_1_01_0_n_n.rhsNonContracting by decide)]
  rfl

theorem rhsB_1 (j : S4x2048x4096.Idx) (k : dot_S4x2048x16_S4096x16_S4x2048x4096_2_1_01_0_n_n.contr.Idx) :
    (dot_S4x2048x16_S4096x16_S4x2048x4096_2_1_01_0_n_n.rhsIdx j k 1).val = (k ⟨0, by decide⟩).val :=
  dot_S4x2048x16_S4096x16_S4x2048x4096_2_1_01_0_n_n.rhsIdx_val_of_single rfl j k

/-- The product with the adapter's second factor at an index: the sum over the rank of sixteen. -/
theorem dotB_apply (l : FVec Ideal S4x2048x16 .f32) (r : FVec Ideal S4096x16 .f32) (i : S4x2048x4096.Idx) :
    Host.dotGeneral dot_S4x2048x16_S4096x16_S4x2048x4096_2_1_01_0_n_n none l r i
      = ∑ k : Fin 16, l (ix3 (n0 := 4) (n1 := 2048) (n2 := 16) (i 0) (i 1) k) * r (ix2 (n0 := 4096) (n1 := 16) (i 2) k) := by
  simp only [Host.dotGeneral]
  rw [Ideal.dotGeneral_apply,
    ← Equiv.sum_comp (contrEquiv1 dot_S4x2048x16_S4096x16_S4x2048x4096_2_1_01_0_n_n 16 rfl rfl).symm]
  refine Finset.sum_congr rfl fun k _ => ?_
  have hk := contrEquiv1_symm_val dot_S4x2048x16_S4096x16_S4x2048x4096_2_1_01_0_n_n 16 rfl rfl k
  congr 2
  · funext a; refine Fin.ext ?_
    match a with
    | ⟨0, _⟩ => exact lhsB_0 _ _
    | ⟨1, _⟩ => exact lhsB_1 _ _
    | ⟨2, _⟩ => exact (lhsB_2 _ _).trans hk
  · funext a; refine Fin.ext ?_
    match a with
    | ⟨0, _⟩ => exact rhsB_0 _ _
    | ⟨1, _⟩ => exact (rhsB_1 _ _).trans hk

/-! ## The weight read at an index -/

/-- The group scales on three axes read at (o, g, r): the scale of row o, group g. -/
theorem scales3_apply (s : FVec Ideal S4096x64 .f32) (o : Fin 4096) (g : Fin 64) (r : Fin 64) :
    scales3 (F := Ideal) s (ix3 (n0 := 4096) (n1 := 64) (n2 := 64) o g r) = s (ix2 (n0 := 4096) (n1 := 64) o g) := by
  unfold scales3
  refine (broadcastInDim_apply _ _ _ _ (ix3 (n0 := 4096) (n1 := 64) (n2 := 1) o g (0 : Fin 1)) ?_).trans ?_
  · intro a
    match a with
    | ⟨0, _⟩ => rfl
    | ⟨1, _⟩ => rfl
    | ⟨2, _⟩ => rfl
  · refine broadcastInDim_apply _ _ _ _ (ix2 (n0 := 4096) (n1 := 64) o g) ?_
    intro a
    match a with
    | ⟨0, _⟩ => rfl
    | ⟨1, _⟩ => rfl

/-- A code that is not negative is left alone by the wrap. -/
theorem wrapped_apply (q : IVec S4096x4096 32) (y : S4096x4096.Idx) (h0 : 0 ≤ (q y).toInt) :
    wrapped (F := Ideal) q y = q y := by
  unfold wrapped
  show Scalar.select (IntOp.cmpi .slt (q y) 0#32) (IntOp.addi (q y) 16#32) (q y) = q y
  have hs : (q y).slt 0#32 = false := by
    unfold BitVec.slt
    exact decide_eq_false (by rw [BitVec.toInt_zero]; exact not_lt.mpr h0)
  have hc : IntOp.cmpi .slt (q y) 0#32 = 0#1 := by
    unfold IntOp.cmpi
    show BitVec.ofBool ((q y).slt 0#32) = 0#1
    rw [hs]; rfl
  rw [hc, select_zero]

/-- The program's table and the specification's hold the same sixteen words. -/
theorem lit0_eq_nf4 : ∀ k : Fin 16, lit0 k = Cert.Spec.nf4 k := by decide

/-- For a word between 0 and 15 read as a signed integer, the clamp into the table's range is the low four bits. -/
theorem clamp_eq_code (w : BitVec 32) (h : 0 ≤ w.toInt ∧ w.toInt < 16) : min w.toInt.toNat (16 - 1) = w.toNat % 16 := by
  have hc := BitVec.toInt_eq_toNat_cond w
  have hlt := w.isLt
  split at hc <;> omega

/-- The gathered level at (o, k) is the level of the code there, for a code between 0 and 15. -/
theorem levels_apply (q : IVec S4096x4096 32) (y : S4096x4096.Idx) (h : 0 ≤ (q y).toInt ∧ (q y).toInt < 16) :
    levels (F := Ideal) q y = Cert.Spec.level (Cert.Spec.code (q y)) := by
  unfold levels
  refine (gather_take_apply (N := 16) (R := 4096) (C := 4096) (w := 32) (by decide)
    gather_S16_S4096x4096x1_S4096x4096_n_0_n_n_0_2_1_wf (table (F := Ideal)) _ y).trans ?_
  have hidx : broadcastInDim S4096x4096x1 ![0, 1] bcast_S4096x4096_S4096x4096x1_0_1 (wrapped (F := Ideal) q) (takeIdx y) = q y := by
    refine (broadcastInDim_apply _ _ _ (takeIdx y) y ?_).trans (wrapped_apply q y h.1)
    intro a
    match a with
    | ⟨0, _⟩ => rfl
    | ⟨1, _⟩ => rfl
  unfold table Cert.Spec.level
  refine congrArg (Ideal.ofBits .f32) ((lit0_eq_nf4 _).trans (congrArg Cert.Spec.nf4 (Fin.ext ?_)))
  refine (Shape.rowMajor_val_one _).trans ?_
  show min (broadcastInDim S4096x4096x1 ![0, 1] bcast_S4096x4096_S4096x4096x1_0_1 (wrapped (F := Ideal) q) (takeIdx y)).toInt.toNat (16 - 1) = (q y).toNat % 16
  rw [hidx]
  exact clamp_eq_code _ h

/-- The flat weight at (o, k): the level of the code there times the scale of the group k / 64 of row o. -/
theorem weight_apply (q : IVec S4096x4096 32) (s : FVec Ideal S4096x64 .f32)
    (hq : ∀ j : S4096x4096.Idx, 0 ≤ (q j).toInt ∧ (q j).toInt < 16) (o k : Fin 4096) :
    weight (F := Ideal) q s (ix2 (n0 := 4096) (n1 := 4096) o k) = Cert.Spec.Wd q s (ix2 (n0 := 4096) (n1 := 4096) o k) := by
  have hg : k.val / 64 < 64 := by have := k.isLt; omega
  have hr : k.val % 64 < 64 := Nat.mod_lt _ (by decide)
  unfold weight
  rw [shapeCast_apply _ shapeCasts_S4096x64x64_S4096x4096 (ix2 (n0 := 4096) (n1 := 4096) o k)
      (ix3 (n0 := 4096) (n1 := 64) (n2 := 64) o ⟨k.val / 64, hg⟩ ⟨k.val % 64, hr⟩)
      (by rw [Shape.rowMajor_val_three, Shape.rowMajor_val_two]
          show (o.val * 64 + k.val / 64) * 64 + k.val % 64 = o.val * 4096 + k.val
          omega),
    mulf_apply,
    shapeCast_apply _ shapeCasts_S4096x4096_S4096x64x64 (ix3 (n0 := 4096) (n1 := 64) (n2 := 64) o ⟨k.val / 64, hg⟩ ⟨k.val % 64, hr⟩)
      (ix2 (n0 := 4096) (n1 := 4096) o k)
      (by rw [Shape.rowMajor_val_three, Shape.rowMajor_val_two]
          show o.val * 4096 + k.val = (o.val * 64 + k.val / 64) * 64 + k.val % 64
          omega),
    scales3_apply, levels_apply q _ (hq _)]
  rfl

/-! ## The result -/

/-- With every code between 0 and 15 the composed term is the layer's output. -/
theorem res_eq_G (x : FVec Ideal S4x2048x4096 .f32) (q : IVec S4096x4096 32) (s : FVec Ideal S4096x64 .f32)
    (A : FVec Ideal S16x4096 .f32) (B : FVec Ideal S4096x16 .f32)
    (hq : ∀ j : S4096x4096.Idx, 0 ≤ (q j).toInt ∧ (q j).toInt < 16) :
    res (F := Ideal) x q s A B = Cert.Spec.G x q s A B := by
  funext (i : S4x2048x4096.Idx)
  have h2 : broadcastInDim S4x2048x4096 ![] bcast_S_S4x2048x4096 (constant (F := Ideal) S_ .f32 0x40000000#32) i = Cert.Spec.two :=
    broadcastInDim_apply _ _ _ i ix0 (fun a => a.elim0)
  have hW : Host.dotGeneral dot_S4x2048x4096_S4096x4096_S4x2048x4096_2_1_01_0_n_n none x (weight (F := Ideal) q s) i
      = ∑ k : Fin 4096, x (ix3 (n0 := 4) (n1 := 2048) (n2 := 4096) (i 0) (i 1) k) * Cert.Spec.Wd q s (ix2 (n0 := 4096) (n1 := 4096) (i 2) k) :=
    (dotW_apply x _ i).trans (Finset.sum_congr rfl fun k _ => congrArg (x (ix3 (n0 := 4) (n1 := 2048) (n2 := 4096) (i 0) (i 1) k) * ·) (weight_apply q s hq (i 2) k))
  have hA : adapter (F := Ideal) x A B i
      = ∑ r : Fin 16, (∑ k : Fin 4096, x (ix3 (n0 := 4) (n1 := 2048) (n2 := 4096) (i 0) (i 1) k) * A (ix2 (n0 := 16) (n1 := 4096) r k))
          * B (ix2 (n0 := 4096) (n1 := 16) (i 2) r) := by
    unfold adapter
    refine (dotB_apply _ B i).trans (Finset.sum_congr rfl fun r _ => ?_)
    rw [dotA_apply]
  unfold res
  rw [addf_apply, mulf_apply, hW, h2, hA]
  rfl

/-- On every device, from any memory with zero counters whose codes all lie between 0 and 15: every weakly fair
    execution of @main terminates with the result buffer at the layer's output and the arguments unchanged. -/
theorem run (m : (ℓ : Loc nD τ sig) → Buf (Elt Ideal) ℓ) (ρ : Dev nD → PrngReg)
    (hq : ∀ (c : Dev nD) (j : S4096x4096.Idx),
      0 ≤ BitVec.toInt (m ((c.tc : Thread nD τ).loc main_arg1) j) ∧ BitVec.toInt (m ((c.tc : Thread nD τ).loc main_arg1) j) < 16) :
    θ_run (defs (F := Ideal)) (onTc (τ := τ) (main (F := Ideal))) ⟨m, fun _ => 0, ρ⟩ fun r => ∀ c : Dev nD,
      r.2.mem ((c.tc : Thread nD τ).loc main_v17)
          = Cert.Spec.G (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (res_eq_G _ _ _ _ _ (hq c)), (h c).2⟩) (run_term (F := Ideal) m ρ)

end Cert.ReferenceIdeal.Hand

end
-- ==== Proof.PreDecode.lean ====
/-
  The precondition's last conjunct, read back at one entry. The printed predicate is a conjunction of five
  "all entries satisfy …" tests joined by `and`; the fifth says of the integer table that each entry, read signed,
  is at least 0 and below 16. From "the predicate is 1" this module extracts exactly that statement: the outer
  conjunction is split, the all-reduction by `and` gives the mask's bit at every index, the mask's bit at an index is
  the `and` of two signed comparisons of the entry against a constant laid over the whole rectangle, and a signed
  comparison word being 1 is the order of the signed values.
-/
import proofs.«407792_j46918222742185_2_alg».proof.Pre_finite_inputs
import proofs.«407792_j46918222742185_2_alg».proof.Proof.Gen.Pre_finite_inputs
import Idealize.ShloMosaic.Lib.ReduceAll

noncomputable section

namespace Cert.Pre_finite_inputs.Hand

open Idealize.ShloMosaic

/-- The rank-0 shape has one index. -/
instance : Subsingleton S_.Idx := ⟨fun a b => funext fun d => d.elim0⟩

/-- The two literals of the range test, read signed. -/
theorem toInt_zero32 : (0#32 : BitVec 32).toInt = 0 := by decide
theorem toInt_sixteen32 : (16#32 : BitVec 32).toInt = 16 := by decide

/-- If the precondition holds, every entry of the integer table is in [0, 16) as a signed word. -/
theorem wq_range {F : FTy → Type} [FloatOps F] [Cert.Pre_finite_inputs.Facts]
    (a0 : FVec F S4x2048x4096 .f32) (a1 : IVec S4096x4096 32) (a2 : FVec F S4096x64 .f32)
    (a3 : FVec F S16x4096 .f32) (a4 : FVec F S4096x16 .f32)
    (h : Cert.Pre_finite_inputs.fn (F := F) a0 a1 a2 a3 a4 = fun _ => 1#1) :
    ∀ j : S4096x4096.Idx, 0 ≤ (a1 j).toInt ∧ (a1 j).toInt < 16 := by
  intro j
  -- the predicate at its one index
  have e := congrFun h (fun a => a.elim0)
  dsimp only [fn, fn_part1] at e
  -- the outermost `and`: its right operand is the all-reduction of the range mask
  obtain ⟨-, e24⟩ := IntOp.andi_eq_one.1 e
  -- every bit of the mask is 1, in particular the bit at j
  have e23 := Host.reduce_andi_all _ _ _ _ _ e24 j
  -- the bit at j is the `and` of the two comparisons of entry j against the constants 0 and 16
  simp only [andi, cmpi, broadcastInDim, constantI] at e23
  obtain ⟨hge, hlt⟩ := IntOp.andi_eq_one.1 e23
  rw [IntOp.cmpi_sge, toInt_zero32] at hge
  rw [IntOp.cmpi_slt, toInt_sixteen32] at hlt
  exact ⟨hge, hlt⟩

end Cert.Pre_finite_inputs.Hand

end
-- ==== Proof.lean ====
/-
  An NF4-quantized linear layer with a low-rank adapter, as a two-kernel program, against its plain reference:
  the five claims.

  Both programs compute, at batch b, position t, output channel o,
      Σ_i x[b,t,i] * (level (code w_q[o,i]) * scales[o, i/64])  +  2 * Σ_r (Σ_i x[b,t,i] * A[r,i]) * B[o,r]
  on the extended reals, where a code's level is one of sixteen fixed numbers. They differ in how a code selects its level:
  the kernel looks at the code's low four bits only; the reference indexes the table of levels with the code itself, counting
  a negative code from the table's end and otherwise moving an out-of-range code to the nearest end. The two agree exactly
  when every code lies between 0 and 15, which the precondition states, and that is the only use of the precondition: the
  sums are regrouped (the kernel accumulates the contraction 512 columns at a time, and picks a group's scale by a sum against
  a zero-one selector) using nothing but the laws of a commutative monoid with zero, valid on all extended reals.

  The kernel program is three stretches of host operations, a dequantization region, one reshape, a matrix-product region
  that carries a small scratch between its grid points, and one reshape. Each region's body is run once for every control
  case, the two regions and the host stretches are chained into one run of the whole program, and that run is read at the
  arguments (the frame, for the word-level and for the idealized program alike) and at the result (the value). The
  reference is host operations only; its run is their composition.
-/
import proofs.«407792_j46918222742185_2_alg».proof.Defs
import proofs.«407792_j46918222742185_2_alg».proof.Proof.Gen.Kernel
import proofs.«407792_j46918222742185_2_alg».proof.Proof.Gen.Kernel.Skeleton
import proofs.«407792_j46918222742185_2_alg».proof.Proof.Gen.Kernel.Launch
import proofs.«407792_j46918222742185_2_alg».proof.Proof.Gen.Kernel.Regions
import proofs.«407792_j46918222742185_2_alg».proof.Proof.Gen.Kernel.Points
import proofs.«407792_j46918222742185_2_alg».proof.Proof.Gen.KernelIdeal
import proofs.«407792_j46918222742185_2_alg».proof.Proof.Gen.KernelIdeal.Skeleton
import proofs.«407792_j46918222742185_2_alg».proof.Proof.Gen.KernelIdeal.Launch
import proofs.«407792_j46918222742185_2_alg».proof.Proof.Gen.KernelIdeal.Regions
import proofs.«407792_j46918222742185_2_alg».proof.Proof.Gen.KernelIdeal.Points
import proofs.«407792_j46918222742185_2_alg».proof.Proof.Gen.ReferenceIdeal
import proofs.«407792_j46918222742185_2_alg».proof.Proof.Gen.Pre_finite_inputs
import proofs.«407792_j46918222742185_2_alg».proof.Proof.K.Frame
import proofs.«407792_j46918222742185_2_alg».proof.Proof.K.Region1
import proofs.«407792_j46918222742185_2_alg».proof.Proof.KI.Frame
import proofs.«407792_j46918222742185_2_alg».proof.Proof.KI.Region1
import proofs.«407792_j46918222742185_2_alg».proof.Proof.KI.Value0
import proofs.«407792_j46918222742185_2_alg».proof.Proof.KI.Value1
import proofs.«407792_j46918222742185_2_alg».proof.Proof.KI.HostVals
import proofs.«407792_j46918222742185_2_alg».proof.Proof.KI.KValue
import proofs.«407792_j46918222742185_2_alg».proof.Proof.RefValue
import proofs.«407792_j46918222742185_2_alg».proof.Proof.PreDecode
import Idealize.ShloMosaic.Adequacy
import Idealize.ShloMosaic.Init

noncomputable section

namespace Cert.Proof

open Idealize.ShloMosaic Idealize.SL.Sem

/-- The word-level program runs to the end, faults nowhere and leaves its arguments as launched. -/
theorem frame_k : Cert.frame_Kernel := fun m ρ _ =>
  Cert.Kernel.Hand.frame m ρ (fun V c => Cert.Kernel.Hand.body_obligation1 V c)
    (fun V c => Cert.Kernel.Hand.hin1 V c) (fun V c => Cert.Kernel.Hand.hout1 V c)

/-- So does the idealized program. -/
theorem frame_ki : Cert.frame_KernelIdeal := fun m ρ _ =>
  Cert.KernelIdeal.Hand.frame m ρ (fun V c => Cert.KernelIdeal.Hand.body_obligation1 V c)
    (fun V c => Cert.KernelIdeal.Hand.hin1 V c) (fun V c => Cert.KernelIdeal.Hand.hout1 V c)

/-- And the reference: its run with the result forgotten. -/
theorem frame_r : Cert.frame_ReferenceIdeal := fun m ρ _ =>
  (θ_run Cert.ReferenceIdeal.defs _ _).mono (fun _ h c => (h c).2) (Cert.ReferenceIdeal.Hand.run_term (F := Ideal) m ρ)

/-- The idealization rewrote nothing. -/
theorem preserves : Cert.preserves_Kernel_KernelIdeal := trivial

/-- From memories agreeing on the arguments, under the precondition, both idealized programs end with the layer's output. -/
theorem algebraic : Cert.algebraic_KernelIdeal_ReferenceIdeal := by
  intro m ρ m' ρ' hpre hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · -- the kernel program: its run with the result named, and the result as the layer's output
    refine (θ_run Cert.KernelIdeal.defs _ _).mono (fun r h c => ⟨(h c).1.trans ?_, (h c).2⟩)
      (Cert.KernelIdeal.Hand.run_value m ρ (fun V c => Cert.KernelIdeal.Hand.body_obligation1 V c)
        (fun V c => Cert.KernelIdeal.Hand.hin1 V c) (fun V c => Cert.KernelIdeal.Hand.hout1 V c))
    exact Cert.KernelIdeal.Hand.result_eq m c (fun V c => Cert.KernelIdeal.Hand.arr0_eq V c)
      (fun V c => Cert.KernelIdeal.Hand.arr1_eq V c) (Cert.KernelIdeal.Hand.v9_eq m c) (Cert.KernelIdeal.Hand.v0_eq m c)
      Cert.KernelIdeal.Hand.v11_eq Cert.KernelIdeal.Hand.v13_at
  · -- the reference: every code lies between 0 and 15 (the precondition, carried across the agreement of the memories)
    have hq : ∀ (c : Dev Cert.ReferenceIdeal.nD) (j : Cert.ReferenceIdeal.S4096x4096.Idx),
        0 ≤ BitVec.toInt (m' ((c.tc : Thread Cert.ReferenceIdeal.nD Cert.ReferenceIdeal.τ).loc Cert.ReferenceIdeal.main_arg1) j)
        ∧ BitVec.toInt (m' ((c.tc : Thread Cert.ReferenceIdeal.nD Cert.ReferenceIdeal.τ).loc Cert.ReferenceIdeal.main_arg1) j) < 16 := by
      intro c j
      rw [(hagree c).2.1]
      exact Cert.Pre_finite_inputs.Hand.wq_range _ _ _ _ _ (hpre c) j
    refine (θ_run Cert.ReferenceIdeal.defs _ _).mono (fun r h c => ⟨(h c).1.trans ?_, (h c).2⟩)
      (Cert.ReferenceIdeal.Hand.run m' ρ' hq)
    rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
